-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x600000 : Shape := ⟨2, ![2, 600000]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x256 .f32) (main_arg1 : IVec S2x600000 32) (main_arg2 : FVec F S256x128 .f32) (main_arg3 : FVec F S128 .f32) (main_arg4 : FVec F S128 .f32) (main_arg5 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S50000x256 : Shape := ⟨2, ![50000, 256]⟩
abbrev S2x600000 : Shape := ⟨2, ![2, 600000]⟩
abbrev S256x128 : Shape := ⟨2, ![256, 128]⟩
abbrev S128 : Shape := ⟨1, ![128]⟩
abbrev S50000x128 : Shape := ⟨2, ![50000, 128]⟩
abbrev S5000x256 : Shape := ⟨2, ![5000, 256]⟩
abbrev S5000x128 : Shape := ⟨2, ![5000, 128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 69
  | .vmem => 21
  | .smem => 0
  | _ => 0

abbrev bufTy : (tb : Table) → Fin (tcTables nBuf tb) → BufTy
  | .hbm, ⟨0, _⟩ => ⟨S50000x256, .f32⟩
  | .hbm, ⟨1, _⟩ => ⟨S2x600000, .i32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S50000x128, .f32⟩
  | .hbm, ⟨7, _⟩ => ⟨S50000, .i32⟩
  | .hbm, ⟨8, _⟩ => ⟨S1x600000, .i32⟩
  | .hbm, ⟨9, _⟩ => ⟨S600000, .i32⟩
  | .hbm, ⟨10, _⟩ => ⟨S650000, .i32⟩
  | .hbm, ⟨11, _⟩ => ⟨S1x600000, .i32⟩
  | .hbm, ⟨12, _⟩ => ⟨S600000, .i32⟩
  | .hbm, ⟨13, _⟩ => ⟨S650000, .i32⟩
  | .hbm, ⟨14, _⟩ => ⟨S_, .f32⟩
  | .hbm, ⟨15, _⟩ => ⟨S650000, .f32⟩
  | .hbm, ⟨16, _⟩ => ⟨S_, .f32⟩
  | .hbm, ⟨17, _⟩ => ⟨S50000, .f32⟩
  | .hbm, ⟨18, _⟩ => ⟨S650000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S650000, .i32⟩
  | .hbm, ⟨30, _⟩ => ⟨S650000, .i1⟩
  | .hbm, ⟨31, _⟩ => ⟨S_, .i32⟩
  | .hbm, ⟨32, _⟩ => ⟨S650000, .i32⟩
  | .hbm, ⟨33, _⟩ => ⟨S650000, .i32⟩
  | .hbm, ⟨34, _⟩ => ⟨S650000, .i32⟩
  | .hbm, ⟨35, _⟩ => ⟨S650000x1, .i32⟩
  | .hbm, ⟨36, _⟩ => ⟨S650000, .f32⟩
  | .hbm, ⟨37, _⟩ => ⟨S_, .i32⟩
  | .hbm, ⟨38, _⟩ => ⟨S650000, .i32⟩
  | .hbm, ⟨39, _⟩ => ⟨S650000, .i1⟩
  | .hbm, ⟨40, _⟩ => ⟨S_, .i32⟩
  | .hbm, ⟨41, _⟩ => ⟨S650000, .i32⟩
  | .hbm, ⟨42, _⟩ => ⟨S650000, .i32⟩
  | .hbm, ⟨43, _⟩ => ⟨S650000, .i32⟩
  | .hbm, ⟨44, _⟩ => ⟨S650000x1, .i32⟩
  | .hbm, ⟨45, _⟩ => ⟨S650000, .f32⟩
  | .hbm, ⟨46, _⟩ => ⟨S650000, .f32⟩
  | .hbm, ⟨47, _⟩ => ⟨S_, .i32⟩
  | .hbm, ⟨48, _⟩ => ⟨S650000, .i32⟩
  | .hbm, ⟨49, _⟩ => ⟨S650000, .i1⟩
  | .hbm, ⟨50, _⟩ => ⟨S_, .i32⟩
  | .hbm, ⟨51, _⟩ => ⟨S650000, .i32⟩
  | .hbm, ⟨52, _⟩ => ⟨S650000, .i32⟩
  | .hbm, ⟨53, _⟩ => ⟨S650000, .i32⟩
  | .hbm, ⟨54, _⟩ => ⟨S650000x1, .i32⟩
  | .hbm, ⟨55, _⟩ => ⟨S650000x128, .f32⟩
  | .hbm, ⟨56, _⟩ => ⟨S650000x1, .f32⟩
  | .hbm, ⟨57, _⟩ => ⟨S650000x128, .f32⟩
  | .hbm, ⟨58, _⟩ => ⟨S650000x128, .f32⟩
  | .hbm, ⟨59, _⟩ => ⟨S_, .f32⟩
  | .hbm, ⟨60, _⟩ => ⟨S50000x128, .f32⟩
  | .hbm, ⟨61, _⟩ => ⟨S650000x1, .i32⟩
  | .hbm, ⟨62, _⟩ => ⟨S50000x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47_0 : Ref sig .tc := ⟨.hbm, 66, rfl⟩
abbrev main_v47_1 : Ref sig .tc := ⟨.hbm, 67, rfl⟩
abbrev main_v48 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg6_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  broadcasts_S1x128_S5000x128 : S1x128.Broadcasts S5000x128
  reduces_S5000x128_S128 : S5000x128.Reduces [0] S128
  dot_S5000x256_S256x128_S5000x128_1_0_0_1_n_n_wf : DotDims.WF S5000x256 S256x128 S5000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47_0) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47_1) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v48) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x600000 : Shape := ⟨2, ![2, 600000]⟩
abbrev S256x128 : Shape := ⟨2, ![256, 128]⟩
abbrev S128 : Shape := ⟨1, ![128]⟩
abbrev S50000x128 : Shape := ⟨2, ![50000, 128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 99
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x600000, .i32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S50000x128, .f32⟩
  | .hbm, ⟨7, _⟩ => ⟨S50000, .i32⟩
  | .hbm, ⟨8, _⟩ => ⟨S1x600000, .i32⟩
  | .hbm, ⟨9, _⟩ => ⟨S600000, .i32⟩
  | .hbm, ⟨10, _⟩ => ⟨S650000, .i32⟩
  | .hbm, ⟨11, _⟩ => ⟨S1x600000, .i32⟩
  | .hbm, ⟨12, _⟩ => ⟨S600000, .i32⟩
  | .hbm, ⟨13, _⟩ => ⟨S650000, .i32⟩
  | .hbm, ⟨14, _⟩ => ⟨S_, .f32⟩
  | .hbm, ⟨15, _⟩ => ⟨S650000, .f32⟩
  | .hbm, ⟨16, _⟩ => ⟨S_, .f32⟩
  | .hbm, ⟨17, _⟩ => ⟨S50000, .f32⟩
  | .hbm, ⟨18, _⟩ => ⟨S650000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S650000, .i32⟩
  | .hbm, ⟨30, _⟩ => ⟨S650000, .i1⟩
  | .hbm, ⟨31, _⟩ => ⟨S_, .i32⟩
  | .hbm, ⟨32, _⟩ => ⟨S650000, .i32⟩
  | .hbm, ⟨33, _⟩ => ⟨S650000, .i32⟩
  | .hbm, ⟨34, _⟩ => ⟨S650000, .i32⟩
  | .hbm, ⟨35, _⟩ => ⟨S650000x1, .i32⟩
  | .hbm, ⟨36, _⟩ => ⟨S650000, .f32⟩
  | .hbm, ⟨37, _⟩ => ⟨S_, .i32⟩
  | .hbm, ⟨38, _⟩ => ⟨S650000, .i32⟩
  | .hbm, ⟨39, _⟩ => ⟨S650000, .i1⟩
  | .hbm, ⟨40, _⟩ => ⟨S_, .i32⟩
  | .hbm, ⟨41, _⟩ => ⟨S650000, .i32⟩
  | .hbm, ⟨42, _⟩ => ⟨S650000, .i32⟩
  | .hbm, ⟨43, _⟩ => ⟨S650000, .i32⟩
  | .hbm, ⟨44, _⟩ => ⟨S650000x1, .i32⟩
  | .hbm, ⟨45, _⟩ => ⟨S650000, .f32⟩
  | .hbm, ⟨46, _⟩ => ⟨S650000, .f32⟩
  | .hbm, ⟨47, _⟩ => ⟨S_, .i32⟩
  | .hbm, ⟨48, _⟩ => ⟨S650000, .i32⟩
  | .hbm, ⟨49, _⟩ => ⟨S650000, .i1⟩
  | .hbm, ⟨50, _⟩ => ⟨S_, .i32⟩
  | .hbm, ⟨51, _⟩ => ⟨S650000, .i32⟩
  | .hbm, ⟨52, _⟩ => ⟨S650000, .i32⟩
  | .hbm, ⟨53, _⟩ => ⟨S650000, .i32⟩
  | .hbm, ⟨54, _⟩ => ⟨S650000x1, .i32⟩
  | .hbm, ⟨55, _⟩ => ⟨S650000x128, .f32⟩
  | .hbm, ⟨56, _⟩ => ⟨S650000x1, .f32⟩
  | .hbm, ⟨57, _⟩ => ⟨S650000x128, .f32⟩
  | .hbm, ⟨58, _⟩ => ⟨S650000x128, .f32⟩
  | .hbm, ⟨59, _⟩ => ⟨S_, .f32⟩
  | .hbm, ⟨60, _⟩ => ⟨S50000x128, .f32⟩
  | .hbm, ⟨61, _⟩ => ⟨S650000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S_, .f32⟩
  | .hbm, ⟨87, _⟩ => ⟨S128, .f32⟩
  | .hbm, ⟨88, _⟩ => ⟨S128, .f32⟩
  | .hbm, ⟨89, _⟩ => ⟨S128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S50000x128, .f32⟩
  | .hbm, ⟨96, _⟩ => ⟨S_, .f32⟩
  | .hbm, ⟨97, _⟩ => ⟨S50000x128, .f32⟩
  | .hbm, ⟨98, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_cst : Ref sig .tc := ⟨.hbm, 96, rfl⟩
abbrev main_call1_v0 : Ref sig .tc := ⟨.hbm, 97, rfl⟩
abbrev main_v72 : Ref sig .tc := ⟨.hbm, 98, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  dot_S50000x256_S256x128_S50000x128_1_0_0_1_n_n_wf : DotDims.WF S50000x256 S256x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.K.Region0.lean ====
/-
  Region 0 of @main: the product of one 5000-row block of `x` with the whole of `W`, written to the matching
  5000-row block of `h`. Stated at any contents `V` of the core's buffers at the region's entry: a point's input
  blocks are read off `V`, the output block is the body's one store over them, and the body leaves the inputs as
  it found them. The invariant is the scoped rest and the generator register, which the body does not touch.
-/
import proofs.«149105_j37778532336358_1_alg».proof.Proof.Gen.Kernel.Launch
import proofs.«149105_j37778532336358_1_alg».proof.Proof.Gen.Kernel.Skeleton
import proofs.«149105_j37778532336358_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S5000x256 := Rect.unit (s := S5000x256) ![0, 0] S5000x256.size inb_S5000x256_S5000x256_0_0
abbrev r0_w : Rect S256x128 := Rect.unit (s := S256x128) ![0, 0] S256x128.size inb_S256x128_S256x128_0_0
abbrev r0_o : Rect S5000x128 := Rect.unit (s := S5000x128) ![0, 0] S5000x128.size inb_S5000x128_S5000x128_0_0

/-- The output block after the body: its one store, over the two input blocks. -/
def out0_2 (x0 : Vec F S5000x256 .f32) (x1 : Vec F S256x128 .f32) : Vec F S5000x128 .f32 :=
  View.canon [⟨r0_o, k0_pay1 (View.ld x0 r0_x) (View.ld x1 r0_w)⟩]

theorem cover0_2 (p0 : Vec F S5000x128 .f32) (y : S5000x128.Idx) :
    ∃ pc ∈ ([⟨r0_o, p0⟩] : List (View.Piece (Elt F) S5000x128 .f32)), y ∈ pc.1.set :=
  View.cover_of_tiled [⟨r0_o, p0⟩] S5000x128.size (by rfl) y

set_option maxHeartbeats 1000000 in
/-- The body on whole staging memrefs: the inputs keep their contents, the output ends at `out0_2` of them. -/
theorem sound_kernel0 (c : Dev nD) (E : Set ℕ) (i : grid0.Coords) (arg1 : Memref sig .tc .vmem S5000x256 .f32) (harg1 : arg1.IsWhole)
    (arg2 : Memref sig .tc .vmem S256x128 .f32) (harg2 : arg2.IsWhole) (arg3 : Memref sig .tc .vmem S5000x128 .f32) (harg3 : arg3.IsWhole)
    (x0 : Vec F S5000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  Region 1 of @main: the batch-norm statistics over ten 5000-row blocks of the aggregated array. Two scratch rows are
  carried from point to point: the running column sums of (block + bias row) and the running column sums of its
  squares; the first point resets both before accumulating, and the last point stores the mean and the variance rows
  computed from them. Stated at any contents `V` of the core's buffers at the region's entry.
-/
import proofs.«149105_j37778532336358_1_alg».proof.Proof.Gen.Kernel.Launch
import proofs.«149105_j37778532336358_1_alg».proof.Proof.Gen.Kernel.Skeleton
import proofs.«149105_j37778532336358_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's two branch conditions, in closed form over the grid -/

/-- The first `scf.if` (the reset of the two scratch rows) tests the grid coordinate against zero. -/
abbrev cond1_0 (i : grid1.Coords) : Prop :=
  (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second `scf.if` (the stores of the mean and the variance) tests it against nine. -/
abbrev cond1_1 (i : grid1.Coords) : Prop := k1_cond2 i = 1#1
/-- It holds at the last point only. -/
theorem hcond1_1 : ∀ t : Fin cfg1.N, cond1_1 (grid1.coords t) ↔ t.val = 9 :=
  (by decide +kernel : ∀ t : Fin grid1.N, cond1_1 (grid1.coords t) ↔ t.val = 9)

/-! ## Loads and stores through a whole buffer -/

/-- The rectangle every load and store of the body goes through: the whole block, and the whole row. -/
abbrev r1_b : Rect S5000x128 := Rect.unit (s := S5000x128) ![0, 0] S5000x128.size inb_S5000x128_S5000x128_0_0
abbrev r1_v : Rect S1x128 := Rect.unit (s := S1x128) ![0, 0] S1x128.size inb_S1x128_S1x128_0_0

theorem off1_zero : (![0, 0] : Fin 2 → ℕ) = fun _ => 0 := by funext a; fin_cases a <;> rfl

/-- A load of the whole block reads the buffer's contents. -/
theorem load1_b {κ : Kind} {sp : Space} (v : View sig κ sp S5000x128 .f32) (f : v.ty.Contents (Elt F)) :
    v.readAt (Elt F) r1_b.toLoadRect f = v.read (Elt F) f :=
  (View.readAt_eq_ld v f r1_b).trans (View.ld_unit_zero (S := S5000x128) off1_zero _ _)
/-- A load of the whole row reads the buffer's contents. -/
theorem load1_v {κ : Kind} {sp : Space} (v : View sig κ sp S1x128 .f32) (f : v.ty.Contents (Elt F)) :
    v.readAt (Elt F) r1_v.toLoadRect f = v.read (Elt F) f :=
  (View.readAt_eq_ld v f r1_v).trans (View.ld_unit_zero (S := S1x128) off1_zero _ _)
/-- After a store of the whole row, whatever was stored before, the buffer reads the row stored. -/
theorem store1_v {κ : Kind} {sp : Space} (v : View sig κ sp S1x128 .f32) (f : v.ty.Contents (Elt F)) (w : Vec F S1x128 .f32)
    (L : List (View.Piece (Elt F) S1x128 .f32)) :
    v.read (Elt F) (v.writes (Elt F) f ((⟨r1_v, w⟩ : View.Piece (Elt F) S1x128 .f32) :: L)) = w := by
  have hcov : ∀ y : S1x128.Idx, ∃ p ∈ ((⟨r1_v, w⟩ : View.Piece (Elt F) S1x128 .f32) :: L), y ∈ p.1.set :=
    fun y => ⟨⟨r1_v, w⟩, List.mem_cons_self, View.mem_set_unit_zero (S := S1x128) off1_zero inb_S1x128_S1x128_0_0 y⟩
  rw [View.read_writes_eq_canon v f _ hcov]
  exact View.canon_cons_unit_zero (S := S1x128) off1_zero inb_S1x128_S1x128_0_0 w L
/-- A load of the whole row after one store of it reads the row stored. -/
theorem reload1_v {κ : Kind} {sp : Space} (v : View sig κ sp S1x128 .f32) (w : Vec F S1x128 .f32) :
    v.readCov [(⟨r1_v, w⟩ : View.Piece (Elt F) S1x128 .f32)] r1_v.toLoadRect = w :=
  View.readCov_unit_zero (S := S1x128) v off1_zero _ w

/-! ## The body on whole memrefs, case by case

The printed body is its skeleton of loads and stores over the named payloads. The case's hypotheses decide the two
`scf.if`s; run from them, the body leaves in each buffer it stores into the list of its stores. Every load and
store is of a whole buffer, so what a buffer ends with is its last store's payload, and what a load reads is the
contents found or the payload stored just before. -/

set_option maxHeartbeats 1000000 in
/-- The first point. Both scratch rows (found at anything) are reset and then accumulate the block: they end at the
    sum and the sum of squares of (block + bias row) over the reset rows. The inputs and the two output rows keep
    their contents. -/
theorem run1_A (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (hc1 : ¬cond1_1 i)
    (x0 : Vec F S5000x128 .f32) (x1 y2 y3 : Vec F S1x128 .f32) (K : PUnit → sProp 𝕄) :
    iprop(owns (c : Thread nD τ) arg1 fullShare x0 ∗ owns (c : Thread nD τ) arg2 fullShare x1
        ∗ owns (c : Thread nD τ) arg3 fullShare y2 ∗ owns (c : Thread nD τ) arg4 fullShare y3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare y2 ∗ owns (c : Thread nD τ) arg4 fullShare y3
            ∗ owns (c : Thread nD τ) arg5 fullShare (k1_pay4 x0 x1 (k1_pay1 (F := F)))
            ∗ owns (c : Thread nD τ) arg6 fullShare (k1_pay5 x0 x1 (k1_pay2 (F := F)))) -∗ K ⟨⟩))
      ⊢ wp frame (wpE (defs₀ (F := F)) Variants.none c none) E
          (cc1__bn_stats_kernel i arg1 harg1 arg2 harg2 arg3 harg3 arg4 harg4 arg5 harg5 arg6 harg6) K := by
  simp only [cc1__bn_stats_kernel_eq_skeleton]; unfold cc1__bn_stats_kernel_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HS0]
  · iexists _; isplitr
    swap; · iexact HS0
    ipureintro
    sl_unfold_words
    rw [store1_v, load1_b, load1_v, reload1_v]
  iexists _; isplitr
  swap; · iexact HS1
  ipureintro
  sl_unfold_words
  rw [store1_v, load1_b, load1_v, reload1_v]

set_option maxHeartbeats 1000000 in
/-- A point that is neither the first nor the last. The scratch rows, found at `xs0` and `xs1`, accumulate the
    block; the inputs and the two output rows keep their contents. -/
theorem run1_B (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : ¬cond1_1 i)
    (x0 : Vec F S5000x128 .f32) (x1 y2 y3 xs0 xs1 : Vec F S1x128 .f32) (K : PUnit → sProp 𝕄) :
    iprop(owns (c : Thread nD τ) arg1 fullShare x0 ∗ owns (c : Thread nD τ) arg2 fullShare x1
        ∗ owns (c : Thread nD τ) arg3 fullShare y2 ∗ owns (c : Thread nD τ) arg4 fullShare y3
        ∗ owns (c : Thread nD τ) arg5 fullShare xs0 ∗ owns (c : Thread nD τ) arg6 fullShare xs1
        ∗ (iprop(owns (c : Thread nD τ) arg1 fullShare x0 ∗ owns (c : Thread nD τ) arg2 fullShare x1
            ∗ owns (c : Thread nD τ) arg3 fullShare y2 ∗ owns (c : Thread nD τ) arg4 fullShare y3
            ∗ owns (c : Thread nD τ) arg5 fullShare (k1_pay4 x0 x1 xs0)
            ∗ owns (c : Thread nD τ) arg6 fullShare (k1_pay5 x0 x1 xs1)) -∗ K ⟨⟩))
      ⊢ wp frame (wpE (defs₀ (F := F)) Variants.none c none) E
          (cc1__bn_stats_kernel i arg1 harg1 arg2 harg2 arg3 harg3 arg4 harg4 arg5 harg5 arg6 harg6) K := by
  simp only [cc1__bn_stats_kernel_eq_skeleton]; unfold cc1__bn_stats_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  subst hf0; subst hf1; subst hf2; subst hf3; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HS0]
  · iexists _; isplitr
    swap; · iexact HS0
    ipureintro
    sl_unfold_words
    rw [store1_v, load1_b, load1_v, load1_v]
  iexists _; isplitr
  swap; · iexact HS1
  ipureintro
  sl_unfold_words
  rw [store1_v, load1_b, load1_v, load1_v]

set_option maxHeartbeats 1000000 in
/-- The last point. As at a middle point, and then the mean row is stored from the sum row just accumulated, the
    variance row from it and the sum-of-squares row; the output rows are found at anything. -/
theorem run1_C (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : cond1_1 i)
    (x0 : Vec F S5000x128 .f32) (x1 xs0 xs1 : Vec F S1x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ owns (c : Thread nD τ) arg5 fullShare xs0 ∗ owns (c : Thread nD τ) arg6 fullShare xs1
        ∗ (iprop(owns (c : Thread nD τ) arg1 fullShare x0 ∗ owns (c : Thread nD τ) arg2 fullShare x1
            ∗ owns (c : Thread nD τ) arg3 fullShare (k1_pay6 (k1_pay4 x0 x1 xs0))
            ∗ owns (c : Thread nD τ) arg4 fullShare (k1_pay7 (k1_pay4 x0 x1 xs0) (k1_pay5 x0 x1 xs1))
            ∗ owns (c : Thread nD τ) arg5 fullShare (k1_pay4 x0 x1 xs0)
            ∗ owns (c : Thread nD τ) arg6 fullShare (k1_pay5 x0 x1 xs1)) -∗ K ⟨⟩))
      ⊢ wp frame (wpE (defs₀ (F := F)) Variants.none c none) E
          (cc1__bn_stats_kernel i arg1 harg1 arg2 harg2 arg3 harg3 arg4 harg4 arg5 harg5 arg6 harg6) K := by
  simp only [cc1__bn_stats_kernel_eq_skeleton]; unfold cc1__bn_stats_kernel_skel
  unfold owns
  iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
  subst hf0; subst hf1; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [store1_v, reload1_v, load1_b, load1_v, load1_v]
  isplitl [H3]
  · iexists _; isplitr
    swap; · iexact H3
    ipureintro
    sl_unfold_words
    rw [store1_v, reload1_v, reload1_v, load1_b, load1_v, load1_v, load1_v]
  isplitl [HS0]
  · iexists _; isplitr
    swap; · iexact HS0
    ipureintro
    sl_unfold_words
    rw [store1_v, load1_b, load1_v, load1_v]
  iexists _; isplitr
  swap; · iexact HS1
  ipureintro
  sl_unfold_words
  rw [store1_v, load1_b, load1_v, load1_v]

/-! ## The inputs' staging buffers -/

/-- An input's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## Where the output windows are idle -/

/-- The inputs are never idle. -/
theorem live1_0 : ∀ t : Fin cfg1.N, cfg1.idle 0 (grid1.coords t) = false := by decide +kernel
theorem live1_1 : ∀ t : Fin cfg1.N, cfg1.idle 1 (grid1.coords t) = false := by decide +kernel
/-- Before the last point the printed configuration calls the two output windows idle, and the pipeline does not
    write their blocks back; at the last point they are live. -/
theorem idle1_2 : ∀ t : Fin cfg1.N, ¬cond1_1 (grid1.coords t) → cfg1.idle 2 (grid1.coords t) = true := by decide +kernel
theorem idle1_3 : ∀ t : Fin cfg1.N, ¬cond1_1 (grid1.coords t) → cfg1.idle 3 (grid1.coords t) = true := by decide +kernel
theorem noflush1_2 : ∀ t : Fin cfg1.N, ¬cond1_1 (grid1.coords t) → (cfg1.win 2).flush t = false := by decide +kernel
theorem noflush1_3 : ∀ t : Fin cfg1.N, ¬cond1_1 (grid1.coords t) → (cfg1.win 3).flush t = false := by decide +kernel
theorem live1_2 : ∀ t : Fin cfg1.N, cond1_1 (grid1.coords t) → cfg1.idle 2 (grid1.coords t) = false := by decide +kernel
theorem live1_3 : ∀ t : Fin cfg1.N, cond1_1 (grid1.coords t) → cfg1.idle 3 (grid1.coords t) = false := by decide +kernel

/-! ## What the scratch rows and the outputs hold after each point -/

/-- The two scratch rows the body carries from point to point, as memrefs: whole scoped buffers of the call's own. -/
abbrev sc1_0 : Memref sig .tc .vmem S1x128 .f32 := Memref.whole cc1_scratch0
abbrev sc1_1 : Memref sig .tc .vmem S1x128 .f32 := Memref.whole cc1_scratch1

/-- The sum row after the body at position `n`: the first point accumulates its block over the reset row, every
    later point over what the point before left. -/
def sum1 (V : (c : Dev nD) → (b : Ref sig .tc) → Buf (Elt F) ((c : Thread nD τ).loc b)) (c : Dev nD) : (n : ℕ) → n < cfg1.N → Vec F S1x128 .f32
  | 0, h => k1_pay4 (iblk1 V c 0 ⟨0, h⟩) (iblk1 V c 1 ⟨0, h⟩) (k1_pay1 (F := F))
  | n + 1, h => k1_pay4 (iblk1 V c 0 ⟨n + 1, h⟩) (iblk1 V c 1 ⟨n + 1, h⟩) (sum1 V c n (Nat.lt_of_succ_lt h))

/-- The sum-of-squares row after the body at position `n`, likewise. -/
def sq1 (V : (c : Dev nD) → (b : Ref sig .tc) → Buf (Elt F) ((c : Thread nD τ).loc b)) (c : Dev nD) : (n : ℕ) → n < cfg1.N → Vec F S1x128 .f32
  | 0, h => k1_pay5 (iblk1 V c 0 ⟨0, h⟩) (iblk1 V c 1 ⟨0, h⟩) (k1_pay2 (F := F))
  | n + 1, h => k1_pay5 (iblk1 V c 0 ⟨n + 1, h⟩) (iblk1 V c 1 ⟨n + 1, h⟩) (sq1 V c n (Nat.lt_of_succ_lt h))

theorem sum1_first (c : Dev nD) (t : Fin cfg1.N) (h0 : t.val = 0) :
    sum1 V c t.val t.isLt = k1_pay4 (iblk1 V c 0 t) (iblk1 V c 1 t) (k1_pay1 (F := F)) := by
  obtain ⟨n, hn⟩ := t
  cases n with
  | zero => rfl
  | succ n => exact absurd h0 (Nat.succ_ne_zero n)
theorem sq1_first (c : Dev nD) (t : Fin cfg1.N) (h0 : t.val = 0) :
    sq1 V c t.val t.isLt = k1_pay5 (iblk1 V c 0 t) (iblk1 V c 1 t) (k1_pay2 (F := F)) := by
  obtain ⟨n, hn⟩ := t
  cases n with
  | zero => rfl
  | succ n => exact absurd h0 (Nat.succ_ne_zero n)
theorem sum1_next (c : Dev nD) (t : Fin cfg1.N) (h0 : t.val ≠ 0) :
    sum1 V c t.val t.isLt = k1_pay4 (iblk1 V c 0 t) (iblk1 V c 1 t) (sum1 V c (t.val - 1) (Nat.lt_of_le_of_lt (Nat.sub_le _ _) t.isLt)) := by
  obtain ⟨n, hn⟩ := t
  cases n with
  | zero => exact absurd rfl h0
  | succ n => rfl
theorem sq1_next (c : Dev nD) (t : Fin cfg1.N) (h0 : t.val ≠ 0) :
    sq1 V c t.val t.isLt = k1_pay5 (iblk1 V c 0 t) (iblk1 V c 1 t) (sq1 V c (t.val - 1) (Nat.lt_of_le_of_lt (Nat.sub_le _ _) t.isLt)) := by
  obtain ⟨n, hn⟩ := t
  cases n with
  | zero => exact absurd rfl h0
  | succ n => rfl

/-- After the body at position `n`: the mean window's buffer, the variance window's buffer, the sum scratch, the
    sum-of-squares scratch. The two window components are the mean and the variance OF THE ROWS SO FAR: what the
    last point stores there; before it the body stores nothing into those windows, the pipeline neither writes them
    back nor reads them, and the components stand for nothing the run consults. -/
def outsAt1 (V : (c : Dev nD) → (b : Ref sig .tc) → Buf (Elt F) ((c : Thread nD τ).loc b)) (c : Dev nD) : (n : ℕ) → n < cfg1.N → Vec F S1x128 .f32 × Vec F S1x128 .f32 × Vec F S1x128 .f32 × Vec F S1x128 .f32 :=
  fun n h => (k1_pay6 (sum1 V c n h), k1_pay7 (sum1 V c n h) (sq1 V c n h), sum1 V c n h, sq1 V c n h)

/-- The region invariant before position `n`. Before the first point it is what the launch hands the region: every
    scoped buffer that is no staging buffer of this call at some contents, and the generator register. Afterwards the
    two scratch rows are owned at what the point before left in them, beside the other scoped buffers (unopened) and
    the generator register. -/
def PhiS1 (V : (c : Dev nD) → (b : Ref sig .tc) → Buf (Elt F) ((c : Thread nD τ).loc b)) (c : Dev nD) : (n : ℕ) → n ≤ cfg1.N → sProp 𝕄
  | 0, _ => Pipeline.ΦA spec1 c
  | n + 1, hn => iprop(iprop(iprop(owns (c : Thread nD τ) sc1_0 fullShare (sum1 V c n hn) ∗ owns (c : Thread nD τ) sc1_1 fullShare (sq1 V c n hn))
      ∗ Pipeline.scopedRestBut (Ix := Unit) (Name := ℕ) (U := UR sig nD τ) (Lvl := ℕ) (Val := Elt F) spec1 c [cc1_scratch0, cc1_scratch1])
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) sc1_0 fullShare (sum1 V c n hn) ∗ owns (c : Thread nD τ) sc1_1 fullShare (sq1 V c n hn))
      ∗ Pipeline.scopedRestBut (Ix := Unit) (Name := ℕ) (U := UR sig nD τ) (Lvl := ℕ) (Val := Elt F) spec1 c [cc1_scratch0, cc1_scratch1])
      ∗ (∃ r, prngReg c r)) := rfl

theorem PhiS1_pos (c : Dev nD) (n : ℕ) (h : n ≤ cfg1.N) (hz : n ≠ 0) :
    PhiS1 V c n h = iprop(iprop(iprop(owns (c : Thread nD τ) sc1_0 fullShare (sum1 V c (n - 1) (by omega)) ∗ owns (c : Thread nD τ) sc1_1 fullShare (sq1 V c (n - 1) (by omega)))
      ∗ Pipeline.scopedRestBut (Ix := Unit) (Name := ℕ) (U := UR sig nD τ) (Lvl := ℕ) (Val := Elt F) spec1 c [cc1_scratch0, cc1_scratch1])
      ∗ (∃ r, prngReg c r)) := by
  cases n with
  | zero => exact absurd rfl hz
  | succ n => rfl

/-- What the launch hands the region, with the two scratch rows split out of the scoped rest as memrefs owned at
    some contents. -/
theorem PhiA1_eq (c : Dev nD) :
    (Pipeline.ΦA spec1 c : sProp 𝕄)
      = iprop(iprop(iprop((∃ d, owns (c : Thread nD τ) sc1_0 fullShare d) ∗ (∃ d, owns (c : Thread nD τ) sc1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA
  rw [Pipeline.scopedRest_split_of_list spec1 c [cc1_scratch0, cc1_scratch1] (by decide) (by decide)]
  simp only [sc1_0, sc1_1, owns_whole]
  try rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point. The inputs' buffers hold their blocks. At the first point the invariant hands the two
    scratch rows at anything and the reset case runs; at a later point it hands them at what the point before left,
    and the accumulating case runs, at the last point followed by the stores of the mean and the variance. Before the
    last point the two output windows are idle: their buffers go through untouched. In every case the scratch rows
    come back at this point's sums, which is the invariant at the next point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  rw [PhiS1_castSucc V c t]
  by_cases h0 : t.val = 0
  · -- the first point
    have hc0 : cond1_0 (grid1.coords t) := (hcond1_0 t).mpr h0
    have hc1 : ¬cond1_1 (grid1.coords t) := fun h => by have := (hcond1_1 t).mp h; omega
    rw [Dat.leavesExact_idle (dat1 V c) 2 t (idle1_2 t hc1) (noflush1_2 t hc1),
      Dat.leavesExact_idle (dat1 V c) 3 t (idle1_3 t hc1) (noflush1_3 t hc1)]
    rw [PhiS1_zero V c _ _ h0, PhiA1_eq, sum1_first V c t h0, sq1_first V c t h0]
    iintro ⟨⟨⟨⟨HS0, HS1⟩, Hr⟩, Hg⟩, Ho, ⟨%d0, H0⟩, ⟨%d1, H1⟩, ⟨%d2, H2⟩, ⟨%d3, H3⟩⟩
    iapply (run1_A c Set.univ (grid1.coords t) _ _ _ _ _ _ _ _ _ _ _ _ hc0 hc1 (iblk1 V c 0 t) (iblk1 V c 1 t) _ _ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexists _; iexact H2
    iexists _; iexact H3
  · rw [PhiS1_pos V c _ _ h0, sum1_next V c t h0, sq1_next V c t h0]
    have hc0 : ¬cond1_0 (grid1.coords t) := fun h => h0 ((hcond1_0 t).mp h)
    by_cases h9 : t.val = 9
    · -- the last point
      have hc1 : cond1_1 (grid1.coords t) := (hcond1_1 t).mpr h9
      rw [show (dat1 V c).leavesExact 2 t = owns (c : Thread nD τ) (st1_2 t) fullShare ((dat1 V c).after 2 t) from by
        unfold Dat.leavesExact; rw [live1_2 t hc1], after1_2]
      rw [show (dat1 V c).leavesExact 3 t = owns (c : Thread nD τ) (st1_3 t) fullShare ((dat1 V c).after 3 t) from by
        unfold Dat.leavesExact; rw [live1_3 t hc1], after1_3]
      unfold outsAt1; dsimp only
      rw [sum1_next V c t h0, sq1_next V c t h0]
      iintro ⟨⟨⟨⟨HS0, HS1⟩, Hr⟩, Hg⟩, Ho, ⟨%d0, H0⟩, ⟨%d1, H1⟩, ⟨%d2, H2⟩, ⟨%d3, H3⟩⟩
      iapply (run1_C c Set.univ (grid1.coords t) _ _ _ _ _ _ _ _ _ _ _ _ hc0 hc1 (iblk1 V c 0 t) (iblk1 V c 1 t) _ _ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      iexact H3
    · -- a middle point
      have hc1 : ¬cond1_1 (grid1.coords t) := fun h => h9 ((hcond1_1 t).mp h)
      rw [Dat.leavesExact_idle (dat1 V c) 2 t (idle1_2 t hc1) (noflush1_2 t hc1),
        Dat.leavesExact_idle (dat1 V c) 3 t (idle1_3 t hc1) (noflush1_3 t hc1)]
      iintro ⟨⟨⟨⟨HS0, HS1⟩, Hr⟩, Hg⟩, Ho, ⟨%d0, H0⟩, ⟨%d1, H1⟩, ⟨%d2, H2⟩, ⟨%d3, H3⟩⟩
      iapply (run1_B c Set.univ (grid1.coords t) _ _ _ _ _ _ _ _ _ _ _ _ hc0 hc1 (iblk1 V c 0 t) (iblk1 V c 1 t) _ _ _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexists _; iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: what the two scratch rows hold is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 10 := N_1; omega), PhiA1_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-! The accumulation, payload by payload. -/
theorem sc0_zero (c : Dev nD) (h : 0 < cfg1.N) :
    (outsAt1 V c 0 h).2.2.1 = k1_pay4 (iblk1 V c 0 ⟨0, h⟩) (iblk1 V c 1 ⟨0, h⟩) (k1_pay1 (F := F)) := rfl
theorem sc1_zero (c : Dev nD) (h : 0 < cfg1.N) :
    (outsAt1 V c 0 h).2.2.2 = k1_pay5 (iblk1 V c 0 ⟨0, h⟩) (iblk1 V c 1 ⟨0, h⟩) (k1_pay2 (F := F)) := rfl
theorem sc0_succ (c : Dev nD) (n : ℕ) (hn : n + 1 < cfg1.N) :
    (outsAt1 V c (n + 1) hn).2.2.1 = k1_pay4 (iblk1 V c 0 ⟨n + 1, hn⟩) (iblk1 V c 1 ⟨n + 1, hn⟩) (outsAt1 V c n (Nat.lt_of_succ_lt hn)).2.2.1 := rfl
theorem sc1_succ (c : Dev nD) (n : ℕ) (hn : n + 1 < cfg1.N) :
    (outsAt1 V c (n + 1) hn).2.2.2 = k1_pay5 (iblk1 V c 0 ⟨n + 1, hn⟩) (iblk1 V c 1 ⟨n + 1, hn⟩) (outsAt1 V c n (Nat.lt_of_succ_lt hn)).2.2.2 := rfl
theorem out2_last (c : Dev nD) (h : 9 < cfg1.N) :
    (outsAt1 V c 9 h).1 = k1_pay6 (outsAt1 V c 9 h).2.2.1 := rfl
theorem out3_last (c : Dev nD) (h : 9 < cfg1.N) :
    (outsAt1 V c 9 h).2.1 = k1_pay7 (outsAt1 V c 9 h).2.2.1 (outsAt1 V c 9 h).2.2.2 := rfl

end Cert.Kernel.Hand

end
-- ==== Proof.K.Region2.lean ====
/-
  Region 2 of @main: one 5000-row block of the aggregated array plus the bias row, centred by the mean row,
  scaled by `γ` and by the inverse root of the variance row plus `ε`, shifted by `β` and clipped below at zero,
  written to the matching block of the result. Stated at any contents `V` of the core's buffers at the region's
  entry; the body leaves its six inputs as it found them and touches nothing else.
-/
import proofs.«149105_j37778532336358_1_alg».proof.Proof.Gen.Kernel.Launch
import proofs.«149105_j37778532336358_1_alg».proof.Proof.Gen.Kernel.Skeleton
import proofs.«149105_j37778532336358_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev r2_b : Rect S5000x128 := Rect.unit (s := S5000x128) ![0, 0] S5000x128.size inb_S5000x128_S5000x128_0_0
abbrev r2_r : Rect S1x128 := Rect.unit (s := S1x128) ![0, 0] S1x128.size inb_S1x128_S1x128_0_0

/-- The output block after the body: its one store, over the six input blocks (the aggregated block, the bias,
    the mean, the variance, `γ`, `β`, in the order the body loads them). -/
def out2_6 (x0 : Vec F S5000x128 .f32) (x1 : Vec F S1x128 .f32) (x2 : Vec F S1x128 .f32) (x3 : Vec F S1x128 .f32) (x4 : Vec F S1x128 .f32) (x5 : Vec F S1x128 .f32) : Vec F S5000x128 .f32 :=
  View.canon [⟨r2_b, k2_pay1 (View.ld x0 r2_b) (View.ld x1 r2_r) (View.ld x3 r2_r) (View.ld x4 r2_r) (View.ld x2 r2_r) (View.ld x5 r2_r)⟩]

theorem cover2_6 (p0 : Vec F S5000x128 .f32) (y : S5000x128.Idx) :
    ∃ pc ∈ ([⟨r2_b, p0⟩] : List (View.Piece (Elt F) S5000x128 .f32)), y ∈ pc.1.set :=
  View.cover_of_tiled [⟨r2_b, p0⟩] S5000x128.size (by rfl) y

set_option maxHeartbeats 2000000 in
/-- The body on whole staging memrefs: the inputs keep their contents, the output ends at `out2_6` of them. -/
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S1x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__bn_apply_kernel i arg1 harg1 arg2 harg2 arg3 harg3 arg4 harg4 arg5 harg5 arg6 harg6 arg7 harg7) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  @main from the launch to the return: region 0, three stretches of host operations, region 1, region 2. The buffers'
  contents at each boundary are a fold from the launch memory: a host stretch applies its operations, a region
  leaves each of its windows' arrays at what its write-backs fold to and every other buffer as it was. Each region
  is entered from "every unscoped buffer at the boundary's contents, the generator register at some state, nothing
  owed" and left at the same with the next boundary's contents. The run ends with every unscoped buffer at the last
  boundary's contents `W6`; no host operation and no region writes an argument array, so each ends as launched.
-/
import proofs.«149105_j37778532336358_1_alg».proof.Proof.K.Region0
import proofs.«149105_j37778532336358_1_alg».proof.Proof.K.Region1
import proofs.«149105_j37778532336358_1_alg».proof.Proof.K.Region2
import proofs.«149105_j37778532336358_1_alg».proof.Proof.Gen.Kernel.Launch
import proofs.«149105_j37778532336358_1_alg».proof.Proof.Gen.Kernel.Skeleton
import proofs.«149105_j37778532336358_1_alg».proof.Proof.Gen.Kernel.Points
import proofs.«149105_j37778532336358_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- Core `c`'s buffers at launch: region 0's entry. -/
abbrev W0 : Dev nD → Valuation τ sig (Elt F) := fun c b => m (c, b)
abbrev U0 : (c : Dev nD) → (b : Ref sig .tc) → Buf (Elt F) ((c : Thread nD τ).loc b) := fun c b => W0 m c b
/-- At region 0's exit. -/
def W1 (c : Dev nD) : Valuation τ sig (Elt F) :=
  Pipeline.withArrays spec0 c (W0 m c) fun w => (dat0 (U0 m) c).arrAt w cfg0.N
theorem W1_arr (c : Dev nD) (w : Fin cfg0.W) :
    W1 m c (Proc.devRef .tc (Pipeline.arrRef spec0 w)) = (dat0 (U0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev U1 : (c : Dev nD) → (b : Ref sig .tc) → Buf (Elt F) ((c : Thread nD τ).loc b) := fun c b => W1 m c b
theorem hF0 (c : Dev nD) (w : Fin cfg0.W) : (dat0 (U0 m) c).arrAt w cfg0.N = U1 m c (Pipeline.arrRef spec0 w) :=
  (W1_arr m c w).symm
theorem hrest0 (c : Dev nD) : ∀ b, b ∉ Finset.univ.image (Pipeline.arrRef spec0) → U1 m c b = U0 m c b :=
  fun b hb => W1_of_ne m c b fun w e => hb (Finset.mem_image.mpr ⟨w, Finset.mem_univ _, e⟩)

/-- After the three host stretches: region 1's entry. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev U4 : (c : Dev nD) → (b : Ref sig .tc) → Buf (Elt F) ((c : Thread nD τ).loc b) := fun c b => W4 m c b
/-- At region 1's exit: region 2's entry. -/
def W5 (c : Dev nD) : Valuation τ sig (Elt F) :=
  Pipeline.withArrays spec1 c (W4 m c) fun w => (dat1 (U4 m) c).arrAt w cfg1.N
theorem W5_arr (c : Dev nD) (w : Fin cfg1.W) :
    W5 m c (Proc.devRef .tc (Pipeline.arrRef spec1 w)) = (dat1 (U4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev U5 : (c : Dev nD) → (b : Ref sig .tc) → Buf (Elt F) ((c : Thread nD τ).loc b) := fun c b => W5 m c b
theorem hF1 (c : Dev nD) (w : Fin cfg1.W) : (dat1 (U4 m) c).arrAt w cfg1.N = U5 m c (Pipeline.arrRef spec1 w) :=
  (W5_arr m c w).symm
theorem hrest1 (c : Dev nD) : ∀ b, b ∉ Finset.univ.image (Pipeline.arrRef spec1) → U5 m c b = U4 m c b :=
  fun b hb => W5_of_ne m c b fun w e => hb (Finset.mem_image.mpr ⟨w, Finset.mem_univ _, e⟩)
/-- At region 2's exit: the return. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)

/-! ## The arguments end as launched -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := W5_of_ne m c main_arg0 (by decide)
    _ = W3 m c (Proc.devRef .tc main_arg0) := StableHlo.after_of_writes_sub hostOps1_2 _ hostOps1_2_writes (r := main_arg0) (by decide)
    _ = W2 m c (Proc.devRef .tc main_arg0) := StableHlo.after_of_writes_sub hostOps1_1 _ hostOps1_1_writes (r := main_arg0) (by decide)
    _ = W1 m c (Proc.devRef .tc main_arg0) := StableHlo.after_of_writes_sub hostOps1 _ hostOps1_writes (r := main_arg0) (by decide)
    _ = W0 m c (Proc.devRef .tc main_arg0) := (W1_arr m c 0).trans (((dat0 (U0 m) c).arrAt_in 0 rfl _).trans (A_eq0 (U0 m) c 0))
    _ = m ((c : Thread nD τ).loc main_arg0) := rfl
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := W5_of_ne m c main_arg1 (by decide)
    _ = W3 m c (Proc.devRef .tc main_arg1) := StableHlo.after_of_writes_sub hostOps1_2 _ hostOps1_2_writes (r := main_arg1) (by decide)
    _ = W2 m c (Proc.devRef .tc main_arg1) := StableHlo.after_of_writes_sub hostOps1_1 _ hostOps1_1_writes (r := main_arg1) (by decide)
    _ = W1 m c (Proc.devRef .tc main_arg1) := StableHlo.after_of_writes_sub hostOps1 _ hostOps1_writes (r := main_arg1) (by decide)
    _ = W0 m c (Proc.devRef .tc main_arg1) := W1_of_ne m c main_arg1 (by decide)
    _ = m ((c : Thread nD τ).loc main_arg1) := rfl
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := W5_of_ne m c main_arg2 (by decide)
    _ = W3 m c (Proc.devRef .tc main_arg2) := StableHlo.after_of_writes_sub hostOps1_2 _ hostOps1_2_writes (r := main_arg2) (by decide)
    _ = W2 m c (Proc.devRef .tc main_arg2) := StableHlo.after_of_writes_sub hostOps1_1 _ hostOps1_1_writes (r := main_arg2) (by decide)
    _ = W1 m c (Proc.devRef .tc main_arg2) := StableHlo.after_of_writes_sub hostOps1 _ hostOps1_writes (r := main_arg2) (by decide)
    _ = W0 m c (Proc.devRef .tc main_arg2) := (W1_arr m c 1).trans (((dat0 (U0 m) c).arrAt_in 1 rfl _).trans (A_eq0 (U0 m) c 1))
    _ = m ((c : Thread nD τ).loc main_arg2) := rfl
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := W5_of_ne m c main_arg3 (by decide)
    _ = W3 m c (Proc.devRef .tc main_arg3) := StableHlo.after_of_writes_sub hostOps1_2 _ hostOps1_2_writes (r := main_arg3) (by decide)
    _ = W2 m c (Proc.devRef .tc main_arg3) := StableHlo.after_of_writes_sub hostOps1_1 _ hostOps1_1_writes (r := main_arg3) (by decide)
    _ = W1 m c (Proc.devRef .tc main_arg3) := StableHlo.after_of_writes_sub hostOps1 _ hostOps1_writes (r := main_arg3) (by decide)
    _ = W0 m c (Proc.devRef .tc main_arg3) := W1_of_ne m c main_arg3 (by decide)
    _ = m ((c : Thread nD τ).loc main_arg3) := rfl
theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := W5_of_ne m c main_arg4 (by decide)
    _ = W3 m c (Proc.devRef .tc main_arg4) := StableHlo.after_of_writes_sub hostOps1_2 _ hostOps1_2_writes (r := main_arg4) (by decide)
    _ = W2 m c (Proc.devRef .tc main_arg4) := StableHlo.after_of_writes_sub hostOps1_1 _ hostOps1_1_writes (r := main_arg4) (by decide)
    _ = W1 m c (Proc.devRef .tc main_arg4) := StableHlo.after_of_writes_sub hostOps1 _ hostOps1_writes (r := main_arg4) (by decide)
    _ = W0 m c (Proc.devRef .tc main_arg4) := W1_of_ne m c main_arg4 (by decide)
    _ = m ((c : Thread nD τ).loc main_arg4) := rfl
theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := W5_of_ne m c main_arg5 (by decide)
    _ = W3 m c (Proc.devRef .tc main_arg5) := StableHlo.after_of_writes_sub hostOps1_2 _ hostOps1_2_writes (r := main_arg5) (by decide)
    _ = W2 m c (Proc.devRef .tc main_arg5) := StableHlo.after_of_writes_sub hostOps1_1 _ hostOps1_1_writes (r := main_arg5) (by decide)
    _ = W1 m c (Proc.devRef .tc main_arg5) := StableHlo.after_of_writes_sub hostOps1 _ hostOps1_writes (r := main_arg5) (by decide)
    _ = W0 m c (Proc.devRef .tc main_arg5) := W1_of_ne m c main_arg5 (by decide)
    _ = m ((c : Thread nD τ).loc main_arg5) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U4 m) c
  | ⟨2, _⟩ => fun c => dat2 (U5 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (U4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (show Pipeline.ΦA spec1 c ⊢ (pdats m 1 c).Φ 0 from hin1 (U4 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (U4 m) c).trans (show Pipeline.ΦA spec1 c ⊢ _ from ?_)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U4 m c) (U5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .region (reg1 m),
    .region (reg2 m) ]

variable (ρ : Dev nD → PrngReg)

set_option backward.isDefEq.respectTransparency.types false in
/-- THE RUN: from any memory with zero counters every weakly fair execution of @main terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain,
        show (segs m).map Pipeline.Seg.prog = [
          Prog.lift (.customCall (Pipeline.entry 0) ()),
          StableHlo.seq hostOps1,
          StableHlo.seq hostOps1_1,
          StableHlo.seq hostOps1_2,
          Prog.lift (.customCall (Pipeline.entry 1) ()),
          Prog.lift (.customCall (Pipeline.entry 2) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun _ => ⟨.rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c)⟩) (run_all m ρ)

/-- The run with the result array named: it ends at the last boundary's contents. -/
theorem run_result : θ_run defs (onTc (τ := τ) (main (F := F))) ⟨m, fun _ => 0, ρ⟩ (fun r => ∀ c : Dev nD,
      r.2.mem ((c.tc : Thread nD τ).loc main_v48) = W6 m c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v48 (by decide)),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c)⟩) (run_all m ρ)

end Cert.Kernel.Hand

end
-- ==== Proof.KI.Region0.lean ====
/-
  Region 0 of @main: the product of one 5000-row block of `x` with the whole of `W`, written to the matching
  5000-row block of `h`. Stated at any contents `V` of the core's buffers at the region's entry: a point's input
  blocks are read off `V`, the output block is the body's one store over them, and the body leaves the inputs as
  it found them. The invariant is the scoped rest and the generator register, which the body does not touch.
-/
import proofs.«149105_j37778532336358_1_alg».proof.Proof.Gen.KernelIdeal.Launch
import proofs.«149105_j37778532336358_1_alg».proof.Proof.Gen.KernelIdeal.Skeleton
import proofs.«149105_j37778532336358_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S5000x256 := Rect.unit (s := S5000x256) ![0, 0] S5000x256.size inb_S5000x256_S5000x256_0_0
abbrev r0_w : Rect S256x128 := Rect.unit (s := S256x128) ![0, 0] S256x128.size inb_S256x128_S256x128_0_0
abbrev r0_o : Rect S5000x128 := Rect.unit (s := S5000x128) ![0, 0] S5000x128.size inb_S5000x128_S5000x128_0_0

/-- The output block after the body: its one store, over the two input blocks. -/
def out0_2 (x0 : Vec F S5000x256 .f32) (x1 : Vec F S256x128 .f32) : Vec F S5000x128 .f32 :=
  View.canon [⟨r0_o, k0_pay1 (View.ld x0 r0_x) (View.ld x1 r0_w)⟩]

theorem cover0_2 (p0 : Vec F S5000x128 .f32) (y : S5000x128.Idx) :
    ∃ pc ∈ ([⟨r0_o, p0⟩] : List (View.Piece (Elt F) S5000x128 .f32)), y ∈ pc.1.set :=
  View.cover_of_tiled [⟨r0_o, p0⟩] S5000x128.size (by rfl) y

set_option maxHeartbeats 1000000 in
/-- The body on whole staging memrefs: the inputs keep their contents, the output ends at `out0_2` of them. -/
theorem sound_kernel0 (c : Dev nD) (E : Set ℕ) (i : grid0.Coords) (arg1 : Memref sig .tc .vmem S5000x256 .f32) (harg1 : arg1.IsWhole)
    (arg2 : Memref sig .tc .vmem S256x128 .f32) (harg2 : arg2.IsWhole) (arg3 : Memref sig .tc .vmem S5000x128 .f32) (harg3 : arg3.IsWhole)
    (x0 : Vec F S5000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Region 1 of @main: the batch-norm statistics over ten 5000-row blocks of the aggregated array. Two scratch rows are
  carried from point to point: the running column sums of (block + bias row) and the running column sums of its
  squares; the first point resets both before accumulating, and the last point stores the mean and the variance rows
  computed from them. Stated at any contents `V` of the core's buffers at the region's entry.
-/
import proofs.«149105_j37778532336358_1_alg».proof.Proof.Gen.KernelIdeal.Launch
import proofs.«149105_j37778532336358_1_alg».proof.Proof.Gen.KernelIdeal.Skeleton
import proofs.«149105_j37778532336358_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's two branch conditions, in closed form over the grid -/

/-- The first `scf.if` (the reset of the two scratch rows) tests the grid coordinate against zero. -/
abbrev cond1_0 (i : grid1.Coords) : Prop :=
  (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second `scf.if` (the stores of the mean and the variance) tests it against nine. -/
abbrev cond1_1 (i : grid1.Coords) : Prop := k1_cond2 i = 1#1
/-- It holds at the last point only. -/
theorem hcond1_1 : ∀ t : Fin cfg1.N, cond1_1 (grid1.coords t) ↔ t.val = 9 :=
  (by decide +kernel : ∀ t : Fin grid1.N, cond1_1 (grid1.coords t) ↔ t.val = 9)

/-! ## Loads and stores through a whole buffer -/

/-- The rectangle every load and store of the body goes through: the whole block, and the whole row. -/
abbrev r1_b : Rect S5000x128 := Rect.unit (s := S5000x128) ![0, 0] S5000x128.size inb_S5000x128_S5000x128_0_0
abbrev r1_v : Rect S1x128 := Rect.unit (s := S1x128) ![0, 0] S1x128.size inb_S1x128_S1x128_0_0

theorem off1_zero : (![0, 0] : Fin 2 → ℕ) = fun _ => 0 := by funext a; fin_cases a <;> rfl

/-- A load of the whole block reads the buffer's contents. -/
theorem load1_b {κ : Kind} {sp : Space} (v : View sig κ sp S5000x128 .f32) (f : v.ty.Contents (Elt F)) :
    v.readAt (Elt F) r1_b.toLoadRect f = v.read (Elt F) f :=
  (View.readAt_eq_ld v f r1_b).trans (View.ld_unit_zero (S := S5000x128) off1_zero _ _)
/-- A load of the whole row reads the buffer's contents. -/
theorem load1_v {κ : Kind} {sp : Space} (v : View sig κ sp S1x128 .f32) (f : v.ty.Contents (Elt F)) :
    v.readAt (Elt F) r1_v.toLoadRect f = v.read (Elt F) f :=
  (View.readAt_eq_ld v f r1_v).trans (View.ld_unit_zero (S := S1x128) off1_zero _ _)
/-- After a store of the whole row, whatever was stored before, the buffer reads the row stored. -/
theorem store1_v {κ : Kind} {sp : Space} (v : View sig κ sp S1x128 .f32) (f : v.ty.Contents (Elt F)) (w : Vec F S1x128 .f32)
    (L : List (View.Piece (Elt F) S1x128 .f32)) :
    v.read (Elt F) (v.writes (Elt F) f ((⟨r1_v, w⟩ : View.Piece (Elt F) S1x128 .f32) :: L)) = w := by
  have hcov : ∀ y : S1x128.Idx, ∃ p ∈ ((⟨r1_v, w⟩ : View.Piece (Elt F) S1x128 .f32) :: L), y ∈ p.1.set :=
    fun y => ⟨⟨r1_v, w⟩, List.mem_cons_self, View.mem_set_unit_zero (S := S1x128) off1_zero inb_S1x128_S1x128_0_0 y⟩
  rw [View.read_writes_eq_canon v f _ hcov]
  exact View.canon_cons_unit_zero (S := S1x128) off1_zero inb_S1x128_S1x128_0_0 w L
/-- A load of the whole row after one store of it reads the row stored. -/
theorem reload1_v {κ : Kind} {sp : Space} (v : View sig κ sp S1x128 .f32) (w : Vec F S1x128 .f32) :
    v.readCov [(⟨r1_v, w⟩ : View.Piece (Elt F) S1x128 .f32)] r1_v.toLoadRect = w :=
  View.readCov_unit_zero (S := S1x128) v off1_zero _ w

/-! ## The body on whole memrefs, case by case

The printed body is its skeleton of loads and stores over the named payloads. The case's hypotheses decide the two
`scf.if`s; run from them, the body leaves in each buffer it stores into the list of its stores. Every load and
store is of a whole buffer, so what a buffer ends with is its last store's payload, and what a load reads is the
contents found or the payload stored just before. -/

set_option maxHeartbeats 1000000 in
/-- The first point. Both scratch rows (found at anything) are reset and then accumulate the block: they end at the
    sum and the sum of squares of (block + bias row) over the reset rows. The inputs and the two output rows keep
    their contents. -/
theorem run1_A (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (hc1 : ¬cond1_1 i)
    (x0 : Vec F S5000x128 .f32) (x1 y2 y3 : Vec F S1x128 .f32) (K : PUnit → sProp 𝕄) :
    iprop(owns (c : Thread nD τ) arg1 fullShare x0 ∗ owns (c : Thread nD τ) arg2 fullShare x1
        ∗ owns (c : Thread nD τ) arg3 fullShare y2 ∗ owns (c : Thread nD τ) arg4 fullShare y3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare y2 ∗ owns (c : Thread nD τ) arg4 fullShare y3
            ∗ owns (c : Thread nD τ) arg5 fullShare (k1_pay4 x0 x1 (k1_pay1 (F := F)))
            ∗ owns (c : Thread nD τ) arg6 fullShare (k1_pay5 x0 x1 (k1_pay2 (F := F)))) -∗ K ⟨⟩))
      ⊢ wp frame (wpE (defs₀ (F := F)) Variants.none c none) E
          (cc1__bn_stats_kernel i arg1 harg1 arg2 harg2 arg3 harg3 arg4 harg4 arg5 harg5 arg6 harg6) K := by
  simp only [cc1__bn_stats_kernel_eq_skeleton]; unfold cc1__bn_stats_kernel_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HS0]
  · iexists _; isplitr
    swap; · iexact HS0
    ipureintro
    sl_unfold_words
    rw [store1_v, load1_b, load1_v, reload1_v]
  iexists _; isplitr
  swap; · iexact HS1
  ipureintro
  sl_unfold_words
  rw [store1_v, load1_b, load1_v, reload1_v]

set_option maxHeartbeats 1000000 in
/-- A point that is neither the first nor the last. The scratch rows, found at `xs0` and `xs1`, accumulate the
    block; the inputs and the two output rows keep their contents. -/
theorem run1_B (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : ¬cond1_1 i)
    (x0 : Vec F S5000x128 .f32) (x1 y2 y3 xs0 xs1 : Vec F S1x128 .f32) (K : PUnit → sProp 𝕄) :
    iprop(owns (c : Thread nD τ) arg1 fullShare x0 ∗ owns (c : Thread nD τ) arg2 fullShare x1
        ∗ owns (c : Thread nD τ) arg3 fullShare y2 ∗ owns (c : Thread nD τ) arg4 fullShare y3
        ∗ owns (c : Thread nD τ) arg5 fullShare xs0 ∗ owns (c : Thread nD τ) arg6 fullShare xs1
        ∗ (iprop(owns (c : Thread nD τ) arg1 fullShare x0 ∗ owns (c : Thread nD τ) arg2 fullShare x1
            ∗ owns (c : Thread nD τ) arg3 fullShare y2 ∗ owns (c : Thread nD τ) arg4 fullShare y3
            ∗ owns (c : Thread nD τ) arg5 fullShare (k1_pay4 x0 x1 xs0)
            ∗ owns (c : Thread nD τ) arg6 fullShare (k1_pay5 x0 x1 xs1)) -∗ K ⟨⟩))
      ⊢ wp frame (wpE (defs₀ (F := F)) Variants.none c none) E
          (cc1__bn_stats_kernel i arg1 harg1 arg2 harg2 arg3 harg3 arg4 harg4 arg5 harg5 arg6 harg6) K := by
  simp only [cc1__bn_stats_kernel_eq_skeleton]; unfold cc1__bn_stats_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  subst hf0; subst hf1; subst hf2; subst hf3; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HS0]
  · iexists _; isplitr
    swap; · iexact HS0
    ipureintro
    sl_unfold_words
    rw [store1_v, load1_b, load1_v, load1_v]
  iexists _; isplitr
  swap; · iexact HS1
  ipureintro
  sl_unfold_words
  rw [store1_v, load1_b, load1_v, load1_v]

set_option maxHeartbeats 1000000 in
/-- The last point. As at a middle point, and then the mean row is stored from the sum row just accumulated, the
    variance row from it and the sum-of-squares row; the output rows are found at anything. -/
theorem run1_C (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : cond1_1 i)
    (x0 : Vec F S5000x128 .f32) (x1 xs0 xs1 : Vec F S1x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ owns (c : Thread nD τ) arg5 fullShare xs0 ∗ owns (c : Thread nD τ) arg6 fullShare xs1
        ∗ (iprop(owns (c : Thread nD τ) arg1 fullShare x0 ∗ owns (c : Thread nD τ) arg2 fullShare x1
            ∗ owns (c : Thread nD τ) arg3 fullShare (k1_pay6 (k1_pay4 x0 x1 xs0))
            ∗ owns (c : Thread nD τ) arg4 fullShare (k1_pay7 (k1_pay4 x0 x1 xs0) (k1_pay5 x0 x1 xs1))
            ∗ owns (c : Thread nD τ) arg5 fullShare (k1_pay4 x0 x1 xs0)
            ∗ owns (c : Thread nD τ) arg6 fullShare (k1_pay5 x0 x1 xs1)) -∗ K ⟨⟩))
      ⊢ wp frame (wpE (defs₀ (F := F)) Variants.none c none) E
          (cc1__bn_stats_kernel i arg1 harg1 arg2 harg2 arg3 harg3 arg4 harg4 arg5 harg5 arg6 harg6) K := by
  simp only [cc1__bn_stats_kernel_eq_skeleton]; unfold cc1__bn_stats_kernel_skel
  unfold owns
  iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
  subst hf0; subst hf1; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [store1_v, reload1_v, load1_b, load1_v, load1_v]
  isplitl [H3]
  · iexists _; isplitr
    swap; · iexact H3
    ipureintro
    sl_unfold_words
    rw [store1_v, reload1_v, reload1_v, load1_b, load1_v, load1_v, load1_v]
  isplitl [HS0]
  · iexists _; isplitr
    swap; · iexact HS0
    ipureintro
    sl_unfold_words
    rw [store1_v, load1_b, load1_v, load1_v]
  iexists _; isplitr
  swap; · iexact HS1
  ipureintro
  sl_unfold_words
  rw [store1_v, load1_b, load1_v, load1_v]

/-! ## The inputs' staging buffers -/

/-- An input's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## Where the output windows are idle -/

/-- The inputs are never idle. -/
theorem live1_0 : ∀ t : Fin cfg1.N, cfg1.idle 0 (grid1.coords t) = false := by decide +kernel
theorem live1_1 : ∀ t : Fin cfg1.N, cfg1.idle 1 (grid1.coords t) = false := by decide +kernel
/-- Before the last point the printed configuration calls the two output windows idle, and the pipeline does not
    write their blocks back; at the last point they are live. -/
theorem idle1_2 : ∀ t : Fin cfg1.N, ¬cond1_1 (grid1.coords t) → cfg1.idle 2 (grid1.coords t) = true := by decide +kernel
theorem idle1_3 : ∀ t : Fin cfg1.N, ¬cond1_1 (grid1.coords t) → cfg1.idle 3 (grid1.coords t) = true := by decide +kernel
theorem noflush1_2 : ∀ t : Fin cfg1.N, ¬cond1_1 (grid1.coords t) → (cfg1.win 2).flush t = false := by decide +kernel
theorem noflush1_3 : ∀ t : Fin cfg1.N, ¬cond1_1 (grid1.coords t) → (cfg1.win 3).flush t = false := by decide +kernel
theorem live1_2 : ∀ t : Fin cfg1.N, cond1_1 (grid1.coords t) → cfg1.idle 2 (grid1.coords t) = false := by decide +kernel
theorem live1_3 : ∀ t : Fin cfg1.N, cond1_1 (grid1.coords t) → cfg1.idle 3 (grid1.coords t) = false := by decide +kernel

/-! ## What the scratch rows and the outputs hold after each point -/

/-- The two scratch rows the body carries from point to point, as memrefs: whole scoped buffers of the call's own. -/
abbrev sc1_0 : Memref sig .tc .vmem S1x128 .f32 := Memref.whole cc1_scratch0
abbrev sc1_1 : Memref sig .tc .vmem S1x128 .f32 := Memref.whole cc1_scratch1

/-- The sum row after the body at position `n`: the first point accumulates its block over the reset row, every
    later point over what the point before left. -/
def sum1 (V : (c : Dev nD) → (b : Ref sig .tc) → Buf (Elt F) ((c : Thread nD τ).loc b)) (c : Dev nD) : (n : ℕ) → n < cfg1.N → Vec F S1x128 .f32
  | 0, h => k1_pay4 (iblk1 V c 0 ⟨0, h⟩) (iblk1 V c 1 ⟨0, h⟩) (k1_pay1 (F := F))
  | n + 1, h => k1_pay4 (iblk1 V c 0 ⟨n + 1, h⟩) (iblk1 V c 1 ⟨n + 1, h⟩) (sum1 V c n (Nat.lt_of_succ_lt h))

/-- The sum-of-squares row after the body at position `n`, likewise. -/
def sq1 (V : (c : Dev nD) → (b : Ref sig .tc) → Buf (Elt F) ((c : Thread nD τ).loc b)) (c : Dev nD) : (n : ℕ) → n < cfg1.N → Vec F S1x128 .f32
  | 0, h => k1_pay5 (iblk1 V c 0 ⟨0, h⟩) (iblk1 V c 1 ⟨0, h⟩) (k1_pay2 (F := F))
  | n + 1, h => k1_pay5 (iblk1 V c 0 ⟨n + 1, h⟩) (iblk1 V c 1 ⟨n + 1, h⟩) (sq1 V c n (Nat.lt_of_succ_lt h))

theorem sum1_first (c : Dev nD) (t : Fin cfg1.N) (h0 : t.val = 0) :
    sum1 V c t.val t.isLt = k1_pay4 (iblk1 V c 0 t) (iblk1 V c 1 t) (k1_pay1 (F := F)) := by
  obtain ⟨n, hn⟩ := t
  cases n with
  | zero => rfl
  | succ n => exact absurd h0 (Nat.succ_ne_zero n)
theorem sq1_first (c : Dev nD) (t : Fin cfg1.N) (h0 : t.val = 0) :
    sq1 V c t.val t.isLt = k1_pay5 (iblk1 V c 0 t) (iblk1 V c 1 t) (k1_pay2 (F := F)) := by
  obtain ⟨n, hn⟩ := t
  cases n with
  | zero => rfl
  | succ n => exact absurd h0 (Nat.succ_ne_zero n)
theorem sum1_next (c : Dev nD) (t : Fin cfg1.N) (h0 : t.val ≠ 0) :
    sum1 V c t.val t.isLt = k1_pay4 (iblk1 V c 0 t) (iblk1 V c 1 t) (sum1 V c (t.val - 1) (Nat.lt_of_le_of_lt (Nat.sub_le _ _) t.isLt)) := by
  obtain ⟨n, hn⟩ := t
  cases n with
  | zero => exact absurd rfl h0
  | succ n => rfl
theorem sq1_next (c : Dev nD) (t : Fin cfg1.N) (h0 : t.val ≠ 0) :
    sq1 V c t.val t.isLt = k1_pay5 (iblk1 V c 0 t) (iblk1 V c 1 t) (sq1 V c (t.val - 1) (Nat.lt_of_le_of_lt (Nat.sub_le _ _) t.isLt)) := by
  obtain ⟨n, hn⟩ := t
  cases n with
  | zero => exact absurd rfl h0
  | succ n => rfl

/-- After the body at position `n`: the mean window's buffer, the variance window's buffer, the sum scratch, the
    sum-of-squares scratch. The two window components are the mean and the variance OF THE ROWS SO FAR: what the
    last point stores there; before it the body stores nothing into those windows, the pipeline neither writes them
    back nor reads them, and the components stand for nothing the run consults. -/
def outsAt1 (V : (c : Dev nD) → (b : Ref sig .tc) → Buf (Elt F) ((c : Thread nD τ).loc b)) (c : Dev nD) : (n : ℕ) → n < cfg1.N → Vec F S1x128 .f32 × Vec F S1x128 .f32 × Vec F S1x128 .f32 × Vec F S1x128 .f32 :=
  fun n h => (k1_pay6 (sum1 V c n h), k1_pay7 (sum1 V c n h) (sq1 V c n h), sum1 V c n h, sq1 V c n h)

/-- The region invariant before position `n`. Before the first point it is what the launch hands the region: every
    scoped buffer that is no staging buffer of this call at some contents, and the generator register. Afterwards the
    two scratch rows are owned at what the point before left in them, beside the other scoped buffers (unopened) and
    the generator register. -/
def PhiS1 (V : (c : Dev nD) → (b : Ref sig .tc) → Buf (Elt F) ((c : Thread nD τ).loc b)) (c : Dev nD) : (n : ℕ) → n ≤ cfg1.N → sProp 𝕄
  | 0, _ => Pipeline.ΦA spec1 c
  | n + 1, hn => iprop(iprop(iprop(owns (c : Thread nD τ) sc1_0 fullShare (sum1 V c n hn) ∗ owns (c : Thread nD τ) sc1_1 fullShare (sq1 V c n hn))
      ∗ Pipeline.scopedRestBut (Ix := Unit) (Name := ℕ) (U := UR sig nD τ) (Lvl := ℕ) (Val := Elt F) spec1 c [cc1_scratch0, cc1_scratch1])
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) sc1_0 fullShare (sum1 V c n hn) ∗ owns (c : Thread nD τ) sc1_1 fullShare (sq1 V c n hn))
      ∗ Pipeline.scopedRestBut (Ix := Unit) (Name := ℕ) (U := UR sig nD τ) (Lvl := ℕ) (Val := Elt F) spec1 c [cc1_scratch0, cc1_scratch1])
      ∗ (∃ r, prngReg c r)) := rfl

theorem PhiS1_pos (c : Dev nD) (n : ℕ) (h : n ≤ cfg1.N) (hz : n ≠ 0) :
    PhiS1 V c n h = iprop(iprop(iprop(owns (c : Thread nD τ) sc1_0 fullShare (sum1 V c (n - 1) (by omega)) ∗ owns (c : Thread nD τ) sc1_1 fullShare (sq1 V c (n - 1) (by omega)))
      ∗ Pipeline.scopedRestBut (Ix := Unit) (Name := ℕ) (U := UR sig nD τ) (Lvl := ℕ) (Val := Elt F) spec1 c [cc1_scratch0, cc1_scratch1])
      ∗ (∃ r, prngReg c r)) := by
  cases n with
  | zero => exact absurd rfl hz
  | succ n => rfl

/-- What the launch hands the region, with the two scratch rows split out of the scoped rest as memrefs owned at
    some contents. -/
theorem PhiA1_eq (c : Dev nD) :
    (Pipeline.ΦA spec1 c : sProp 𝕄)
      = iprop(iprop(iprop((∃ d, owns (c : Thread nD τ) sc1_0 fullShare d) ∗ (∃ d, owns (c : Thread nD τ) sc1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA
  rw [Pipeline.scopedRest_split_of_list spec1 c [cc1_scratch0, cc1_scratch1] (by decide) (by decide)]
  simp only [sc1_0, sc1_1, owns_whole]
  try rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point. The inputs' buffers hold their blocks. At the first point the invariant hands the two
    scratch rows at anything and the reset case runs; at a later point it hands them at what the point before left,
    and the accumulating case runs, at the last point followed by the stores of the mean and the variance. Before the
    last point the two output windows are idle: their buffers go through untouched. In every case the scratch rows
    come back at this point's sums, which is the invariant at the next point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  rw [PhiS1_castSucc V c t]
  by_cases h0 : t.val = 0
  · -- the first point
    have hc0 : cond1_0 (grid1.coords t) := (hcond1_0 t).mpr h0
    have hc1 : ¬cond1_1 (grid1.coords t) := fun h => by have := (hcond1_1 t).mp h; omega
    rw [Dat.leavesExact_idle (dat1 V c) 2 t (idle1_2 t hc1) (noflush1_2 t hc1),
      Dat.leavesExact_idle (dat1 V c) 3 t (idle1_3 t hc1) (noflush1_3 t hc1)]
    rw [PhiS1_zero V c _ _ h0, PhiA1_eq, sum1_first V c t h0, sq1_first V c t h0]
    iintro ⟨⟨⟨⟨HS0, HS1⟩, Hr⟩, Hg⟩, Ho, ⟨%d0, H0⟩, ⟨%d1, H1⟩, ⟨%d2, H2⟩, ⟨%d3, H3⟩⟩
    iapply (run1_A c Set.univ (grid1.coords t) _ _ _ _ _ _ _ _ _ _ _ _ hc0 hc1 (iblk1 V c 0 t) (iblk1 V c 1 t) _ _ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexists _; iexact H2
    iexists _; iexact H3
  · rw [PhiS1_pos V c _ _ h0, sum1_next V c t h0, sq1_next V c t h0]
    have hc0 : ¬cond1_0 (grid1.coords t) := fun h => h0 ((hcond1_0 t).mp h)
    by_cases h9 : t.val = 9
    · -- the last point
      have hc1 : cond1_1 (grid1.coords t) := (hcond1_1 t).mpr h9
      rw [show (dat1 V c).leavesExact 2 t = owns (c : Thread nD τ) (st1_2 t) fullShare ((dat1 V c).after 2 t) from by
        unfold Dat.leavesExact; rw [live1_2 t hc1], after1_2]
      rw [show (dat1 V c).leavesExact 3 t = owns (c : Thread nD τ) (st1_3 t) fullShare ((dat1 V c).after 3 t) from by
        unfold Dat.leavesExact; rw [live1_3 t hc1], after1_3]
      unfold outsAt1; dsimp only
      rw [sum1_next V c t h0, sq1_next V c t h0]
      iintro ⟨⟨⟨⟨HS0, HS1⟩, Hr⟩, Hg⟩, Ho, ⟨%d0, H0⟩, ⟨%d1, H1⟩, ⟨%d2, H2⟩, ⟨%d3, H3⟩⟩
      iapply (run1_C c Set.univ (grid1.coords t) _ _ _ _ _ _ _ _ _ _ _ _ hc0 hc1 (iblk1 V c 0 t) (iblk1 V c 1 t) _ _ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      iexact H3
    · -- a middle point
      have hc1 : ¬cond1_1 (grid1.coords t) := fun h => h9 ((hcond1_1 t).mp h)
      rw [Dat.leavesExact_idle (dat1 V c) 2 t (idle1_2 t hc1) (noflush1_2 t hc1),
        Dat.leavesExact_idle (dat1 V c) 3 t (idle1_3 t hc1) (noflush1_3 t hc1)]
      iintro ⟨⟨⟨⟨HS0, HS1⟩, Hr⟩, Hg⟩, Ho, ⟨%d0, H0⟩, ⟨%d1, H1⟩, ⟨%d2, H2⟩, ⟨%d3, H3⟩⟩
      iapply (run1_B c Set.univ (grid1.coords t) _ _ _ _ _ _ _ _ _ _ _ _ hc0 hc1 (iblk1 V c 0 t) (iblk1 V c 1 t) _ _ _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexists _; iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: what the two scratch rows hold is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 10 := N_1; omega), PhiA1_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-! The accumulation, payload by payload. -/
theorem sc0_zero (c : Dev nD) (h : 0 < cfg1.N) :
    (outsAt1 V c 0 h).2.2.1 = k1_pay4 (iblk1 V c 0 ⟨0, h⟩) (iblk1 V c 1 ⟨0, h⟩) (k1_pay1 (F := F)) := rfl
theorem sc1_zero (c : Dev nD) (h : 0 < cfg1.N) :
    (outsAt1 V c 0 h).2.2.2 = k1_pay5 (iblk1 V c 0 ⟨0, h⟩) (iblk1 V c 1 ⟨0, h⟩) (k1_pay2 (F := F)) := rfl
theorem sc0_succ (c : Dev nD) (n : ℕ) (hn : n + 1 < cfg1.N) :
    (outsAt1 V c (n + 1) hn).2.2.1 = k1_pay4 (iblk1 V c 0 ⟨n + 1, hn⟩) (iblk1 V c 1 ⟨n + 1, hn⟩) (outsAt1 V c n (Nat.lt_of_succ_lt hn)).2.2.1 := rfl
theorem sc1_succ (c : Dev nD) (n : ℕ) (hn : n + 1 < cfg1.N) :
    (outsAt1 V c (n + 1) hn).2.2.2 = k1_pay5 (iblk1 V c 0 ⟨n + 1, hn⟩) (iblk1 V c 1 ⟨n + 1, hn⟩) (outsAt1 V c n (Nat.lt_of_succ_lt hn)).2.2.2 := rfl
theorem out2_last (c : Dev nD) (h : 9 < cfg1.N) :
    (outsAt1 V c 9 h).1 = k1_pay6 (outsAt1 V c 9 h).2.2.1 := rfl
theorem out3_last (c : Dev nD) (h : 9 < cfg1.N) :
    (outsAt1 V c 9 h).2.1 = k1_pay7 (outsAt1 V c 9 h).2.2.1 (outsAt1 V c 9 h).2.2.2 := rfl

end Cert.KernelIdeal.Hand

end
-- ==== Proof.KI.Region2.lean ====
/-
  Region 2 of @main: one 5000-row block of the aggregated array plus the bias row, centred by the mean row,
  scaled by `γ` and by the inverse root of the variance row plus `ε`, shifted by `β` and clipped below at zero,
  written to the matching block of the result. Stated at any contents `V` of the core's buffers at the region's
  entry; the body leaves its six inputs as it found them and touches nothing else.
-/
import proofs.«149105_j37778532336358_1_alg».proof.Proof.Gen.KernelIdeal.Launch
import proofs.«149105_j37778532336358_1_alg».proof.Proof.Gen.KernelIdeal.Skeleton
import proofs.«149105_j37778532336358_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev r2_b : Rect S5000x128 := Rect.unit (s := S5000x128) ![0, 0] S5000x128.size inb_S5000x128_S5000x128_0_0
abbrev r2_r : Rect S1x128 := Rect.unit (s := S1x128) ![0, 0] S1x128.size inb_S1x128_S1x128_0_0

/-- The output block after the body: its one store, over the six input blocks (the aggregated block, the bias,
    the mean, the variance, `γ`, `β`, in the order the body loads them). -/
def out2_6 (x0 : Vec F S5000x128 .f32) (x1 : Vec F S1x128 .f32) (x2 : Vec F S1x128 .f32) (x3 : Vec F S1x128 .f32) (x4 : Vec F S1x128 .f32) (x5 : Vec F S1x128 .f32) : Vec F S5000x128 .f32 :=
  View.canon [⟨r2_b, k2_pay1 (View.ld x0 r2_b) (View.ld x1 r2_r) (View.ld x3 r2_r) (View.ld x4 r2_r) (View.ld x2 r2_r) (View.ld x5 r2_r)⟩]

theorem cover2_6 (p0 : Vec F S5000x128 .f32) (y : S5000x128.Idx) :
    ∃ pc ∈ ([⟨r2_b, p0⟩] : List (View.Piece (Elt F) S5000x128 .f32)), y ∈ pc.1.set :=
  View.cover_of_tiled [⟨r2_b, p0⟩] S5000x128.size (by rfl) y

set_option maxHeartbeats 2000000 in
/-- The body on whole staging memrefs: the inputs keep their contents, the output ends at `out2_6` of them. -/
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S1x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__bn_apply_kernel i arg1 harg1 arg2 harg2 arg3 harg3 arg4 harg4 arg5 harg5 arg6 harg6 arg7 harg7) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  @main from the launch to the return: region 0, three stretches of host operations, region 1, region 2. The buffers'
  contents at each boundary are a fold from the launch memory: a host stretch applies its operations, a region
  leaves each of its windows' arrays at what its write-backs fold to and every other buffer as it was. Each region
  is entered from "every unscoped buffer at the boundary's contents, the generator register at some state, nothing
  owed" and left at the same with the next boundary's contents. The run ends with every unscoped buffer at the last
  boundary's contents `W6`; no host operation and no region writes an argument array, so each ends as launched.
-/
import proofs.«149105_j37778532336358_1_alg».proof.Proof.KI.Region0
import proofs.«149105_j37778532336358_1_alg».proof.Proof.KI.Region1
import proofs.«149105_j37778532336358_1_alg».proof.Proof.KI.Region2
import proofs.«149105_j37778532336358_1_alg».proof.Proof.Gen.KernelIdeal.Launch
import proofs.«149105_j37778532336358_1_alg».proof.Proof.Gen.KernelIdeal.Skeleton
import proofs.«149105_j37778532336358_1_alg».proof.Proof.Gen.KernelIdeal.Points
import proofs.«149105_j37778532336358_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- Core `c`'s buffers at launch: region 0's entry. -/
abbrev W0 : Dev nD → Valuation τ sig (Elt F) := fun c b => m (c, b)
abbrev U0 : (c : Dev nD) → (b : Ref sig .tc) → Buf (Elt F) ((c : Thread nD τ).loc b) := fun c b => W0 m c b
/-- At region 0's exit. -/
def W1 (c : Dev nD) : Valuation τ sig (Elt F) :=
  Pipeline.withArrays spec0 c (W0 m c) fun w => (dat0 (U0 m) c).arrAt w cfg0.N
theorem W1_arr (c : Dev nD) (w : Fin cfg0.W) :
    W1 m c (Proc.devRef .tc (Pipeline.arrRef spec0 w)) = (dat0 (U0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev U1 : (c : Dev nD) → (b : Ref sig .tc) → Buf (Elt F) ((c : Thread nD τ).loc b) := fun c b => W1 m c b
theorem hF0 (c : Dev nD) (w : Fin cfg0.W) : (dat0 (U0 m) c).arrAt w cfg0.N = U1 m c (Pipeline.arrRef spec0 w) :=
  (W1_arr m c w).symm
theorem hrest0 (c : Dev nD) : ∀ b, b ∉ Finset.univ.image (Pipeline.arrRef spec0) → U1 m c b = U0 m c b :=
  fun b hb => W1_of_ne m c b fun w e => hb (Finset.mem_image.mpr ⟨w, Finset.mem_univ _, e⟩)

/-- After the three host stretches: region 1's entry. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev U4 : (c : Dev nD) → (b : Ref sig .tc) → Buf (Elt F) ((c : Thread nD τ).loc b) := fun c b => W4 m c b
/-- At region 1's exit: region 2's entry. -/
def W5 (c : Dev nD) : Valuation τ sig (Elt F) :=
  Pipeline.withArrays spec1 c (W4 m c) fun w => (dat1 (U4 m) c).arrAt w cfg1.N
theorem W5_arr (c : Dev nD) (w : Fin cfg1.W) :
    W5 m c (Proc.devRef .tc (Pipeline.arrRef spec1 w)) = (dat1 (U4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev U5 : (c : Dev nD) → (b : Ref sig .tc) → Buf (Elt F) ((c : Thread nD τ).loc b) := fun c b => W5 m c b
theorem hF1 (c : Dev nD) (w : Fin cfg1.W) : (dat1 (U4 m) c).arrAt w cfg1.N = U5 m c (Pipeline.arrRef spec1 w) :=
  (W5_arr m c w).symm
theorem hrest1 (c : Dev nD) : ∀ b, b ∉ Finset.univ.image (Pipeline.arrRef spec1) → U5 m c b = U4 m c b :=
  fun b hb => W5_of_ne m c b fun w e => hb (Finset.mem_image.mpr ⟨w, Finset.mem_univ _, e⟩)
/-- At region 2's exit: the return. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)

/-! ## The arguments end as launched -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := W5_of_ne m c main_arg0 (by decide)
    _ = W3 m c (Proc.devRef .tc main_arg0) := StableHlo.after_of_writes_sub hostOps1_2 _ hostOps1_2_writes (r := main_arg0) (by decide)
    _ = W2 m c (Proc.devRef .tc main_arg0) := StableHlo.after_of_writes_sub hostOps1_1 _ hostOps1_1_writes (r := main_arg0) (by decide)
    _ = W1 m c (Proc.devRef .tc main_arg0) := StableHlo.after_of_writes_sub hostOps1 _ hostOps1_writes (r := main_arg0) (by decide)
    _ = W0 m c (Proc.devRef .tc main_arg0) := (W1_arr m c 0).trans (((dat0 (U0 m) c).arrAt_in 0 rfl _).trans (A_eq0 (U0 m) c 0))
    _ = m ((c : Thread nD τ).loc main_arg0) := rfl
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := W5_of_ne m c main_arg1 (by decide)
    _ = W3 m c (Proc.devRef .tc main_arg1) := StableHlo.after_of_writes_sub hostOps1_2 _ hostOps1_2_writes (r := main_arg1) (by decide)
    _ = W2 m c (Proc.devRef .tc main_arg1) := StableHlo.after_of_writes_sub hostOps1_1 _ hostOps1_1_writes (r := main_arg1) (by decide)
    _ = W1 m c (Proc.devRef .tc main_arg1) := StableHlo.after_of_writes_sub hostOps1 _ hostOps1_writes (r := main_arg1) (by decide)
    _ = W0 m c (Proc.devRef .tc main_arg1) := W1_of_ne m c main_arg1 (by decide)
    _ = m ((c : Thread nD τ).loc main_arg1) := rfl
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := W5_of_ne m c main_arg2 (by decide)
    _ = W3 m c (Proc.devRef .tc main_arg2) := StableHlo.after_of_writes_sub hostOps1_2 _ hostOps1_2_writes (r := main_arg2) (by decide)
    _ = W2 m c (Proc.devRef .tc main_arg2) := StableHlo.after_of_writes_sub hostOps1_1 _ hostOps1_1_writes (r := main_arg2) (by decide)
    _ = W1 m c (Proc.devRef .tc main_arg2) := StableHlo.after_of_writes_sub hostOps1 _ hostOps1_writes (r := main_arg2) (by decide)
    _ = W0 m c (Proc.devRef .tc main_arg2) := (W1_arr m c 1).trans (((dat0 (U0 m) c).arrAt_in 1 rfl _).trans (A_eq0 (U0 m) c 1))
    _ = m ((c : Thread nD τ).loc main_arg2) := rfl
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := W5_of_ne m c main_arg3 (by decide)
    _ = W3 m c (Proc.devRef .tc main_arg3) := StableHlo.after_of_writes_sub hostOps1_2 _ hostOps1_2_writes (r := main_arg3) (by decide)
    _ = W2 m c (Proc.devRef .tc main_arg3) := StableHlo.after_of_writes_sub hostOps1_1 _ hostOps1_1_writes (r := main_arg3) (by decide)
    _ = W1 m c (Proc.devRef .tc main_arg3) := StableHlo.after_of_writes_sub hostOps1 _ hostOps1_writes (r := main_arg3) (by decide)
    _ = W0 m c (Proc.devRef .tc main_arg3) := W1_of_ne m c main_arg3 (by decide)
    _ = m ((c : Thread nD τ).loc main_arg3) := rfl
theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := W5_of_ne m c main_arg4 (by decide)
    _ = W3 m c (Proc.devRef .tc main_arg4) := StableHlo.after_of_writes_sub hostOps1_2 _ hostOps1_2_writes (r := main_arg4) (by decide)
    _ = W2 m c (Proc.devRef .tc main_arg4) := StableHlo.after_of_writes_sub hostOps1_1 _ hostOps1_1_writes (r := main_arg4) (by decide)
    _ = W1 m c (Proc.devRef .tc main_arg4) := StableHlo.after_of_writes_sub hostOps1 _ hostOps1_writes (r := main_arg4) (by decide)
    _ = W0 m c (Proc.devRef .tc main_arg4) := W1_of_ne m c main_arg4 (by decide)
    _ = m ((c : Thread nD τ).loc main_arg4) := rfl
theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := W5_of_ne m c main_arg5 (by decide)
    _ = W3 m c (Proc.devRef .tc main_arg5) := StableHlo.after_of_writes_sub hostOps1_2 _ hostOps1_2_writes (r := main_arg5) (by decide)
    _ = W2 m c (Proc.devRef .tc main_arg5) := StableHlo.after_of_writes_sub hostOps1_1 _ hostOps1_1_writes (r := main_arg5) (by decide)
    _ = W1 m c (Proc.devRef .tc main_arg5) := StableHlo.after_of_writes_sub hostOps1 _ hostOps1_writes (r := main_arg5) (by decide)
    _ = W0 m c (Proc.devRef .tc main_arg5) := W1_of_ne m c main_arg5 (by decide)
    _ = m ((c : Thread nD τ).loc main_arg5) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U4 m) c
  | ⟨2, _⟩ => fun c => dat2 (U5 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (U4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (show Pipeline.ΦA spec1 c ⊢ (pdats m 1 c).Φ 0 from hin1 (U4 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (U4 m) c).trans (show Pipeline.ΦA spec1 c ⊢ _ from ?_)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U4 m c) (U5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .region (reg1 m),
    .region (reg2 m) ]

variable (ρ : Dev nD → PrngReg)

set_option backward.isDefEq.respectTransparency.types false in
/-- THE RUN: from any memory with zero counters every weakly fair execution of @main terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain,
        show (segs m).map Pipeline.Seg.prog = [
          Prog.lift (.customCall (Pipeline.entry 0) ()),
          StableHlo.seq hostOps1,
          StableHlo.seq hostOps1_1,
          StableHlo.seq hostOps1_2,
          Prog.lift (.customCall (Pipeline.entry 1) ()),
          Prog.lift (.customCall (Pipeline.entry 2) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun _ => ⟨.rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c)⟩) (run_all m ρ)

/-- The run with the result array named: it ends at the last boundary's contents. -/
theorem run_result : θ_run defs (onTc (τ := τ) (main (F := F))) ⟨m, fun _ => 0, ρ⟩ (fun r => ∀ c : Dev nD,
      r.2.mem ((c.tc : Thread nD τ).loc main_v48) = W6 m c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v48 (by decide)),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c)⟩) (run_all m ρ)

end Cert.KernelIdeal.Hand

end
-- ==== Proof.Spec.lean ====
/-
  The mathematics both programs compute, stated once over literal shapes and apart from either program's text.

  A graph-convolution layer followed by a batch normalisation and a rectifier. With `h = x · W` (50000 × 128), the
  edge list extended by one self loop per node, `deg` the number of extended edges arriving at a node,
  `dis = deg^(-1/2)` where `deg > 0` and `0` elsewhere, each extended edge `(r, c)` carries the message
  `h[r] · (dis[r] · dis[c])` and `agg[c]` is the sum of the messages arriving at `c` (`aggOf`). With `v = agg + b`
  the layer returns `max (γ · (v − μ) · rsqrt (σ² + ε) + β) 0`, `μ` the column mean of `v` over the 50000 rows and
  `σ²` its column variance. The reference takes `σ²` as the mean of `(v − μ)²` (`bnRef`); the kernel accumulates
  the column sums of `v` and of `v²` block by block and takes `σ² = (Σ v²) / n − μ²` (`meanK`, `varK`, `applyK`).
  On real numbers the two agree; `Algebra.lean` proves it on the extended reals for finite entries.
-/
import Idealize.ShloMosaic.PureOps.Ideal
import Idealize.ShloMosaic.PureOps.Ideal.Laws
import Idealize.ShloMosaic.Lib.ValueIdx

noncomputable section

namespace Cert.GcnBn

open Idealize.ShloMosaic

abbrev T_ : Shape := ⟨0, ![]⟩
abbrev T128 : Shape := ⟨1, ![128]⟩
abbrev T1x128 : Shape := ⟨2, ![1, 128]⟩
abbrev T50000 : Shape := ⟨1, ![50000]⟩
abbrev T600000 : Shape := ⟨1, ![600000]⟩
abbrev T650000 : Shape := ⟨1, ![650000]⟩
abbrev T1x600000 : Shape := ⟨2, ![1, 600000]⟩
abbrev T2x600000 : Shape := ⟨2, ![2, 600000]⟩
abbrev T650000x1 : Shape := ⟨2, ![650000, 1]⟩
abbrev T650000x128 : Shape := ⟨2, ![650000, 128]⟩
abbrev T50000x128 : Shape := ⟨2, ![50000, 128]⟩
abbrev T50000x256 : Shape := ⟨2, ![50000, 256]⟩
abbrev T256x128 : Shape := ⟨2, ![256, 128]⟩
abbrev T5000x128 : Shape := ⟨2, ![5000, 128]⟩

variable {F : FTy → Type} [FloatOps F]

/-! ## The dimension numbers of the host's four indexed operations and of the whole product -/

def scDeg : ScatterDims T50000 T650000x1 T650000 where
  updateWindowDims := []
  insertedWindowDims := [0]
  scatterDimsToOperandDims := [0]
  indexVectorDim := 1
  wf := by decide
def gaDis : GatherDims T50000 T650000x1 T650000 where
  offsetDims := []
  collapsedSliceDims := [0]
  operandBatchingDims := []
  startIndicesBatchingDims := []
  startIndexMap := [0]
  indexVectorDim := 1
  sliceSizes := ![1]
  wf := by decide
def gaRow : GatherDims T50000x128 T650000x1 T650000x128 where
  offsetDims := [1]
  collapsedSliceDims := [0]
  operandBatchingDims := []
  startIndicesBatchingDims := []
  startIndexMap := [0]
  indexVectorDim := 1
  sliceSizes := ![1, 128]
  wf := by decide
def scAgg : ScatterDims T50000x128 T650000x1 T650000x128 where
  updateWindowDims := [1]
  insertedWindowDims := [0]
  scatterDimsToOperandDims := [0]
  indexVectorDim := 1
  wf := by decide
def dotXW : DotDims T50000x256 T256x128 T50000x128 where
  lhsContracting := [1]
  rhsContracting := [0]
  lhsNonContracting := [0]
  rhsNonContracting := [1]
  lhsBatch := []
  rhsBatch := []
  wf := by decide

/-! ## The aggregation -/

/-- Row `r` (0: sources, 1: targets) of the edge list, followed by the self loops `0, 1, …, 49999`. -/
def endsOf (r : Nat) (hs : T2x600000.Slices ![r, 0] T1x600000) (ei : IVec T2x600000 32) : IVec T650000 32 :=
  concatenate T650000 0 [⟨T600000, shapeCast T600000 (extractStridedSlice T1x600000 ![r, 0] ei hs) (by decide)⟩,
    ⟨T50000, iotaInDim T50000 32 0⟩] (show Shape.Concatenates [T600000, T50000] T650000 0 by decide)
/-- The sources, `row`. -/
def rowOf (ei : IVec T2x600000 32) : IVec T650000 32 := endsOf 0 (by decide) ei
/-- The targets, `col`. -/
def colOf (ei : IVec T2x600000 32) : IVec T650000 32 := endsOf 1 (by decide) ei

/-- A negative index counts from the end (jnp's indexing), as a column of start indices. -/
def wrapIdx (e : IVec T650000 32) : IVec T650000x1 32 :=
  broadcastInDim T650000x1 ![0] (by decide)
    (select (cmpi .slt e (broadcastInDim T650000 ![] (by decide) (constantI T_ 32 0#32)))
      (addi e (broadcastInDim T650000 ![] (by decide) (constantI T_ 32 50000#32))) e)

/-- The number of extended edges arriving at each node. -/
def degOf (ei : IVec T2x600000 32) : FVec F T50000 .f32 :=
  Host.scatterAdd scDeg (broadcastInDim T50000 ![] (by decide) (constant T_ .f32 0x00000000#32))
    (broadcastInDim T650000x1 ![0] (by decide) (colOf ei))
    (broadcastInDim T650000 ![] (by decide) (constant T_ .f32 0x3F800000#32))

/-- `deg^(-1/2)` where `deg > 0`, zero elsewhere. -/
def disOf (ei : IVec T2x600000 32) : FVec F T50000 .f32 :=
  select (cmpf (F := F) .ogt (degOf ei) (broadcastInDim T50000 ![] (by decide) (constant T_ .f32 0x00000000#32)))
    (Host.rsqrt (degOf ei)) (broadcastInDim T50000 ![] (by decide) (id (constant T_ .f32 0x00000000#32)))

/-- The weight of each extended edge. -/
def normOf (ei : IVec T2x600000 32) : FVec F T650000 .f32 :=
  mulf (Host.gather gaDis (disOf ei) (wrapIdx (rowOf ei))) (Host.gather gaDis (disOf ei) (wrapIdx (colOf ei)))

/-- The messages: the source's row of `h` times the edge's weight. -/
def msgOf (h : FVec F T50000x128 .f32) (ei : IVec T2x600000 32) : FVec F T650000x128 .f32 :=
  mulf (Host.gather gaRow h (wrapIdx (rowOf ei)))
    (broadcastInDim T650000x128 ![0, 1] (by decide) (broadcastInDim T650000x1 ![0] (by decide) (normOf ei)))

/-- The aggregation: at each target the sum of the messages arriving there. -/
def aggOf (h : FVec F T50000x128 .f32) (ei : IVec T2x600000 32) : FVec F T50000x128 .f32 :=
  Host.scatterAdd scAgg (broadcastInDim T50000x128 ![] (by decide) (constant T_ .f32 0x00000000#32))
    (broadcastInDim T650000x1 ![0] (by decide) (colOf ei)) (msgOf h ei)

/-! ## The normalisation, the reference's way -/

/-- A row vector as every row of a 50000-row array. -/
def rows (a : FVec F T128 .f32) : FVec F T50000x128 .f32 :=
  broadcastInDim T50000x128 ![0, 1] (by decide) (broadcastInDim T1x128 ![1] (by decide) a)

/-- The column means: the column sums over 50000. -/
def meanRef (v : FVec F T50000x128 .f32) : FVec F T128 .f32 :=
  Host.divf (Host.reduceAdd v (constant T_ .f32 0x00000000#32) (axes := [0]) (by decide) (by decide))
    (broadcastInDim T128 ![] (by decide) (constant T_ .f32 0x47435000#32))

/-- The column variances: the column means of the squared deviations. -/
def varRef (v : FVec F T50000x128 .f32) : FVec F T128 .f32 :=
  Host.divf (Host.reduceAdd (mulf (subf v (rows (meanRef v))) (subf v (rows (meanRef v)))) (constant T_ .f32 0x00000000#32)
      (axes := [0]) (by decide) (by decide))
    (broadcastInDim T128 ![] (by decide) (constant T_ .f32 0x47435000#32))

/-- The reference's result from `v = agg + b`. -/
def bnRef (v : FVec F T50000x128 .f32) (γ β : FVec F T128 .f32) : FVec F T50000x128 .f32 :=
  maximumf
    (addf (mulf (mulf (rows γ) (subf v (rows (meanRef v))))
        (rows (Host.rsqrt (addf (varRef v) (broadcastInDim T128 ![] (by decide) (constant T_ .f32 0x3727C5AC#32))))))
      (rows β))
    (broadcastInDim T50000x128 ![] (by decide) (constant T_ .f32 0x00000000#32))

/-! ## The normalisation, the kernel's way -/

/-- The column variances as the kernel takes them: the column means of the squares minus the squared means. -/
def varK (v : FVec F T50000x128 .f32) : FVec F T128 .f32 :=
  subf (Host.divf (Host.reduceAdd (mulf v v) (constant T_ .f32 0x00000000#32) (axes := [0]) (by decide) (by decide))
      (broadcastInDim T128 ![] (by decide) (constant T_ .f32 0x47435000#32)))
    (mulf (meanRef v) (meanRef v))

/-- The kernel's result from `v = agg + b`: the reference's formula with `varK` for the variance. -/
def bnK (v : FVec F T50000x128 .f32) (γ β : FVec F T128 .f32) : FVec F T50000x128 .f32 :=
  maximumf
    (addf (mulf (mulf (rows γ) (subf v (rows (meanRef v))))
        (rows (Host.rsqrt (addf (varK v) (broadcastInDim T128 ![] (by decide) (constant T_ .f32 0x3727C5AC#32))))))
      (rows β))
    (broadcastInDim T50000x128 ![] (by decide) (constant T_ .f32 0x00000000#32))

/-- A 1 × 128 row as every row of a 50000-row array. -/
def rows1 (a : FVec F T1x128 .f32) : FVec F T50000x128 .f32 :=
  broadcastInDim T50000x128 ![0, 1] (by decide) a

/-- The last region's formula over the aggregated array and the five rows it is handed (bias, mean, variance,
    `γ`, `β`, each 1 × 128). -/
def applyK (a : FVec F T50000x128 .f32) (b2 mean2 var2 g2 be2 : FVec F T1x128 .f32) : FVec F T50000x128 .f32 :=
  maximumf
    (addf (mulf (mulf (rows1 g2) (subf (addf a (rows1 b2)) (rows1 mean2)))
        (rows1 (Host.rsqrt (addf var2 (broadcastInDim T1x128 ![] (by decide) (constant T_ .f32 0x3727C5AC#32))))))
      (rows1 be2))
    (broadcastInDim T50000x128 ![] (by decide) (constant T_ .f32 0x00000000#32))

/-- The reference, whole. -/
def refOf (x : FVec F T50000x256 .f32) (ei : IVec T2x600000 32) (w : FVec F T256x128 .f32) (b γ β : FVec F T128 .f32) :
    FVec F T50000x128 .f32 :=
  bnRef (addf (aggOf (Host.dotGeneral dotXW none x w) ei) (rows b)) γ β

end Cert.GcnBn

end
-- ==== Proof.KI.ValueHost.lean ====
/-
  The three stretches of host operations between region 0 and region 1, read at the four arrays the later regions
  stage: the aggregated array is the specification's `aggOf` of region 0's result and the edge list, and the bias,
  `γ` and `β` rows are the arguments re-laid as 1 × 128.
-/
import proofs.«149105_j37778532336358_1_alg».proof.Proof.KI.Run
import proofs.«149105_j37778532336358_1_alg».proof.Proof.Spec
import Idealize.ShloMosaic.Lib.StableHlo.Run

set_option maxRecDepth 16384

noncomputable section

namespace Cert.KernelIdeal.Hand

open Cert.KernelIdeal Cert.KernelIdeal.Gen Cert.GcnBn
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 4000000 in
/-- The aggregated array: the specification's chain over region 0's result and the edge list. -/
theorem W4_v43 (c : Dev nD) :
    W4 m c (Proc.devRef .tc main_v43)
      = aggOf (F := F) (W1 m c (Proc.devRef .tc main_v0)) (W1 m c (Proc.devRef .tc main_arg1)) := by
  show StableHlo.after hostOps1_2 (StableHlo.after hostOps1_1 (StableHlo.after hostOps1 (W1 m c))) (Proc.devRef .tc main_v43) = _
  dsimp only [hostOps1_2, hostOps1_1, hostOps1]
  after_results_simp <;> rfl

set_option maxHeartbeats 4000000 in
/-- The bias, re-laid as a 1 × 128 row. -/
theorem W4_v44 (c : Dev nD) :
    W4 m c (Proc.devRef .tc main_v44) = shapeCast T1x128 (W1 m c (Proc.devRef .tc main_arg3)) (by decide) := by
  show StableHlo.after hostOps1_2 (StableHlo.after hostOps1_1 (StableHlo.after hostOps1 (W1 m c))) (Proc.devRef .tc main_v44) = _
  dsimp only [hostOps1_2, hostOps1_1, hostOps1]
  after_results_simp <;> rfl

set_option maxHeartbeats 4000000 in
/-- `γ`, re-laid as a 1 × 128 row. -/
theorem W4_v45 (c : Dev nD) :
    W4 m c (Proc.devRef .tc main_v45) = shapeCast T1x128 (W1 m c (Proc.devRef .tc main_arg4)) (by decide) := by
  show StableHlo.after hostOps1_2 (StableHlo.after hostOps1_1 (StableHlo.after hostOps1 (W1 m c))) (Proc.devRef .tc main_v45) = _
  dsimp only [hostOps1_2, hostOps1_1, hostOps1]
  after_results_simp <;> rfl

set_option maxHeartbeats 4000000 in
/-- `β`, re-laid as a 1 × 128 row. -/
theorem W4_v46 (c : Dev nD) :
    W4 m c (Proc.devRef .tc main_v46) = shapeCast T1x128 (W1 m c (Proc.devRef .tc main_arg5)) (by decide) := by
  show StableHlo.after hostOps1_2 (StableHlo.after hostOps1_1 (StableHlo.after hostOps1 (W1 m c))) (Proc.devRef .tc main_v46) = _
  dsimp only [hostOps1_2, hostOps1_1, hostOps1]
  after_results_simp <;> rfl

end Cert.KernelIdeal.Hand

end
-- ==== Proof.KI.Value0.lean ====
/-
  Region 0 of @main, as values: the ten 5000-row blocks the region writes are, together, the whole product x · W.
  Entry (p, q) of the block written at point t is the sum over k of (block t of x)(p, k) · W(k, q); row p of block t
  of x is row 5000 t + p of x, so that entry is entry (5000 t + p, q) of the whole product, a row of a product
  reading only that row of the left factor. The blocks tile the 50000 rows (row r lies in block r / 5000), so the
  array h ends holding x · W. On the extended reals the change of the operands' format is the identity and a product
  into a zero accumulator is the exact sum over the contracted index, as the host's product is.
-/
import proofs.«149105_j37778532336358_1_alg».proof.Proof.KI.Region0
import proofs.«149105_j37778532336358_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.GcnBn

/-! ## The block product at an entry -/

theorem lhs_blk_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl
theorem lhs_blk_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_blk_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_blk_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- Entry (p, q) of a block product: the sum over k of the block's (p, k) times the weight's (k, q). -/
theorem pay0_apply (x : Vec Ideal S5000x256 .f32) (w : Vec Ideal S256x128 .f32) (p : Fin 5000) (q : Fin 128) :
    (k0_pay1 (F := Ideal) x w) (ix2 p q) = ∑ k : Fin 256, x (ix2 p k) * w (ix2 k q) := by
  unfold k0_pay1
  refine (Ideal.matmul_constant_zero_apply dot_S5000x256_S256x128_S5000x128_1_0_0_1_n_n none _ _ (ix2 p q)).trans ?_
  rw [← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k :=
    funext fun a => Fin.ext (by
      match a with
      | ⟨0, _⟩ => exact lhs_blk_0 _ _
      | ⟨1, _⟩ => exact (lhs_blk_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q :=
    funext fun a => Fin.ext (by
      match a with
      | ⟨0, _⟩ => exact (rhs_blk_0 _ _).trans hk
      | ⟨1, _⟩ => exact rhs_blk_1 _ _)
  rw [el, er]
  rfl

/-! ## The whole product at an entry -/

theorem lhs_arr_0 (i : T50000x128.Idx) (q : dotXW.contr.Idx) : (dotXW.lhsIdx i q 0).val = (i 0).val := by
  unfold DotDims.lhsIdx
  rw [dif_neg (show ¬(0 : Fin T50000x256.rank) ∈ dotXW.lhsBatch by decide),
    dif_pos (show (0 : Fin T50000x256.rank) ∈ dotXW.lhsNonContracting by decide)]
  rfl
theorem lhs_arr_1 (i : T50000x128.Idx) (q : dotXW.contr.Idx) : (dotXW.lhsIdx i q 1).val = (q ⟨0, by decide⟩).val :=
  dotXW.lhsIdx_val_of_single rfl i q
theorem rhs_arr_0 (i : T50000x128.Idx) (q : dotXW.contr.Idx) : (dotXW.rhsIdx i q 0).val = (q ⟨0, by decide⟩).val :=
  dotXW.rhsIdx_val_of_single rfl i q
theorem rhs_arr_1 (i : T50000x128.Idx) (q : dotXW.contr.Idx) : (dotXW.rhsIdx i q 1).val = (i 1).val := by
  unfold DotDims.rhsIdx
  rw [dif_neg (show ¬(1 : Fin T256x128.rank) ∈ dotXW.rhsBatch by decide),
    dif_pos (show (1 : Fin T256x128.rank) ∈ dotXW.rhsNonContracting by decide)]
  rfl

/-- Entry (r, q) of the whole product: the sum over k of x(r, k) times W(k, q). -/
theorem dotXW_apply (x : FVec Ideal T50000x256 .f32) (w : FVec Ideal T256x128 .f32) (r : Fin 50000) (q : Fin 128) :
    (Host.dotGeneral (F := Ideal) dotXW none x w) (ix2 r q) = ∑ k : Fin 256, x (ix2 r k) * w (ix2 k q) := by
  simp only [Host.dotGeneral]
  rw [Ideal.dotGeneral_apply, ← Equiv.sum_comp (contrEquiv1 dotXW 256 rfl rfl).symm]
  refine Finset.sum_congr rfl fun k _ => ?_
  have hk := contrEquiv1_symm_val dotXW 256 rfl rfl k
  have el : dotXW.lhsIdx (ix2 r q) ((contrEquiv1 dotXW 256 rfl rfl).symm k) = ix2 r k :=
    funext fun a => Fin.ext (by
      match a with
      | ⟨0, _⟩ => exact lhs_arr_0 _ _
      | ⟨1, _⟩ => exact (lhs_arr_1 _ _).trans hk)
  have er : dotXW.rhsIdx (ix2 r q) ((contrEquiv1 dotXW 256 rfl rfl).symm k) = ix2 k q :=
    funext fun a => Fin.ext (by
      match a with
      | ⟨0, _⟩ => exact (rhs_arr_0 _ _).trans hk
      | ⟨1, _⟩ => exact rhs_arr_1 _ _)
  rw [el, er]

/-- A block product agrees, entry by entry, with the whole product on the block's rows: row p of the block that
    starts at row 5000 n is row 5000 n + p of the array, and a row of a product reads only that row of the left factor. -/
theorem blk_entry (x : Vec Ideal S5000x256 .f32) (w : Vec Ideal S256x128 .f32)
    (X : FVec Ideal T50000x256 .f32) (W : FVec Ideal T256x128 .f32) (n : Nat)
    (hx : ∀ (p : Fin 5000) (k : Fin 256) (r : Fin 50000), r.val = 5000 * n + p.val → x (ix2 p k) = X (ix2 r k))
    (hw : ∀ (k : Fin 256) (q : Fin 128), w (ix2 k q) = W (ix2 k q))
    (j : S5000x128.Idx) (i : S50000x128.Idx) (hi0 : (i 0).val = 5000 * n + (j 0).val) (hi1 : (i 1).val = (j 1).val) :
    (k0_pay1 (F := Ideal) x w) j = (Host.dotGeneral (F := Ideal) dotXW none X W : FVec Ideal T50000x128 .f32) i := by
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  obtain rfl : s = q := Fin.ext hi1
  rw [pay0_apply, dotXW_apply]
  exact Finset.sum_congr rfl fun k _ => by rw [hx p k r hi0, hw k s]

/-! ## From the blocks to the array -/

variable (V : (c : Dev nD) → (b : Ref sig .tc) → Buf (Elt Ideal) ((c : Thread nD τ).loc b))

theorem zero_offsets0 : (![0, 0] : Fin 2 → Nat) = fun _ => 0 := funext fun a => by fin_cases a <;> rfl

/-- The product of the whole of x with W, from the arrays as the region finds them. -/
abbrev prod0 (c : Dev nD) : FVec Ideal T50000x128 .f32 :=
  Host.dotGeneral (F := Ideal) (φ₁ := .f32) (φ₂ := .f32) dotXW none (V c main_arg0) (V c main_arg2)

/-- The index maps over the grid: the blocks of x and of the product move down one block of rows per point, the
    block of W stays. -/
theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the block of x at point t is row 5000 t + p of x. -/
theorem xblk_apply (c : Dev nD) (t : Fin cfg0.N) (p : Fin 5000) (k : Fin 256) (r : Fin 50000) (hr : r.val = 5000 * t.val + p.val) :
    (iblk0 V c 0 t : Vec Ideal S5000x256 .f32) (ix2 p k) = (V c main_arg0 : S50000x256.Idx → Elt Ideal .f32) (ix2 r k) := by
  obtain ⟨e0, e1, -⟩ := block_indices0 t
  unfold iblk0
  rw [View.read_apply]
  show V c main_arg0 _ = V c main_arg0 _
  refine congrArg _ ?_
  funext a
  apply Fin.ext
  match a with
  | ⟨0, _⟩ => show win0_0.index t (0 : Fin 2) * 5000 + 1 * p.val = r.val; rw [e0, hr]; omega
  | ⟨1, _⟩ => show win0_0.index t (1 : Fin 2) * 256 + 1 * k.val = k.val; rw [e1]; omega

/-- The block of W at every point is W. -/
theorem wblk_apply (c : Dev nD) (t : Fin cfg0.N) (k : Fin 256) (q : Fin 128) :
    (iblk0 V c 1 t : Vec Ideal S256x128 .f32) (ix2 k q) = (V c main_arg2 : S256x128.Idx → Elt Ideal .f32) (ix2 k q) := by
  obtain ⟨-, -, e0, e1, -⟩ := block_indices0 t
  unfold iblk0
  rw [View.read_apply]
  show V c main_arg2 _ = V c main_arg2 _
  refine congrArg _ ?_
  funext a
  apply Fin.ext
  match a with
  | ⟨0, _⟩ => show win0_1.index t (0 : Fin 2) * 256 + 1 * k.val = k.val; rw [e0]; omega
  | ⟨1, _⟩ => show win0_1.index t (1 : Fin 2) * 128 + 1 * q.val = q.val; rw [e1]; omega

/-- What point t writes back is block t of the whole product. -/
theorem written0_eq (c : Dev nD) (t : Fin cfg0.N) :
    (dat0 V c).flushed 2 t = ((cfg0.win 2).blk t).view.read (Elt Ideal) (prod0 V c) := by
  show (cfg0.win 2).cut (grid0.coords t) ((dat0 V c).after 2 t) = _
  rw [after0_2]
  unfold out0_2
  rw [View.canon_unit_zero zero_offsets0]
  simp only [View.ld_unit_zero (S := S5000x256) zero_offsets0, View.ld_unit_zero (S := S256x128) zero_offsets0]
  obtain ⟨-, -, -, -, e0, e1⟩ := block_indices0 t
  funext j
  show (k0_pay1 (F := Ideal) (iblk0 V c 0 t) (iblk0 V c 1 t)) j = prod0 V c (((cfg0.win 2).blk t).view.emb j)
  refine blk_entry (iblk0 V c 0 t) (iblk0 V c 1 t) (V c main_arg0) (V c main_arg2) t.val
    (fun p k r hr => xblk_apply V c t p k r hr) (fun k q => wblk_apply V c t k q) j (((cfg0.win 2).blk t).view.emb j) ?_ ?_
  · show win0_2.index t (0 : Fin 2) * 5000 + 1 * (j 0).val = 5000 * t.val + (j 0).val
    rw [e0]; omega
  · show win0_2.index t (1 : Fin 2) * 128 + 1 * (j 1).val = (j 1).val
    rw [e1]; omega

/-- An entry of the array is in point t's block when each coordinate is in the block's range on its axis. -/
theorem mem_rows0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Row r of the array lies in the block of point r / 5000. -/
theorem rows_covered0 (i : S50000x128.Idx) : ∃ t : Fin cfg0.N, (cfg0.win 2).flush t = true ∧ i ∈ ((cfg0.win 2).blk t).view.set := by
  have hN : grid0.N = 10 := N_0
  have hi0 : (i 0).val < 50000 := (i 0).isLt
  have hi1 : (i 1).val < 128 := (i 1).isLt
  refine ⟨⟨(i 0).val / 5000, by show (i 0).val / 5000 < grid0.N; rw [hN]; omega⟩, flush0_2 _, ?_⟩
  rw [mem_rows0]
  obtain ⟨-, -, -, -, e0, e1⟩ := block_indices0 ⟨(i 0).val / 5000, by show (i 0).val / 5000 < grid0.N; rw [hN]; omega⟩
  intro a
  match a with
  | ⟨0, _⟩ => show win0_2.index _ (0 : Fin 2) * 5000 ≤ (i 0).val ∧ (i 0).val < win0_2.index _ (0 : Fin 2) * 5000 + 5000; rw [e0]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [e1]; omega

/-- The ten blocks are the whole product: the array h ends holding x · W. -/
theorem arr0 (c : Dev nD) :
    (dat0 (F := Ideal) V c).arrAt 2 cfg0.N = (Host.dotGeneral (F := Ideal) (φ₁ := .f32) (φ₂ := .f32) Cert.GcnBn.dotXW none (V c main_arg0) (V c main_arg2) : FVec Ideal T50000x128 .f32) :=
  (dat0 V c).arrAt_eq_of_cover 2 (prod0 V c) (fun t _ => written0_eq V c t) rows_covered0

end Cert.KernelIdeal.Hand

end
-- ==== Proof.KI.Value1.lean ====
/-
  The second region's two results, read as values on the extended reals.

  The region walks the ten 5000-row blocks of the aggregated array `a` (50000 x 128) together with the 1 x 128 bias
  row `b`. With `v = a + b` (the bias added to every row), it keeps two running rows: the column sums of `v` and the
  column sums of `v · v`, both started from zero at the first block and each block's column sums added at every
  point. At the last point it divides: the mean row is the first sum over 50000, the variance row the second sum over
  50000 less the squared mean row. Only that point writes the two 1 x 128 result arrays, and its block is the whole
  array.

  Addition on the extended reals is commutative and associative, so the ten partial sums re-index to one sum over the
  50000 rows — the host's reduction over the row axis from the initial value zero — with no finiteness assumed. The
  divisor is one and the same constant on both sides and is never evaluated; the kernel's and the host's quotient are
  the same function on the extended reals.
-/
import proofs.«149105_j37778532336358_1_alg».proof.Proof.KI.Region1
import proofs.«149105_j37778532336358_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.GcnBn
open scoped BigOperators

namespace Stats1

/-! ## The body's arithmetic at an index

Everything here is read on the extended reals. A block is 5000 rows of 128 columns; the bias, the two running
sums and the two results are single rows of 128 columns. -/

/-- A 128-vector laid out as a 1 x 128 row reads, in column `q`, the vector's entry `q`. -/
theorem row_of_vec (v : FVec Ideal S128 .f32) (q : Fin 128) :
    shapeCast S1x128 v shapeCasts_S128_S1x128 (ix2 (0 : Fin 1) q) = v (ix1 q) :=
  (shapeCast_addUnit_apply ![128] v shapeCasts_S128_S1x128 (ix2 (0 : Fin 1) q)).trans
    (congrArg v (funext fun a => match a with | ⟨0, _⟩ => rfl))

/-- The sum over the rows of a block, column by column. -/
theorem colsum_apply (v : FVec Ideal S5000x128 .f32) (hφ : FKind.Formats .f32)
    (hacc : (0x00000000#32 : BitVec 32) = 0x00000000#32) (q : Fin 128) :
    multiReduction .add [0] S128 v 0x00000000#32 reduces_S5000x128_S128 hφ hacc (ix1 q) = ∑ p : Fin 5000, v (ix2 p q) := by
  refine (Ideal.multiReduction_add_single v 0x00000000#32 reduces_S5000x128_S128 hφ hacc (ix1 q)).trans ?_
  show ∑ p : Fin 5000, v (reduces_S5000x128_S128.lift (ix1 q) p) = ∑ p : Fin 5000, v (ix2 p q)
  refine Finset.sum_congr rfl fun p _ => congrArg v (funext fun a => ?_)
  match a with
  | ⟨0, _⟩ => rfl
  | ⟨1, _⟩ => rfl

/-- The bias added to every row of a block, at an index. -/
theorem pay3_apply (x : FVec Ideal S5000x128 .f32) (b : FVec Ideal S1x128 .f32) (p : Fin 5000) (q : Fin 128) :
    k1_pay3 x b (ix2 p q) = x (ix2 p q) + b (ix2 (0 : Fin 1) q) := by
  unfold k1_pay3
  rw [shapeCast_self, shapeCast_self]
  show x (ix2 p q) + broadcastTo S5000x128 b broadcasts_S1x128_S5000x128 (ix2 p q) = _
  rw [broadcastTo_apply b broadcasts_S1x128_S5000x128 (ix2 p q) (ix2 (0 : Fin 1) q) (fun a => by
    match a with
    | ⟨0, _⟩ => rfl
    | ⟨1, _⟩ => rfl)]

/-- The running sum after a point: what it held plus the column sums of the block with the bias added. -/
theorem pay4_apply (x : FVec Ideal S5000x128 .f32) (b s : FVec Ideal S1x128 .f32) (q : Fin 128) :
    k1_pay4 x b s (ix2 (0 : Fin 1) q) = s (ix2 (0 : Fin 1) q) + ∑ p : Fin 5000, (x (ix2 p q) + b (ix2 (0 : Fin 1) q)) := by
  unfold k1_pay4
  rw [shapeCast_self]
  show s (ix2 (0 : Fin 1) q) + shapeCast S1x128 (multiReduction .add [0] S128 (k1_pay3 (F := Ideal) x b) 0x00000000#32 reduces_S5000x128_S128 (.inl rfl) rfl) shapeCasts_S128_S1x128 (ix2 (0 : Fin 1) q) = _
  refine congrArg (s (ix2 (0 : Fin 1) q) + ·) ?_
  refine (row_of_vec _ q).trans ?_
  refine (colsum_apply (k1_pay3 (F := Ideal) x b) _ _ q).trans ?_
  exact Finset.sum_congr rfl fun p _ => pay3_apply x b p q

/-- The running sum of squares after a point: what it held plus the column sums of the squared entries. -/
theorem pay5_apply (x : FVec Ideal S5000x128 .f32) (b s : FVec Ideal S1x128 .f32) (q : Fin 128) :
    k1_pay5 x b s (ix2 (0 : Fin 1) q)
      = s (ix2 (0 : Fin 1) q) + ∑ p : Fin 5000, (x (ix2 p q) + b (ix2 (0 : Fin 1) q)) * (x (ix2 p q) + b (ix2 (0 : Fin 1) q)) := by
  unfold k1_pay5
  rw [shapeCast_self]
  show s (ix2 (0 : Fin 1) q) + shapeCast S1x128 (multiReduction .add [0] S128 (mulf (k1_pay3 (F := Ideal) x b) (k1_pay3 (F := Ideal) x b)) 0x00000000#32 reduces_S5000x128_S128 (.inl rfl) rfl) shapeCasts_S128_S1x128 (ix2 (0 : Fin 1) q) = _
  refine congrArg (s (ix2 (0 : Fin 1) q) + ·) ?_
  refine (row_of_vec _ q).trans ?_
  refine (colsum_apply (mulf (k1_pay3 (F := Ideal) x b) (k1_pay3 (F := Ideal) x b)) _ _ q).trans ?_
  refine Finset.sum_congr rfl fun p _ => ?_
  show k1_pay3 (F := Ideal) x b (ix2 p q) * k1_pay3 (F := Ideal) x b (ix2 p q) = _
  rw [pay3_apply]

/-- The two running sums start from zero. -/
theorem pay1_apply (j : S1x128.Idx) : (k1_pay1 (F := Ideal)) j = 0 := by
  unfold k1_pay1
  rw [shapeCast_self]
  exact Ideal.ofBits_zero_f32
theorem pay2_apply (j : S1x128.Idx) : (k1_pay2 (F := Ideal)) j = 0 := by
  unfold k1_pay2
  rw [shapeCast_self]
  exact Ideal.ofBits_zero_f32

/-- The mean row: the running sum over the number of rows. -/
theorem pay6_apply (s : FVec Ideal S1x128 .f32) (j : S1x128.Idx) :
    k1_pay6 (F := Ideal) s j = Ideal.div (s j) (Ideal.ofBits .f32 0x47435000#32) := rfl

/-- The variance row: the running sum of squares over the number of rows, less the squared mean. -/
theorem pay7_apply (s s2 : FVec Ideal S1x128 .f32) (j : S1x128.Idx) :
    k1_pay7 (F := Ideal) s s2 j = Ideal.div (s2 j) (Ideal.ofBits .f32 0x47435000#32)
      - Ideal.div (s j) (Ideal.ofBits .f32 0x47435000#32) * Ideal.div (s j) (Ideal.ofBits .f32 0x47435000#32) := rfl

/-! ## The blocks the region reads

The aggregated array has 50000 rows; point `t` reads its rows `5000 t` to `5000 t + 4999`. The bias is one row, read
whole at every point. -/

variable (V : (c : Dev nD) → (b : Ref sig .tc) → Buf (Elt Ideal) ((c : Thread nD τ).loc b))

/-- The aggregated array as the region finds it. -/
abbrev aggArr (c : Dev nD) : FVec Ideal S50000x128 .f32 := V c main_v43
/-- The bias row as the region finds it. -/
abbrev biasRow (c : Dev nD) : FVec Ideal S1x128 .f32 := V c main_v44
/-- The block of the aggregated array read at point `t`. -/
abbrev aggBlk (c : Dev nD) (t : Fin cfg1.N) : FVec Ideal S5000x128 .f32 := iblk1 V c 0 t
/-- The bias row as read at point `t`. -/
abbrev biasBlk (c : Dev nD) (t : Fin cfg1.N) : FVec Ideal S1x128 .f32 := iblk1 V c 1 t

/-- The block indices of the two input windows, decided over the ten points. -/
theorem idx_in1 : ∀ t : Fin cfg1.N, win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- Row `p` of the block read at point `t` is row `5000 t + p` of the aggregated array. -/
theorem aggBlk_apply (c : Dev nD) (t : Fin cfg1.N) (p : Fin 5000) (q : Fin 128) (h : 5000 * t.val + p.val < 50000) :
    aggBlk V c t (ix2 p q) = aggArr V c (ix2 ⟨5000 * t.val + p.val, h⟩ q) := by
  obtain ⟨e0, e1, -, -⟩ := idx_in1 t
  unfold aggBlk aggArr iblk1
  rw [View.read_apply]
  show V c main_v43 _ = V c main_v43 _
  congr 1
  funext a
  apply Fin.ext
  match a with
  | ⟨0, _⟩ => show win1_0.index t (0 : Fin 2) * 5000 + 1 * p.val = 5000 * t.val + p.val; rw [e0]; omega
  | ⟨1, _⟩ => show win1_0.index t (1 : Fin 2) * 128 + 1 * q.val = q.val; rw [e1]; omega

/-- The bias row read at any point is the bias row. -/
theorem biasBlk_apply (c : Dev nD) (t : Fin cfg1.N) (q : Fin 128) :
    biasBlk V c t (ix2 (0 : Fin 1) q) = biasRow V c (ix2 (0 : Fin 1) q) := by
  obtain ⟨-, -, e0, e1⟩ := idx_in1 t
  unfold biasBlk biasRow iblk1
  rw [View.read_apply]
  show V c main_v44 _ = V c main_v44 _
  congr 1
  funext a
  apply Fin.ext
  match a with
  | ⟨0, _⟩ => show win1_1.index t (0 : Fin 2) * 1 + 1 * 0 = 0; rw [e0]
  | ⟨1, _⟩ => show win1_1.index t (1 : Fin 2) * 128 + 1 * q.val = q.val; rw [e1]; omega

/-! ## The running sums, point by point

Row `r` of the array with the bias added, in column `q`, as a function of the row number (zero past the last row,
which no sum below reaches). After point `n` the first running sum holds, in column `q`, the sum of these over the
first `5000 (n + 1)` rows, and the second the sum of their squares. -/

/-- Entry `(r, q)` of the array with the bias row added to every row. -/
def rowv (a : FVec Ideal S50000x128 .f32) (b : FVec Ideal S1x128 .f32) (q : Fin 128) (r : ℕ) : EReal :=
  if h : r < 50000 then a (ix2 ⟨r, h⟩ q) + b (ix2 (0 : Fin 1) q) else 0

/-- The column sums of the block read at point `t`, bias added, are the sums of `g ∘ rowv` over its 5000 rows. -/
theorem blk_sum (g : EReal → EReal) (c : Dev nD) (t : Fin cfg1.N) (q : Fin 128) :
    ∑ p : Fin 5000, g (aggBlk V c t (ix2 p q) + biasBlk V c t (ix2 (0 : Fin 1) q))
      = ∑ p ∈ Finset.range 5000, g (rowv (aggArr V c) (biasRow V c) q (5000 * t.val + p)) := by
  have hN : cfg1.N = 10 := N_1
  have ht : t.val < 10 := hN ▸ t.isLt
  rw [Finset.sum_range]
  refine Finset.sum_congr rfl fun p _ => congrArg g ?_
  have hp : 5000 * t.val + p.val < 50000 := by have := p.isLt; omega
  rw [rowv, dif_pos hp, aggBlk_apply V c t p q hp, biasBlk_apply V c t q]

/-- After point `n` the first running sum holds the column sums over the first `5000 (n + 1)` rows. -/
theorem sum_after (c : Dev nD) (q : Fin 128) : ∀ (n : ℕ) (h : n < cfg1.N),
    (outsAt1 V c n h).2.2.1 (ix2 (0 : Fin 1) q)
      = ∑ r ∈ Finset.range (5000 * (n + 1)), rowv (aggArr V c) (biasRow V c) q r
  | 0, h => by
    refine (congrFun (sc0_zero V c h) (ix2 (0 : Fin 1) q)).trans ?_
    refine (pay4_apply (aggBlk V c ⟨0, h⟩) (biasBlk V c ⟨0, h⟩) (k1_pay1 (F := Ideal)) q).trans ?_
    rw [pay1_apply, zero_add, blk_sum V (fun x => x) c ⟨0, h⟩ q]
    refine Finset.sum_congr rfl fun p _ => ?_
    show rowv _ _ q (5000 * 0 + p) = _
    rw [Nat.mul_zero, Nat.zero_add]
  | n + 1, h => by
    refine (congrFun (sc0_succ V c n h) (ix2 (0 : Fin 1) q)).trans ?_
    refine (pay4_apply (aggBlk V c ⟨n + 1, h⟩) (biasBlk V c ⟨n + 1, h⟩) (outsAt1 V c n (Nat.lt_of_succ_lt h)).2.2.1 q).trans ?_
    rw [sum_after c q n (Nat.lt_of_succ_lt h), blk_sum V (fun x => x) c ⟨n + 1, h⟩ q,
      show 5000 * (n + 1 + 1) = 5000 * (n + 1) + 5000 from by omega, Finset.sum_range_add]

/-- After point `n` the second running sum holds the column sums of the squares over the same rows. -/
theorem sq_after (c : Dev nD) (q : Fin 128) : ∀ (n : ℕ) (h : n < cfg1.N),
    (outsAt1 V c n h).2.2.2 (ix2 (0 : Fin 1) q)
      = ∑ r ∈ Finset.range (5000 * (n + 1)), rowv (aggArr V c) (biasRow V c) q r * rowv (aggArr V c) (biasRow V c) q r
  | 0, h => by
    refine (congrFun (sc1_zero V c h) (ix2 (0 : Fin 1) q)).trans ?_
    refine (pay5_apply (aggBlk V c ⟨0, h⟩) (biasBlk V c ⟨0, h⟩) (k1_pay2 (F := Ideal)) q).trans ?_
    rw [pay2_apply, zero_add, blk_sum V (fun x => x * x) c ⟨0, h⟩ q]
    refine Finset.sum_congr rfl fun p _ => ?_
    show rowv _ _ q (5000 * 0 + p) * rowv _ _ q (5000 * 0 + p) = _
    rw [Nat.mul_zero, Nat.zero_add]
  | n + 1, h => by
    refine (congrFun (sc1_succ V c n h) (ix2 (0 : Fin 1) q)).trans ?_
    refine (pay5_apply (aggBlk V c ⟨n + 1, h⟩) (biasBlk V c ⟨n + 1, h⟩) (outsAt1 V c n (Nat.lt_of_succ_lt h)).2.2.2 q).trans ?_
    rw [sq_after c q n (Nat.lt_of_succ_lt h), blk_sum V (fun x => x * x) c ⟨n + 1, h⟩ q,
      show 5000 * (n + 1 + 1) = 5000 * (n + 1) + 5000 from by omega, Finset.sum_range_add]

/-! ## The reference's column statistics at an index

The host's sum over the rows starts from zero and adds the 50000 entries of a column; the divisor is the same
constant on both sides and is never evaluated. -/

/-- The host's column sums of a 50000-row array. -/
theorem colsum_ref (v : FVec Ideal T50000x128 .f32) (h : T50000x128.ReducesTo [0] T128) (hu : 0 < T_.numel) (q : Fin 128) :
    Host.reduceAdd (F := Ideal) v (constant T_ .f32 0x00000000#32) h hu (ix1 q) = ∑ r : Fin 50000, v (ix2 r q) := by
  have hR : T50000x128.Reduces [0] T128 := by decide
  show Ideal.hostReduceAdd h v (Ideal.ofBits .f32 0x00000000#32) (ix1 q) = _
  rw [Ideal.hostReduceAdd_single h hR, Ideal.ofBits_zero_f32, zero_add]
  show ∑ r : Fin 50000, v (hR.lift (ix1 q) r) = _
  refine Finset.sum_congr rfl fun r _ => congrArg v (funext fun a => ?_)
  match a with
  | ⟨0, _⟩ => rfl
  | ⟨1, _⟩ => rfl

/-- The column mean. -/
theorem meanRef_apply (v : FVec Ideal T50000x128 .f32) (q : Fin 128) :
    meanRef (F := Ideal) v (ix1 q) = Ideal.div (∑ r : Fin 50000, v (ix2 r q)) (Ideal.ofBits .f32 0x47435000#32) := by
  unfold meanRef
  show Ideal.div (Host.reduceAdd (F := Ideal) v (constant T_ .f32 0x00000000#32) _ _ (ix1 q)) (Ideal.ofBits .f32 0x47435000#32) = _
  rw [colsum_ref]

/-- The column variance taken as the mean of the squares less the squared mean. -/
theorem varK_apply (v : FVec Ideal T50000x128 .f32) (q : Fin 128) :
    varK (F := Ideal) v (ix1 q) = Ideal.div (∑ r : Fin 50000, v (ix2 r q) * v (ix2 r q)) (Ideal.ofBits .f32 0x47435000#32)
      - meanRef (F := Ideal) v (ix1 q) * meanRef (F := Ideal) v (ix1 q) := by
  unfold varK
  show Ideal.div (Host.reduceAdd (F := Ideal) (mulf v v) (constant T_ .f32 0x00000000#32) _ _ (ix1 q)) (Ideal.ofBits .f32 0x47435000#32)
    - meanRef (F := Ideal) v (ix1 q) * meanRef (F := Ideal) v (ix1 q) = _
  rw [colsum_ref]
  rfl

/-- A row handed to every row of a 50000-row array. -/
theorem rows1_apply (b : FVec Ideal T1x128 .f32) (r : Fin 50000) (q : Fin 128) :
    rows1 b (ix2 r q) = b (ix2 (0 : Fin 1) q) := by
  unfold rows1
  exact broadcastInDim_apply _ _ b (ix2 r q) (ix2 (0 : Fin 1) q) (fun a => by
    match a with
    | ⟨0, _⟩ => rfl
    | ⟨1, _⟩ => rfl)

/-- The full column sums of `g` of the entries of the array with the bias added, as sums over the row number. -/
theorem full_sum (g : EReal → EReal) (a : FVec Ideal T50000x128 .f32) (b : FVec Ideal T1x128 .f32) (q : Fin 128) :
    ∑ r : Fin 50000, g (addf a (rows1 b) (ix2 r q)) = ∑ r ∈ Finset.range 50000, g (rowv a b q r) := by
  rw [Finset.sum_range]
  refine Finset.sum_congr rfl fun r _ => congrArg g ?_
  rw [rowv, dif_pos r.isLt, addf_apply, rows1_apply]

/-! ## After the last point; the two result arrays

At the last point the sums run over all 50000 rows, so the mean row and the variance row the body leaves are the
reference's column mean and the kernel-style column variance of the array with the bias added. Only that point writes
the two 1 x 128 result arrays back, and its block is the whole array. -/

/-- The mean row as the reference states it, as contents of the 1 x 128 array. -/
abbrev meanRow (c : Dev nD) : FVec Ideal T1x128 .f32 :=
  fun j => meanRef (F := Ideal) (addf (V c main_v43) (rows1 (V c main_v44))) (ix1 (j 1))
/-- The variance row, likewise. -/
abbrev varRow (c : Dev nD) : FVec Ideal T1x128 .f32 :=
  fun j => varK (F := Ideal) (addf (V c main_v43) (rows1 (V c main_v44))) (ix1 (j 1))

/-- The last point is point 9. -/
theorem lt9 : 9 < cfg1.N := by rw [show cfg1.N = 10 from N_1]; decide

/-- The first running sum after the last point, over the divisor, is the column mean. -/
theorem mean_entry (c : Dev nD) (q : Fin 128) :
    Ideal.div ((outsAt1 V c 9 lt9).2.2.1 (ix2 (0 : Fin 1) q)) (Ideal.ofBits .f32 0x47435000#32)
      = meanRef (F := Ideal) (addf (V c main_v43) (rows1 (V c main_v44))) (ix1 q) := by
  rw [sum_after V c q 9 lt9, meanRef_apply, full_sum (fun x => x)]

/-- What the mean window's buffer holds after the last point. -/
theorem mean_last (c : Dev nD) : (outsAt1 V c 9 lt9).1 = meanRow V c := by
  funext j
  obtain ⟨p, q, rfl⟩ : ∃ (p : Fin 1) (q : Fin 128), j = ix2 p q := ⟨j 0, j 1, eq_ix2 j⟩
  obtain rfl : p = 0 := Subsingleton.elim _ _
  refine (congrFun (out2_last V c lt9) (ix2 (0 : Fin 1) q)).trans ?_
  refine (pay6_apply (outsAt1 V c 9 lt9).2.2.1 (ix2 (0 : Fin 1) q)).trans ?_
  exact mean_entry V c q

/-- What the variance window's buffer holds after the last point. -/
theorem var_last (c : Dev nD) : (outsAt1 V c 9 lt9).2.1 = varRow V c := by
  funext j
  obtain ⟨p, q, rfl⟩ : ∃ (p : Fin 1) (q : Fin 128), j = ix2 p q := ⟨j 0, j 1, eq_ix2 j⟩
  obtain rfl : p = 0 := Subsingleton.elim _ _
  refine (congrFun (out3_last V c lt9) (ix2 (0 : Fin 1) q)).trans ?_
  refine (pay7_apply (outsAt1 V c 9 lt9).2.2.1 (outsAt1 V c 9 lt9).2.2.2 (ix2 (0 : Fin 1) q)).trans ?_
  show _ = varK (F := Ideal) (addf (V c main_v43) (rows1 (V c main_v44))) (ix1 q)
  rw [varK_apply, mean_entry V c q, sq_after V c q 9 lt9, full_sum (fun x => x * x)]

/-- The block indices of the two result windows, decided over the ten points: always block (0, 0). -/
theorem idx_out1 : ∀ t : Fin cfg1.N, win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- The one write-back of the mean window, at point 9, writes the mean row: its block is the whole 1 x 128 array. -/
theorem flushed_mean (c : Dev nD) (t : Fin cfg1.N) (hf : (cfg1.win 2).flush t = true) :
    (dat1 (F := Ideal) V c).flushed 2 t = ((cfg1.win 2).blk t).view.read (Elt Ideal) (meanRow V c) := by
  have hN : cfg1.N = 10 := N_1
  have h9 : t.val = 9 := by have := (flush1_2 t).mp hf; have := t.isLt; omega
  obtain rfl : t = ⟨9, lt9⟩ := Fin.ext h9
  show (cfg1.win 2).cut (grid1.coords ⟨9, lt9⟩) ((dat1 (F := Ideal) V c).after 2 ⟨9, lt9⟩) = _
  rw [after1_2, mean_last]
  obtain ⟨e0, e1, -, -⟩ := idx_out1 ⟨9, lt9⟩
  funext y
  rw [View.read_apply]
  show meanRow V c y = meanRow V c _
  refine congrArg (meanRow V c) (funext fun a => Fin.ext ?_)
  match a with
  | ⟨0, _⟩ => show (y 0).val = win1_2.index ⟨9, lt9⟩ (0 : Fin 2) * 1 + 1 * (y 0).val; rw [e0]; omega
  | ⟨1, _⟩ => show (y 1).val = win1_2.index ⟨9, lt9⟩ (1 : Fin 2) * 128 + 1 * (y 1).val; rw [e1]; omega

/-- The one write-back of the variance window, at point 9, writes the variance row. -/
theorem flushed_var (c : Dev nD) (t : Fin cfg1.N) (hf : (cfg1.win 3).flush t = true) :
    (dat1 (F := Ideal) V c).flushed 3 t = ((cfg1.win 3).blk t).view.read (Elt Ideal) (varRow V c) := by
  have hN : cfg1.N = 10 := N_1
  have h9 : t.val = 9 := by have := (flush1_3 t).mp hf; have := t.isLt; omega
  obtain rfl : t = ⟨9, lt9⟩ := Fin.ext h9
  show (cfg1.win 3).cut (grid1.coords ⟨9, lt9⟩) ((dat1 (F := Ideal) V c).after 3 ⟨9, lt9⟩) = _
  rw [after1_3, var_last]
  obtain ⟨-, -, e0, e1⟩ := idx_out1 ⟨9, lt9⟩
  funext y
  rw [View.read_apply]
  show varRow V c y = varRow V c _
  refine congrArg (varRow V c) (funext fun a => Fin.ext ?_)
  match a with
  | ⟨0, _⟩ => show (y 0).val = win1_3.index ⟨9, lt9⟩ (0 : Fin 2) * 1 + 1 * (y 0).val; rw [e0]; omega
  | ⟨1, _⟩ => show (y 1).val = win1_3.index ⟨9, lt9⟩ (1 : Fin 2) * 128 + 1 * (y 1).val; rw [e1]; omega

/-- An index of the mean array is in point `t`'s block iff each coordinate is in the block's range on its axis. -/
theorem mem_blk_mean (t : Fin cfg1.N) (i : S1x128.Idx) :
    i ∈ ((cfg1.win 2).blk t).view.set
      ↔ ∀ a : Fin 2, win1_2.index t a * S1x128.size a ≤ (i a).val ∧ (i a).val < win1_2.index t a * S1x128.size a + S1x128.size a := by
  show i ∈ ((View.whole main_v47_0).slice (win1_2.rect t)).set ↔ _
  rw [View.set_slice_whole, Rect.mem_set_unit]
  exact Iff.rfl

/-- The same for the variance array. -/
theorem mem_blk_var (t : Fin cfg1.N) (i : S1x128.Idx) :
    i ∈ ((cfg1.win 3).blk t).view.set
      ↔ ∀ a : Fin 2, win1_3.index t a * S1x128.size a ≤ (i a).val ∧ (i a).val < win1_3.index t a * S1x128.size a + S1x128.size a := by
  show i ∈ ((View.whole main_v47_1).slice (win1_3.rect t)).set ↔ _
  rw [View.set_slice_whole, Rect.mem_set_unit]
  exact Iff.rfl

/-- Point 9 writes the mean window back, and its block holds every index of the 1 x 128 array. -/
theorem cover_mean (i : S1x128.Idx) :
    ∃ t : Fin cfg1.N, (cfg1.win 2).flush t = true ∧ i ∈ ((cfg1.win 2).blk t).view.set := by
  refine ⟨⟨9, lt9⟩, (flush1_2 ⟨9, lt9⟩).mpr rfl, ?_⟩
  rw [mem_blk_mean]
  obtain ⟨e0, e1, -, -⟩ := idx_out1 ⟨9, lt9⟩
  have h0 : (i 0).val < 1 := (i 0).isLt
  have h1 : (i 1).val < 128 := (i 1).isLt
  intro a
  match a with
  | ⟨0, _⟩ => show win1_2.index ⟨9, lt9⟩ (0 : Fin 2) * 1 ≤ (i 0).val ∧ (i 0).val < win1_2.index ⟨9, lt9⟩ (0 : Fin 2) * 1 + 1; omega
  | ⟨1, _⟩ => show win1_2.index ⟨9, lt9⟩ (1 : Fin 2) * 128 ≤ (i 1).val ∧ (i 1).val < win1_2.index ⟨9, lt9⟩ (1 : Fin 2) * 128 + 128; omega

/-- Point 9 writes the variance window back, and its block holds every index of the 1 x 128 array. -/
theorem cover_var (i : S1x128.Idx) :
    ∃ t : Fin cfg1.N, (cfg1.win 3).flush t = true ∧ i ∈ ((cfg1.win 3).blk t).view.set := by
  refine ⟨⟨9, lt9⟩, (flush1_3 ⟨9, lt9⟩).mpr rfl, ?_⟩
  rw [mem_blk_var]
  obtain ⟨-, -, e0, e1⟩ := idx_out1 ⟨9, lt9⟩
  have h0 : (i 0).val < 1 := (i 0).isLt
  have h1 : (i 1).val < 128 := (i 1).isLt
  intro a
  match a with
  | ⟨0, _⟩ => show win1_3.index ⟨9, lt9⟩ (0 : Fin 2) * 1 ≤ (i 0).val ∧ (i 0).val < win1_3.index ⟨9, lt9⟩ (0 : Fin 2) * 1 + 1; omega
  | ⟨1, _⟩ => show win1_3.index ⟨9, lt9⟩ (1 : Fin 2) * 128 ≤ (i 1).val ∧ (i 1).val < win1_3.index ⟨9, lt9⟩ (1 : Fin 2) * 128 + 128; omega

end Stats1

open Stats1

/-- The mean array after the region: in column `q` the column mean of the aggregated array with the bias added. -/
theorem arr1_mean (V : (c : Dev nD) → (b : Ref sig .tc) → Buf (Elt Ideal) ((c : Thread nD τ).loc b)) (c : Dev nD) :
    (dat1 (F := Ideal) V c).arrAt 2 cfg1.N
      = (fun j => meanRef (F := Ideal) (addf (V c main_v43) (rows1 (V c main_v44))) (ix1 (j 1)) : FVec Ideal T1x128 .f32) :=
  (dat1 (F := Ideal) V c).arrAt_eq_of_cover 2 (meanRow V c) (flushed_mean V c) cover_mean

/-- The variance array after the region: in column `q` the mean of the squares less the squared mean. -/
theorem arr1_var (V : (c : Dev nD) → (b : Ref sig .tc) → Buf (Elt Ideal) ((c : Thread nD τ).loc b)) (c : Dev nD) :
    (dat1 (F := Ideal) V c).arrAt 3 cfg1.N
      = (fun j => varK (F := Ideal) (addf (V c main_v43) (rows1 (V c main_v44))) (ix1 (j 1)) : FVec Ideal T1x128 .f32) :=
  (dat1 (F := Ideal) V c).arrAt_eq_of_cover 3 (varRow V c) (flushed_var V c) cover_var

end Cert.KernelIdeal.Hand

end
-- ==== Proof.KI.Value2.lean ====
/-
  The value of region 2 of @main: the result array after its ten points.

  At point `t` the body reads rows `5000 t … 5000 t + 4999` of the aggregated array `a` and the five 1 × 128 rows
  (bias `b`, mean `μ`, variance `σ²`, `γ`, `β`) and stores, at row `p` and column `q` of its block,
  `max (γ[q] · ((a[5000 t + p, q] + b[q]) − μ[q]) · rsqrt (σ²[q] + ε) + β[q]) 0`. The ten blocks tile the 50000 rows, so the
  result array is that formula on every entry of `a`: the specification's `applyK`.

  In order: the formula on scalars (`applyAt2`); the body's arithmetic and the specification's, each read at one entry
  (`pay2_apply`, `applyK_apply`); the block indices over the grid (`idx_facts2`); each window's block as entries of its
  array (`iblk2_0_apply` … `iblk2_5_apply`); what a point writes back (`flushed2_6_eq`); the cover (`cover2_6_arr`);
  the array (`arr2`).
-/
import proofs.«149105_j37778532336358_1_alg».proof.Proof.Gen.KernelIdeal.Launch
import proofs.«149105_j37778532336358_1_alg».proof.Proof.Gen.KernelIdeal.Skeleton
import proofs.«149105_j37778532336358_1_alg».proof.Proof.Gen.KernelIdeal.Points
import proofs.«149105_j37778532336358_1_alg».proof.Proof.KI.Region2
import proofs.«149105_j37778532336358_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.GcnBn

variable {F : FTy → Type} [FloatOps F]

local notation "𝕄" => MT nD τ sig Unit (Elt F) ℕ (UR sig nD τ) ℕ

/-- The region's formula on one entry and the five row entries of its column. -/
def applyAt2 (a b m v g be : EReal) : EReal :=
  max (g * ((a + b) - m) * Ideal.rsqrt (v + Ideal.ofBits .f32 0x3727C5AC#32) + be) (Ideal.ofBits .f32 0x00000000#32)

/-- The body's arithmetic at row `p`, column `q` of its block: the formula on the block's entry there and on the five
    rows' entries in column `q`. -/
theorem pay2_apply (x0 : Vec Ideal S5000x128 .f32) (xb xv xg xm xbe : Vec Ideal S1x128 .f32) (p : Fin 5000) (q : Fin 128) :
    k2_pay1 x0 xb xv xg xm xbe (ix2 p q)
      = applyAt2 (x0 (ix2 p q)) (xb (ix2 (0 : Fin 1) q)) (xm (ix2 (0 : Fin 1) q)) (xv (ix2 (0 : Fin 1) q)) (xg (ix2 (0 : Fin 1) q)) (xbe (ix2 (0 : Fin 1) q)) := by
  unfold k2_pay1 applyAt2
  simp only [shapeCast_self]
  rw [maximumf_apply, addf_apply, mulf_apply, mulf_apply, subf_apply, addf_apply,
    broadcastTo_1b_ab_apply xg, broadcastTo_1b_ab_apply xb, broadcastTo_1b_ab_apply xm, broadcastTo_1b_ab_apply xbe,
    broadcastTo_1b_ab_apply]
  rfl

/-- A 1 × 128 row laid over the 50000 rows reads, at row `r` and column `q`, the row's entry in column `q`. -/
theorem rows1_apply (x : FVec Ideal T1x128 .f32) (r : Fin 50000) (q : Fin 128) :
    rows1 x (ix2 r q) = x (ix2 (0 : Fin 1) q) := by
  unfold rows1
  refine broadcastInDim_apply _ _ x (ix2 r q) (ix2 (0 : Fin 1) q) fun a => ?_
  match a with
  | ⟨0, _⟩ => rfl
  | ⟨1, _⟩ => rfl

/-- The specification's formula at row `r`, column `q`. -/
theorem applyK_apply (a : FVec Ideal T50000x128 .f32) (b2 mean2 var2 g2 be2 : FVec Ideal T1x128 .f32) (r : Fin 50000) (q : Fin 128) :
    applyK a b2 mean2 var2 g2 be2 (ix2 r q)
      = applyAt2 (a (ix2 r q)) (b2 (ix2 (0 : Fin 1) q)) (mean2 (ix2 (0 : Fin 1) q)) (var2 (ix2 (0 : Fin 1) q)) (g2 (ix2 (0 : Fin 1) q)) (be2 (ix2 (0 : Fin 1) q)) := by
  unfold applyK applyAt2
  rw [maximumf_apply, addf_apply, mulf_apply, mulf_apply, subf_apply, addf_apply,
    rows1_apply g2, rows1_apply b2, rows1_apply mean2, rows1_apply be2, rows1_apply]
  rfl

variable (V : (c : Dev nD) → (b : Ref sig .tc) → Buf (Elt Ideal) ((c : Thread nD τ).loc b))

theorem hz2 : (![0, 0] : Fin 2 → Nat) = fun _ => 0 := funext fun a => by fin_cases a <;> rfl

/-- The index maps over the grid: the two 5000-row windows sit at block `(t, 0)`, the five row windows at `(0, 0)`. -/
theorem idx_facts2 : ∀ t : Fin cfg2.N,
    win2_0.index t (0 : Fin 2) = t.val ∧ win2_0.index t (1 : Fin 2) = 0
    ∧ win2_6.index t (0 : Fin 2) = t.val ∧ win2_6.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- The aggregated array's block at point `t`, row `p`, is the array's row `5000 t + p`. -/
theorem iblk2_0_apply (c : Dev nD) (t : Fin cfg2.N) (p : Fin 5000) (q : Fin 128) (r : Fin 50000)
    (hr : r.val = 5000 * t.val + p.val) :
    (iblk2 V c 0 t : Vec Ideal S5000x128 .f32) (ix2 p q) = (V c main_v43 : S50000x128.Idx → Elt Ideal .f32) (ix2 r q) := by
  obtain ⟨e0, e1, -⟩ := idx_facts2 t
  unfold iblk2
  rw [View.read_apply]
  show V c main_v43 _ = V c main_v43 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * q.val = q.val; rw [e1]; omega

/-- The bias window's block at any point is the bias row. -/
theorem iblk2_1_apply (c : Dev nD) (t : Fin cfg2.N) (q : Fin 128) :
    (iblk2 V c 1 t : Vec Ideal S1x128 .f32) (ix2 (0 : Fin 1) q) = (V c main_v44 : S1x128.Idx → Elt Ideal .f32) (ix2 (0 : Fin 1) q) := by
  obtain ⟨-, -, -, -, e0, e1, -⟩ := idx_facts2 t
  unfold iblk2
  rw [View.read_apply]
  show V c main_v44 _ = V c main_v44 _
  congr 1
  funext a
  apply Fin.ext
  match a with
  | ⟨0, _⟩ => show win2_1.index t (0 : Fin 2) * 1 + 1 * 0 = 0; rw [e0]
  | ⟨1, _⟩ => show win2_1.index t (1 : Fin 2) * 128 + 1 * q.val = q.val; rw [e1]; omega

/-- The mean window's block at any point is the mean row. -/
theorem iblk2_2_apply (c : Dev nD) (t : Fin cfg2.N) (q : Fin 128) :
    (iblk2 V c 2 t : Vec Ideal S1x128 .f32) (ix2 (0 : Fin 1) q) = (V c main_v47_0 : S1x128.Idx → Elt Ideal .f32) (ix2 (0 : Fin 1) q) := by
  obtain ⟨-, -, -, -, -, -, e0, e1, -⟩ := idx_facts2 t
  unfold iblk2
  rw [View.read_apply]
  show V c main_v47_0 _ = V c main_v47_0 _
  congr 1
  funext a
  apply Fin.ext
  match a with
  | ⟨0, _⟩ => show win2_2.index t (0 : Fin 2) * 1 + 1 * 0 = 0; rw [e0]
  | ⟨1, _⟩ => show win2_2.index t (1 : Fin 2) * 128 + 1 * q.val = q.val; rw [e1]; omega

/-- The variance window's block at any point is the variance row. -/
theorem iblk2_3_apply (c : Dev nD) (t : Fin cfg2.N) (q : Fin 128) :
    (iblk2 V c 3 t : Vec Ideal S1x128 .f32) (ix2 (0 : Fin 1) q) = (V c main_v47_1 : S1x128.Idx → Elt Ideal .f32) (ix2 (0 : Fin 1) q) := by
  obtain ⟨-, -, -, -, -, -, -, -, e0, e1, -⟩ := idx_facts2 t
  unfold iblk2
  rw [View.read_apply]
  show V c main_v47_1 _ = V c main_v47_1 _
  congr 1
  funext a
  apply Fin.ext
  match a with
  | ⟨0, _⟩ => show win2_3.index t (0 : Fin 2) * 1 + 1 * 0 = 0; rw [e0]
  | ⟨1, _⟩ => show win2_3.index t (1 : Fin 2) * 128 + 1 * q.val = q.val; rw [e1]; omega

/-- The window of `γ`: its block at any point is the row `γ`. -/
theorem iblk2_4_apply (c : Dev nD) (t : Fin cfg2.N) (q : Fin 128) :
    (iblk2 V c 4 t : Vec Ideal S1x128 .f32) (ix2 (0 : Fin 1) q) = (V c main_v45 : S1x128.Idx → Elt Ideal .f32) (ix2 (0 : Fin 1) q) := by
  obtain ⟨-, -, -, -, -, -, -, -, -, -, e0, e1, -⟩ := idx_facts2 t
  unfold iblk2
  rw [View.read_apply]
  show V c main_v45 _ = V c main_v45 _
  congr 1
  funext a
  apply Fin.ext
  match a with
  | ⟨0, _⟩ => show win2_4.index t (0 : Fin 2) * 1 + 1 * 0 = 0; rw [e0]
  | ⟨1, _⟩ => show win2_4.index t (1 : Fin 2) * 128 + 1 * q.val = q.val; rw [e1]; omega

/-- The window of `β`: its block at any point is the row `β`. -/
theorem iblk2_5_apply (c : Dev nD) (t : Fin cfg2.N) (q : Fin 128) :
    (iblk2 V c 5 t : Vec Ideal S1x128 .f32) (ix2 (0 : Fin 1) q) = (V c main_v46 : S1x128.Idx → Elt Ideal .f32) (ix2 (0 : Fin 1) q) := by
  obtain ⟨-, -, -, -, -, -, -, -, -, -, -, -, e0, e1⟩ := idx_facts2 t
  unfold iblk2
  rw [View.read_apply]
  show V c main_v46 _ = V c main_v46 _
  congr 1
  funext a
  apply Fin.ext
  match a with
  | ⟨0, _⟩ => show win2_5.index t (0 : Fin 2) * 1 + 1 * 0 = 0; rw [e0]
  | ⟨1, _⟩ => show win2_5.index t (1 : Fin 2) * 128 + 1 * q.val = q.val; rw [e1]; omega

/-- One entry of the body's result against one entry of the specification's: equal as soon as the entries they read are. -/
theorem point2 (a : FVec Ideal T50000x128 .f32) (b2 mean2 var2 g2 be2 : FVec Ideal T1x128 .f32)
    (x0 : Vec Ideal S5000x128 .f32) (xb xm xv xg xbe : Vec Ideal S1x128 .f32)
    (p : Fin 5000) (q : Fin 128) (r : Fin 50000)
    (h0 : x0 (ix2 p q) = a (ix2 r q)) (hb : xb (ix2 (0 : Fin 1) q) = b2 (ix2 (0 : Fin 1) q))
    (hm : xm (ix2 (0 : Fin 1) q) = mean2 (ix2 (0 : Fin 1) q)) (hv : xv (ix2 (0 : Fin 1) q) = var2 (ix2 (0 : Fin 1) q))
    (hg : xg (ix2 (0 : Fin 1) q) = g2 (ix2 (0 : Fin 1) q)) (hbe : xbe (ix2 (0 : Fin 1) q) = be2 (ix2 (0 : Fin 1) q)) :
    k2_pay1 x0 xb xv xg xm xbe (ix2 p q) = applyK a b2 mean2 var2 g2 be2 (ix2 r q) := by
  rw [pay2_apply, applyK_apply, h0, hb, hm, hv, hg, hbe]

/-- What point `t` writes back is block `t` of the specification's array. -/
theorem flushed2_6_eq (c : Dev nD) (t : Fin cfg2.N) :
    (dat2 (F := Ideal) V c).flushed 6 t = ((cfg2.win 6).blk t).view.read (Elt Ideal)
      (applyK (F := Ideal) (V c main_v43) (V c main_v44) (V c main_v47_0) (V c main_v47_1) (V c main_v45) (V c main_v46)) := by
  show (cfg2.win 6).cut (grid2.coords t) ((dat2 V c).after 6 t) = _
  rw [after2_6]
  unfold out2_6
  rw [View.canon_unit_zero hz2]
  simp only [View.ld_unit_zero (S := S5000x128) hz2, View.ld_unit_zero (S := S1x128) hz2]
  funext j
  obtain ⟨p, q, rfl⟩ : ∃ (p : Fin 5000) (q : Fin 128), j = ix2 p q := ⟨j 0, j 1, eq_ix2 j⟩
  obtain ⟨-, -, e0, e1, -⟩ := idx_facts2 t
  have hN : cfg2.N = 10 := N_2
  have hp : p.val < 5000 := p.isLt
  have ht : t.val < cfg2.N := t.isLt
  have hx : (cfg2.win 6).xinj (grid2.coords t) (ix2 p q) = (ix2 p q : S5000x128.Idx) := by
    funext a; apply Fin.ext
    match a with
    | ⟨0, _⟩ => rfl
    | ⟨1, _⟩ => rfl
  have hemb : ((cfg2.win 6).blk t).view.emb (ix2 p q) = (ix2 (⟨5000 * t.val + p.val, by omega⟩ : Fin 50000) q : S50000x128.Idx) := by
    funext a; apply Fin.ext
    match a with
    | ⟨0, _⟩ => show win2_6.index t (0 : Fin 2) * 5000 + 1 * p.val = 5000 * t.val + p.val; rw [e0]; omega
    | ⟨1, _⟩ => show win2_6.index t (1 : Fin 2) * 128 + 1 * q.val = q.val; rw [e1]; omega
  rw [View.read_apply, hemb]
  show k2_pay1 (iblk2 V c 0 t) (iblk2 V c 1 t) (iblk2 V c 3 t) (iblk2 V c 4 t) (iblk2 V c 2 t) (iblk2 V c 5 t)
    ((cfg2.win 6).xinj (grid2.coords t) (ix2 p q)) = _
  rw [hx]
  exact point2 (V c main_v43) (V c main_v44) (V c main_v47_0) (V c main_v47_1) (V c main_v45) (V c main_v46)
    (iblk2 V c 0 t) (iblk2 V c 1 t) (iblk2 V c 2 t) (iblk2 V c 3 t) (iblk2 V c 4 t) (iblk2 V c 5 t) p q
    ⟨5000 * t.val + p.val, by omega⟩ (iblk2_0_apply V c t p q _ rfl) (iblk2_1_apply V c t q) (iblk2_2_apply V c t q)
    (iblk2_3_apply V c t q) (iblk2_4_apply V c t q) (iblk2_5_apply V c t q)

/-- An index of the result array is in point `t`'s block iff each coordinate is in the block's range on its axis. -/
theorem mem_blk2_6 (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v48).slice (win2_6.rect t)).set ↔ _
  rw [View.set_slice_whole, Rect.mem_set_unit]
  exact Iff.rfl

/-- The ten blocks tile the result array: row `r` lies in the block of point `r / 5000`. -/
theorem cover2_6_arr (i : S50000x128.Idx) :
    ∃ t : Fin cfg2.N, (cfg2.win 6).flush t = true ∧ i ∈ ((cfg2.win 6).blk t).view.set := by
  have hN : cfg2.N = 10 := N_2
  have hi0 : (i 0).val < 50000 := (i 0).isLt
  have hi1 : (i 1).val < 128 := (i 1).isLt
  refine ⟨⟨(i 0).val / 5000, by omega⟩, flush2_6 _, ?_⟩
  rw [mem_blk2_6]
  obtain ⟨-, -, e0, e1, -⟩ := idx_facts2 ⟨(i 0).val / 5000, by omega⟩
  intro a
  match a with
  | ⟨0, _⟩ =>
    show win2_6.index _ (0 : Fin 2) * 5000 ≤ (i 0).val ∧ (i 0).val < win2_6.index _ (0 : Fin 2) * 5000 + 5000
    rw [e0]
    show (i 0).val / 5000 * 5000 ≤ (i 0).val ∧ (i 0).val < (i 0).val / 5000 * 5000 + 5000
    omega
  | ⟨1, _⟩ =>
    show win2_6.index _ (1 : Fin 2) * 128 ≤ (i 1).val ∧ (i 1).val < win2_6.index _ (1 : Fin 2) * 128 + 128
    rw [e1]
    omega

/-- The result array after the region: the specification's formula on the aggregated array and the five rows. -/
theorem arr2 (c : Dev nD) :
    (dat2 (F := Ideal) V c).arrAt 6 cfg2.N = (applyK (F := Ideal) (V c main_v43) (V c main_v44) (V c main_v47_0) (V c main_v47_1) (V c main_v45) (V c main_v46) : FVec Ideal T50000x128 .f32) :=
  (dat2 (F := Ideal) V c).arrAt_eq_of_cover 6 _ (fun t _ => flushed2_6_eq V c t) cover2_6_arr

end Cert.KernelIdeal.Hand

end
-- ==== Proof.SpecBridge.lean ====
/-
  Five rows against five vectors. The last region is handed 1 × 128 rows where the reference works with
  128-vectors. A vector re-laid as one row and broadcast down 50000 rows is the vector broadcast along the columns:
  both read the vector at the column coordinate. A row built from a vector by reading it at the column coordinate
  broadcasts the same way. The reciprocal square root and the sum are taken entry by entry, so they pass through
  these re-layouts. Hence the last region's formula over rows is the whole-array formula over vectors. Every
  statement holds at any float family.
-/
import proofs.«149105_j37778532336358_1_alg».proof.Proof.Spec
import Idealize.ShloMosaic.Lib.ValueIdx
import Idealize.ShloMosaic.Lib.ValueLayout

noncomputable section

namespace Cert.GcnBn

open Idealize.ShloMosaic Idealize.ShloMosaic.ValueIdx

variable {F : FTy → Type} [FloatOps F]

/-- A row broadcast down the 50000 rows reads, at `(r, t)`, the row at `(0, t)`. -/
theorem rows1_apply (y : FVec F T1x128 .f32) (r : Fin 50000) (t : Fin 128) :
    rows1 y (ix2 r t) = y (ix2 (0 : Fin 1) t) := by
  unfold rows1
  refine broadcastInDim_apply ![0, 1] _ y (ix2 r t) (ix2 (0 : Fin 1) t) fun a => ?_
  match a with
  | ⟨0, _⟩ => rfl
  | ⟨1, _⟩ => rfl

/-- A vector broadcast along the columns of a 50000-row array reads, at `(r, t)`, the vector at `t`. -/
theorem rows_apply (u : FVec F T128 .f32) (r : Fin 50000) (t : Fin 128) :
    rows u (ix2 r t) = u (ix1 t) := by
  unfold rows
  refine (broadcastInDim_apply ![0, 1] _ _ (ix2 r t) (ix2 (0 : Fin 1) t) fun a => ?_).trans
    (broadcastInDim_apply ![1] _ u (ix2 (0 : Fin 1) t) (ix1 t) fun a => ?_)
  · match a with
    | ⟨0, _⟩ => rfl
    | ⟨1, _⟩ => rfl
  · match a with
    | ⟨0, _⟩ => rfl

/-- A vector re-laid as one row and broadcast down the rows is the vector broadcast along the columns. -/
theorem rows1_shapeCast (b : FVec F T128 .f32) : rows1 (shapeCast T1x128 b (by decide)) = rows b := by
  funext j
  obtain ⟨r, t, rfl⟩ : ∃ (r : Fin 50000) (t : Fin 128), j = ix2 r t := ⟨j 0, j 1, eq_ix2 j⟩
  rw [rows1_apply, rows_apply]
  exact shapeCast_a_1a_apply b _ (0 : Fin 1) t

/-- A row that reads a vector at the column coordinate, broadcast down the rows, is the vector broadcast along
    the columns. -/
theorem rows1_ofVec (u : FVec F T128 .f32) : rows1 (fun j => u (ix1 (j 1))) = rows u := by
  funext j
  obtain ⟨r, t, rfl⟩ : ∃ (r : Fin 50000) (t : Fin 128), j = ix2 r t := ⟨j 0, j 1, eq_ix2 j⟩
  rw [rows1_apply, rows_apply]

/-- The reciprocal square root of a row of variances plus the small constant, broadcast down the rows, is the
    vector's reciprocal square root broadcast along the columns: both operations are taken entry by entry and the
    constant is the same at every entry. -/
theorem rows1_rsqrt_ofVec (w : FVec F T128 .f32) :
    rows1 (Host.rsqrt (addf (fun j => w (ix1 (j 1)))
        (broadcastInDim T1x128 ![] (by decide) (constant T_ .f32 0x3727C5AC#32))))
      = rows (Host.rsqrt (addf w (broadcastInDim T128 ![] (by decide) (constant T_ .f32 0x3727C5AC#32)))) := by
  have h : Host.rsqrt (addf (fun j : T1x128.Idx => w (ix1 (j 1)))
        (broadcastInDim T1x128 ![] (by decide) (constant T_ .f32 0x3727C5AC#32)))
      = fun j : T1x128.Idx =>
          Host.rsqrt (addf w (broadcastInDim T128 ![] (by decide) (constant T_ .f32 0x3727C5AC#32))) (ix1 (j 1)) :=
    funext fun _ => rfl
  rw [h, rows1_ofVec]

/-- The last region's formula over the five rows it is handed is the whole-array formula over the five vectors. -/
theorem applyK_eq_bnK (a : FVec F T50000x128 .f32) (b γ β : FVec F T128 .f32) :
    applyK a (shapeCast T1x128 b (by decide))
      (fun j => meanRef (addf a (rows1 (shapeCast T1x128 b (by decide)))) (ix1 (j 1)))
      (fun j => varK (addf a (rows1 (shapeCast T1x128 b (by decide)))) (ix1 (j 1)))
      (shapeCast T1x128 γ (by decide)) (shapeCast T1x128 β (by decide))
    = bnK (addf a (rows b)) γ β := by
  unfold applyK bnK
  rw [rows1_shapeCast b, rows1_shapeCast γ, rows1_shapeCast β]
  generalize addf a (rows b) = v
  rw [rows1_ofVec (meanRef v), rows1_rsqrt_ofVec (varK v)]

end Cert.GcnBn

end
-- ==== Proof.Algebra.lean ====
/-
  The one piece of algebra between the two normalisations: for a 50000 × 128 array whose entries are all real numbers,
  the variance of each column taken as the mean of the squared deviations from the column mean equals the mean of the
  squares minus the squared mean. On the extended reals the identity needs finite entries (`∞ − ∞` breaks it); with
  every entry the coercion of a real number, both sides are coercions of real numbers, and the real identity is
  `∑ (v − μ)² = ∑ v² − 2 μ ∑ v + n μ²` with `∑ v = n μ`, `n = 50000` the number of rows and the divisor's value.
-/
import proofs.«149105_j37778532336358_1_alg».proof.Proof.Spec
import Mathlib.Algebra.BigOperators.Group.Finset.Basic
import Mathlib.Algebra.BigOperators.Ring.Finset
import Mathlib.Data.EReal.Operations
import Mathlib.Tactic.Ring
import Mathlib.Tactic.FieldSimp
import Mathlib.Tactic.NormNum.Basic

noncomputable section

namespace Cert.GcnBn

open Idealize.ShloMosaic Idealize.ShloMosaic.ValueIdx
open scoped BigOperators

namespace Alg

/-- The divisor's pattern denotes the real number 50000. -/
theorem ofBits_50000 : Ideal.ofBits .f32 0x47435000#32 = ((50000 : ℝ) : EReal) := by
  simp [Ideal.ofBits, Ideal.ieee, -EReal.coe_mul]; norm_num

/-- The coercion of the reals into the extended reals carries a finite sum to the sum of the coercions. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A row vector spread over the rows reads, at row `r` and column `c`, its entry `c`. -/
theorem rows_apply (a : FVec Ideal T128 .f32) (r : Fin 50000) (c : Fin 128) : rows a (ix2 r c) = a (ix1 c) := by
  unfold rows broadcastInDim
  congr 1
  funext d
  match d with
  | ⟨0, _⟩ => rfl

/-- Over column `c`, the index with row coordinate `k` inserted is `(k, c)`. -/
theorem lift_eq (h : Shape.Reduces T50000x128 [0] T128) (c : Fin 128) (k : Fin 50000) :
    h.lift (ix1 c) (k.cast (show 50000 = T50000x128.size 0 from rfl)) = ix2 k c := by
  funext d
  match d with
  | ⟨0, _⟩ => exact Fin.ext rfl
  | ⟨1, _⟩ => exact Fin.ext rfl

/-- The sum over the row coordinates inserted above column `c` is the sum down the column. -/
theorem sum_lift (x : FVec Ideal T50000x128 .f32) (h : Shape.Reduces T50000x128 [0] T128) (c : Fin 128) :
    ∑ k : Fin (T50000x128.size 0), x (h.lift (ix1 c) k) = ∑ k : Fin 50000, x (ix2 k c) :=
  (Fin.sum_congr' (fun k : Fin (T50000x128.size 0) => x (h.lift (ix1 c) k))
      (show 50000 = T50000x128.size 0 from rfl)).symm.trans
    (Finset.sum_congr rfl fun k _ => congrArg x (lift_eq h c k))

/-- The column sums over 50000 rows, then the quotient by 50000: the mean of each column. -/
def colMean {F : FTy → Type} [FloatOps F] (x : FVec F T50000x128 .f32) : FVec F T128 .f32 :=
  Host.divf (Host.reduceAdd x (constant T_ .f32 0x00000000#32) (axes := [0]) (by decide) (by decide))
    (broadcastInDim T128 ![] (by decide) (constant T_ .f32 0x47435000#32))

theorem meanRef_eq_colMean {F : FTy → Type} [FloatOps F] (v : FVec F T50000x128 .f32) : meanRef v = colMean v := rfl
theorem varRef_eq_colMean {F : FTy → Type} [FloatOps F] (v : FVec F T50000x128 .f32) :
    varRef v = colMean (mulf (subf v (rows (meanRef v))) (subf v (rows (meanRef v)))) := rfl
theorem varK_eq_colMean {F : FTy → Type} [FloatOps F] (v : FVec F T50000x128 .f32) :
    varK v = subf (colMean (mulf v v)) (mulf (meanRef v) (meanRef v)) := rfl

/-- At the extended reals the column mean at column `c` is the sum of the column's entries times the reciprocal of 50000. -/
theorem colMean_apply (x : FVec Ideal T50000x128 .f32) (c : Fin 128) :
    colMean (F := Ideal) x (ix1 c) = (∑ k : Fin 50000, x (ix2 k c)) * (((1 : ℝ) / 50000 : ℝ) : EReal) := by
  have h : Shape.Reduces T50000x128 [0] T128 := by decide
  show Ideal.div (Ideal.hostReduceAdd _ x (Ideal.ofBits .f32 0x00000000#32) (ix1 c)) (Ideal.ofBits .f32 0x47435000#32) = _
  rw [Ideal.hostReduceAdd_single _ h, Ideal.ofBits_zero_f32, zero_add, ofBits_50000, Ideal.div_coe (by norm_num)]
  rw [sum_lift]

/-- For a column of real entries `ρ` the column mean is the real number `(∑ ρ) / 50000`. -/
theorem colMean_real (x : FVec Ideal T50000x128 .f32) (c : Fin 128) (ρ : Fin 50000 → ℝ)
    (hρ : ∀ k, x (ix2 k c) = (ρ k : EReal)) :
    colMean (F := Ideal) x (ix1 c) = (((∑ k, ρ k) / 50000 : ℝ) : EReal) := by
  rw [colMean_apply, Finset.sum_congr rfl (fun k _ => hρ k), ← coe_sum, ← EReal.coe_mul, mul_one_div]

/-- On the reals: the mean of the squared deviations from the mean is the mean of the squares minus the squared mean. -/
theorem real_var (ρ : Fin 50000 → ℝ) :
    (∑ k, (ρ k - (∑ k, ρ k) / 50000) * (ρ k - (∑ k, ρ k) / 50000)) / 50000
      = (∑ k, ρ k * ρ k) / 50000 - (∑ k, ρ k) / 50000 * ((∑ k, ρ k) / 50000) := by
  generalize hS : ∑ k, ρ k = S
  have h1 : ∑ k, (ρ k - S / 50000) * (ρ k - S / 50000)
      = ∑ k, ρ k * ρ k - 2 * (S / 50000) * S + 50000 * (S / 50000 * (S / 50000)) := by
    have e : ∀ k, (ρ k - S / 50000) * (ρ k - S / 50000)
        = ρ k * ρ k - 2 * (S / 50000) * ρ k + S / 50000 * (S / 50000) := fun k => by ring
    rw [Finset.sum_congr rfl fun k _ => e k, Finset.sum_add_distrib, Finset.sum_sub_distrib, ← Finset.mul_sum,
      Finset.sum_const, Finset.card_univ, Fintype.card_fin, nsmul_eq_mul, hS]
    norm_num
  rw [h1]; field_simp; ring

end Alg

open Alg

/-- every entry is a real number -/
def AllReal {s : Shape} (v : FVec Ideal s .f32) : Prop := ∀ i, ∃ r : ℝ, v i = (r : EReal)

/-- For finite entries the variance as the mean of the squared deviations is the mean of the squares minus the
    squared mean: column by column both are the coercion of a real number, and the two real numbers agree. -/
theorem varRef_eq_varK (v : FVec Ideal T50000x128 .f32) (hv : AllReal v) : varRef (F := Ideal) v = varK (F := Ideal) v := by
  choose r hr using hv
  funext j
  obtain ⟨c, rfl⟩ : ∃ c : Fin 128, j = ix1 c := ⟨j 0, eq_ix1 j⟩
  obtain ⟨ρ, hcol⟩ : ∃ ρ : Fin 50000 → ℝ, ∀ k, v (ix2 k c) = (ρ k : EReal) := ⟨fun k => r (ix2 k c), fun k => hr _⟩
  have hm : meanRef (F := Ideal) v (ix1 c) = (((∑ k, ρ k) / 50000 : ℝ) : EReal) := by
    rw [meanRef_eq_colMean]; exact colMean_real v c ρ hcol
  have hL : varRef (F := Ideal) v (ix1 c)
      = (((∑ k, (ρ k - (∑ k, ρ k) / 50000) * (ρ k - (∑ k, ρ k) / 50000)) / 50000 : ℝ) : EReal) := by
    rw [varRef_eq_colMean]
    refine colMean_real _ c _ fun k => ?_
    rw [mulf_apply, subf_apply, rows_apply, hm, hcol, ← EReal.coe_sub, ← EReal.coe_mul]
  have hR : varK (F := Ideal) v (ix1 c)
      = (((∑ k, ρ k * ρ k) / 50000 - (∑ k, ρ k) / 50000 * ((∑ k, ρ k) / 50000) : ℝ) : EReal) := by
    rw [varK_eq_colMean, subf_apply, mulf_apply, hm,
      colMean_real (mulf v v) c (fun k => ρ k * ρ k) (fun k => by rw [mulf_apply, hcol, ← EReal.coe_mul]),
      ← EReal.coe_mul, ← EReal.coe_sub]
  rw [hL, hR, real_var]

/-- The two normalisations differ only in how the variance is taken, so they agree on finite entries. -/
theorem bnRef_eq_bnK (v : FVec Ideal T50000x128 .f32) (γ β : FVec Ideal T128 .f32) (hv : AllReal v) :
    bnRef (F := Ideal) v γ β = bnK (F := Ideal) v γ β := by
  unfold bnRef bnK
  rw [varRef_eq_varK v hv]

/-- Adding a real row vector to every row of an array of real entries leaves every entry real. -/
theorem allReal_add_rows (a : FVec Ideal T50000x128 .f32) (b : FVec Ideal T128 .f32) (ha : AllReal a) (hb : AllReal b) :
    AllReal (addf a (rows b)) := by
  intro i
  obtain ⟨x, hx⟩ := ha i
  obtain ⟨y, hy⟩ : ∃ y : ℝ, rows b i = (y : EReal) := hb _
  exact ⟨x + y, by rw [addf_apply, hx, hy, EReal.coe_add]⟩

end Cert.GcnBn

end
-- ==== Proof.Finite.lean ====
/-
  Finiteness travels through the aggregation and through the whole product.

  An extended real is called real when it is the image of a real number. Zero and one are real; the sum and the
  product of two reals are real; a finite sum of reals is real; the reciprocal square root of a positive real is
  real. An array is all real when each of its entries is. A gathered or broadcast array takes its entries from the
  array it reads, a select takes each entry from one of its two arms, an accumulating scatter adds to each entry a
  finite sum of update entries, and a contraction is at each entry a finite sum of products. So the degree (zeros
  plus a sum of ones), its inverse square root where the degree is positive and zero elsewhere, the edge weights,
  the messages and the aggregate of an all real array are all real, and so is the product of two all real arrays.
  Nothing here looks at which updates land where: the index sets are only finite.
-/
import proofs.«149105_j37778532336358_1_alg».proof.Proof.Spec
import Idealize.ShloMosaic.Lib.IdealHost
import Mathlib.Data.EReal.Basic
import Mathlib.Algebra.BigOperators.Group.Finset.Basic

noncomputable section

namespace Cert.GcnBn

open Idealize.ShloMosaic

/-- every entry is a real number -/
def AllReal' {s : Shape} (v : FVec Ideal s .f32) : Prop := ∀ i, ∃ r : ℝ, v i = (r : EReal)

/-! The lemmas that carry the argument live in a namespace of their own; the two results are stated after it. -/
namespace FiniteAux

/-! ## Real numbers among the extended reals -/

/-- an extended real that is a real number -/
def IsReal (x : EReal) : Prop := ∃ r : ℝ, x = (r : EReal)

theorem isReal_zero : IsReal 0 := ⟨0, EReal.coe_zero.symm⟩

theorem isReal_one : IsReal 1 := ⟨1, EReal.coe_one.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- a finite sum of reals is real -/
theorem isReal_sum {ι : Type} (s : Finset ι) (f : ι → EReal) (hf : ∀ j ∈ s, IsReal (f j)) :
    IsReal (∑ j ∈ s, f j) := by
  classical
  induction s using Finset.induction_on with
  | empty => rw [Finset.sum_empty]; exact isReal_zero
  | insert a s ha ih =>
    rw [Finset.sum_insert ha]
    exact (hf a (Finset.mem_insert_self a s)).add (ih fun j hj => hf j (Finset.mem_insert_of_mem hj))

/-- the reciprocal square root of a positive real is real -/
theorem isReal_rsqrt_of_pos {r : ℝ} (hr : 0 < r) : IsReal (Ideal.rsqrt (r : EReal)) := by
  rw [Ideal.rsqrt_coe, if_neg (not_lt.2 hr.le), if_neg hr.ne']
  exact ⟨_, rfl⟩

/-! ## Arrays whose entries are all real -/

/-- the zero literal, as a splat of any shape -/
theorem constant_zero_allReal (s : Shape) : AllReal' (constant s .f32 0x00000000#32 : FVec Ideal s .f32) := by
  intro i
  show IsReal (Ideal.ofBits .f32 0x00000000#32)
  rw [Ideal.ofBits_zero_f32]
  exact isReal_zero

/-- the one literal, as a splat of any shape -/
theorem constant_one_allReal (s : Shape) : AllReal' (constant s .f32 0x3F800000#32 : FVec Ideal s .f32) := by
  intro i
  show IsReal (Ideal.ofBits .f32 0x3F800000#32)
  rw [Ideal.ofBits_one_f32]
  exact isReal_one

/-- a broadcast takes each entry from its operand -/
theorem broadcastInDim_allReal {s t : Shape} (dims : Fin s.rank → Fin t.rank) (h : s.BroadcastsInDim t dims)
    (x : FVec Ideal s .f32) (hx : AllReal' x) : AllReal' (broadcastInDim t dims h x) := by
  intro j
  unfold broadcastInDim
  exact hx _

/-- a gather takes each entry from its operand -/
theorem gather_allReal {s si t : Shape} {w : Nat} (d : GatherDims s si t) (x : FVec Ideal s .f32) (idx : IVec si w)
    (hx : AllReal' x) : AllReal' (Host.gather d x idx) := by
  intro j
  unfold Host.gather
  exact hx _

/-- an entrywise product of all real arrays -/
theorem mulf_allReal {s : Shape} (x y : FVec Ideal s .f32) (hx : AllReal' x) (hy : AllReal' y) :
    AllReal' (mulf x y) := by
  intro i
  show IsReal (x i * y i)
  exact IsReal.mul (hx i) (hy i)

/-- an accumulating scatter adds to each entry a finite sum of update entries -/
theorem scatterAdd_allReal {s si su : Shape} {w : Nat} (d : ScatterDims s si su) (x : FVec Ideal s .f32)
    (idx : IVec si w) (upd : FVec Ideal su .f32) (hx : AllReal' x) (hu : AllReal' upd) :
    AllReal' (Host.scatterAdd d x idx upd) := by
  intro i
  show IsReal (Ideal.hostScatterAdd d x idx upd i)
  unfold Ideal.hostScatterAdd
  exact IsReal.add (hx i) (isReal_sum _ _ fun j _ => hu j)

/-- a contraction is at each entry a finite sum of products -/
theorem dotGeneral_allReal {sl sr so : Shape} (d : DotDims sl sr so) (x : FVec Ideal sl .f32) (w : FVec Ideal sr .f32)
    (hx : AllReal' x) (hw : AllReal' w) : AllReal' (Host.dotGeneral d none x w : FVec Ideal so .f32) := by
  intro j
  show IsReal (FloatOps.dotGeneral d none .single x w j)
  rw [Ideal.dotGeneral_apply]
  exact isReal_sum _ _ fun k _ => IsReal.mul (hx _) (hw _)

/-- the reciprocal square root where the array is above a zero array, another all real array elsewhere -/
theorem select_ogt_rsqrt_allReal {s : Shape} (d z z' : FVec Ideal s .f32) (hd : AllReal' d) (hz : ∀ i, z i = 0)
    (hz' : AllReal' z') : AllReal' (select (cmpf (F := Ideal) .ogt d z) (Host.rsqrt d) z') := by
  intro i
  show IsReal (if BitVec.ofBool (decide (z i < d i)) = 1 then Ideal.rsqrt (d i) else z' i)
  rw [hz i]
  obtain ⟨r, hr⟩ := hd i
  rw [hr]
  by_cases h : (0 : EReal) < (r : EReal)
  · have hr0 : 0 < r := by exact_mod_cast h
    rw [if_pos (by rw [decide_eq_true h]; rfl)]
    exact isReal_rsqrt_of_pos hr0
  · rw [if_neg (by rw [decide_eq_false h]; decide)]
    exact hz' i

/-! ## The host chain -/

theorem degOf_allReal (ei : IVec T2x600000 32) : AllReal' (degOf (F := Ideal) ei) := by
  unfold degOf
  exact scatterAdd_allReal _ _ _ _ (broadcastInDim_allReal _ _ _ (constant_zero_allReal _))
    (broadcastInDim_allReal _ _ _ (constant_one_allReal _))

theorem disOf_allReal (ei : IVec T2x600000 32) : AllReal' (disOf (F := Ideal) ei) := by
  unfold disOf
  refine select_ogt_rsqrt_allReal _ _ _ (degOf_allReal ei) (fun i => ?_)
    (broadcastInDim_allReal _ _ _ (constant_zero_allReal _))
  show Ideal.ofBits .f32 0x00000000#32 = 0
  exact Ideal.ofBits_zero_f32

theorem normOf_allReal (ei : IVec T2x600000 32) : AllReal' (normOf (F := Ideal) ei) := by
  unfold normOf
  exact mulf_allReal _ _ (gather_allReal _ _ _ (disOf_allReal ei)) (gather_allReal _ _ _ (disOf_allReal ei))

theorem msgOf_allReal (h : FVec Ideal T50000x128 .f32) (ei : IVec T2x600000 32) (hh : AllReal' h) :
    AllReal' (msgOf (F := Ideal) h ei) := by
  unfold msgOf
  exact mulf_allReal _ _ (gather_allReal _ _ _ hh)
    (broadcastInDim_allReal _ _ _ (broadcastInDim_allReal _ _ _ (normOf_allReal ei)))

end FiniteAux

open FiniteAux in
theorem aggOf_allReal (h : FVec Ideal T50000x128 .f32) (ei : IVec T2x600000 32) (hh : AllReal' h) :
    AllReal' (aggOf (F := Ideal) h ei) := by
  unfold aggOf
  exact scatterAdd_allReal _ _ _ _ (broadcastInDim_allReal _ _ _ (constant_zero_allReal _)) (msgOf_allReal h ei hh)

theorem dot_allReal (x : FVec Ideal T50000x256 .f32) (w : FVec Ideal T256x128 .f32) (hx : AllReal' x)
    (hw : AllReal' w) : AllReal' (Host.dotGeneral dotXW none x w : FVec Ideal T50000x128 .f32) :=
  FiniteAux.dotGeneral_allReal dotXW x w hx hw

end Cert.GcnBn

end
-- ==== Proof.KI.Value.lean ====
/-
  The kernel program's result is the specification's: region 2's array is the last region's formula over the
  aggregated array and five rows; the rows are the bias, `γ` and `β` re-laid and region 1's mean and variance;
  the aggregated array is the host chain over region 0's product, which is the whole product `x · W`. With finite
  inputs every entry of `v = agg + b` is a real number, where the two ways of taking the variance agree.
-/
import proofs.«149105_j37778532336358_1_alg».proof.Proof.KI.ValueHost
import proofs.«149105_j37778532336358_1_alg».proof.Proof.KI.Value0
import proofs.«149105_j37778532336358_1_alg».proof.Proof.KI.Value1
import proofs.«149105_j37778532336358_1_alg».proof.Proof.KI.Value2
import proofs.«149105_j37778532336358_1_alg».proof.Proof.SpecBridge
import proofs.«149105_j37778532336358_1_alg».proof.Proof.Algebra
import proofs.«149105_j37778532336358_1_alg».proof.Proof.Finite
import Idealize.ShloMosaic.Lib.ValueIdx

set_option maxRecDepth 16384

noncomputable section

namespace Cert.KernelIdeal.Hand

open Cert.KernelIdeal Cert.KernelIdeal.Gen Cert.GcnBn
open Idealize.ShloMosaic Idealize.ShloMosaic.TcCoe Idealize.SL.Sem Idealize.ShloMosaic.ValueIdx

variable (m : (ℓ : Loc nD τ sig) → Buf (Elt Ideal) ℓ)

/-- The argument arrays at their literal types. -/
abbrev xA (c : Dev nD) : FVec Ideal T50000x256 .f32 := m ((c : Thread nD τ).loc main_arg0)
abbrev eA (c : Dev nD) : IVec T2x600000 32 := m ((c : Thread nD τ).loc main_arg1)
abbrev wA (c : Dev nD) : FVec Ideal T256x128 .f32 := m ((c : Thread nD τ).loc main_arg2)
abbrev bA (c : Dev nD) : FVec Ideal T128 .f32 := m ((c : Thread nD τ).loc main_arg3)
abbrev gA (c : Dev nD) : FVec Ideal T128 .f32 := m ((c : Thread nD τ).loc main_arg4)
abbrev beA (c : Dev nD) : FVec Ideal T128 .f32 := m ((c : Thread nD τ).loc main_arg5)

/-- Region 0 leaves the whole product in `h`. -/
theorem W1_v0 (c : Dev nD) :
    W1 m c (Proc.devRef .tc main_v0)
      = (Host.dotGeneral (F := Ideal) dotXW none (xA m c) (wA m c) : FVec Ideal T50000x128 .f32) :=
  (W1_arr m c 2).trans (arr0 (U0 m) c)

/-- What region 2 finds in the aggregated array: the host chain over the product and the edge list. -/
theorem U5_v43 (c : Dev nD) :
    U5 m c main_v43 = aggOf (F := Ideal) (Host.dotGeneral (F := Ideal) dotXW none (xA m c) (wA m c))
      (eA m c) := by
  have h1 : U5 m c main_v43 = U4 m c main_v43 :=
    (W5_arr m c 0).trans (((dat1 (U4 m) c).arrAt_in 0 rfl _).trans (A_eq1 (U4 m) c 0))
  rw [h1]
  show W4 m c (Proc.devRef .tc main_v43) = _
  rw [W4_v43, W1_v0, show W1 m c (Proc.devRef .tc main_arg1) = eA m c from W1_of_ne m c main_arg1 (by decide)]

theorem U4_v44 (c : Dev nD) : U4 m c main_v44 = shapeCast T1x128 (bA m c) (by decide) := by
  show W4 m c (Proc.devRef .tc main_v44) = _
  rw [W4_v44, show W1 m c (Proc.devRef .tc main_arg3) = bA m c from W1_of_ne m c main_arg3 (by decide)]
theorem U5_v44 (c : Dev nD) : U5 m c main_v44 = shapeCast T1x128 (bA m c) (by decide) :=
  ((W5_arr m c 1).trans (((dat1 (U4 m) c).arrAt_in 1 rfl _).trans (A_eq1 (U4 m) c 1))).trans (U4_v44 m c)
theorem U5_v45 (c : Dev nD) : U5 m c main_v45 = shapeCast T1x128 (gA m c) (by decide) := by
  show W5 m c (Proc.devRef .tc main_v45) = _
  rw [W5_of_ne m c main_v45 (by decide), W4_v45, show W1 m c (Proc.devRef .tc main_arg4) = gA m c from W1_of_ne m c main_arg4 (by decide)]
theorem U5_v46 (c : Dev nD) : U5 m c main_v46 = shapeCast T1x128 (beA m c) (by decide) := by
  show W5 m c (Proc.devRef .tc main_v46) = _
  rw [W5_of_ne m c main_v46 (by decide), W4_v46, show W1 m c (Proc.devRef .tc main_arg5) = beA m c from W1_of_ne m c main_arg5 (by decide)]

/-- The aggregated array as region 1 finds it is the one region 2 finds. -/
theorem U4_v43 (c : Dev nD) : U4 m c main_v43 = U5 m c main_v43 :=
  ((W5_arr m c 0).trans (((dat1 (U4 m) c).arrAt_in 0 rfl _).trans (A_eq1 (U4 m) c 0))).symm

/-- THE KERNEL'S VALUE: the result array ends at the kernel's way of the specification. -/
theorem W6_v48 (c : Dev nD) :
    W6 m c (Proc.devRef .tc main_v48)
      = bnK (F := Ideal) (addf (aggOf (F := Ideal) (Host.dotGeneral (F := Ideal) dotXW none (xA m c) (wA m c))
          (eA m c)) (rows (bA m c)))
        (gA m c) (beA m c) := by
  refine ((W6_arr m c 6).trans (arr2 (U5 m) c)).trans ?_
  rw [show U5 m c main_v47_0 = (dat1 (U4 m) c).arrAt 2 cfg1.N from W5_arr m c 2,
    show U5 m c main_v47_1 = (dat1 (U4 m) c).arrAt 3 cfg1.N from W5_arr m c 3,
    arr1_mean (U4 m) c, arr1_var (U4 m) c, U4_v43, U4_v44, U5_v44, U5_v45, U5_v46, U5_v43]
  exact applyK_eq_bnK _ _ _ _

/-- Under the precondition's finiteness the kernel's value is the reference's. -/
theorem W6_v48_ref (c : Dev nD)
    (hx : AllReal (xA m c)) (hw : AllReal (wA m c))
    (hb : AllReal (bA m c)) :
    W6 m c (Proc.devRef .tc main_v48)
      = refOf (F := Ideal) (xA m c) (eA m c) (wA m c)
          (bA m c) (gA m c) (beA m c) := by
  rw [W6_v48]
  unfold refOf
  exact (bnRef_eq_bnK _ _ _ (allReal_add_rows _ _ (aggOf_allReal _ _ (dot_allReal _ _ hx hw)) hb)).symm

end Cert.KernelIdeal.Hand

end
-- ==== Proof.RefValue.lean ====
/-
  The reference program's result, as the generated run states it, is the specification `refOf` of the argument
  arrays: the two are the same composition of the same operations, the specification's stated over literal shapes.
-/
import proofs.«149105_j37778532336358_1_alg».proof.Proof.RefRunP
import proofs.«149105_j37778532336358_1_alg».proof.Proof.Spec

noncomputable section

namespace Cert.ReferenceIdeal.RefValue

open Cert.ReferenceIdeal Cert.ReferenceIdeal.Gen Cert.ReferenceIdeal.ValueP Idealize.ShloMosaic Idealize.ShloMosaic.TcCoe Idealize.SL.Sem Cert.GcnBn

variable {F : FTy → Type} [FloatOps F]

set_option maxRecDepth 65536 in
set_option maxHeartbeats 4000000 in
theorem res_eq (m : (ℓ : Loc nD τ sig) → Buf (Elt F) ℓ) (c : Dev nD) :
    res_main_v72 (F := F) m c
      = refOf (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold res_main_v72 refOf bnRef varRef meanRef rows aggOf msgOf normOf disOf degOf wrapIdx rowOf colOf endsOf
  rfl

end Cert.ReferenceIdeal.RefValue

end
-- ==== Proof.PreReal.lean ====
/-
  The precondition, read: every entry of each of the five float inputs is a real number.

  The precondition takes, for each float input, the absolute value of every entry, compares it strictly below the
  word 0x7F800000 (which denotes +∞), reduces the comparisons by "and" over all axes, and takes the "and" of the
  five results; it states that the outcome is one. So each of the five reductions is one, hence every comparison is
  one, hence every entry x has max x (-x) < ⊤. Of the extended reals, ⊥ and ⊤ both have max x (-x) = ⊤; what is
  left are the real numbers.
-/
import proofs.«149105_j37778532336358_1_alg».proof.Defs
import proofs.«149105_j37778532336358_1_alg».proof.Proof.Gen.Pre_finite_inputs
import proofs.«149105_j37778532336358_1_alg».proof.Proof.Gen.KernelIdeal
import proofs.«149105_j37778532336358_1_alg».proof.Proof.Algebra
import Idealize.ShloMosaic.Lib.ReduceAll
import Idealize.ShloMosaic.Lib.ValueIdx
import Mathlib.Data.EReal.Basic

noncomputable section

namespace Cert.Proof.PreReal

open Idealize.ShloMosaic Idealize.ShloMosaic.ValueIdx

/-- The word 0x7F800000 denotes +∞. -/
theorem ofBits_inf : Ideal.ofBits .f32 0x7F800000#32 = (⊤ : EReal) := by
  simp [Ideal.ofBits, Ideal.ieee]

/-- An extended real whose absolute value is strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The same, with the comparison as the precondition writes it: a one-bit word that is one. -/
theorem real_of_cmp (x : EReal)
    (h : Ideal.cmp .olt (max x (-x)) (Ideal.ofBits .f32 0x7F800000#32) = 1#1) : ∃ r : ℝ, x = (r : EReal) := by
  rw [ofBits_inf] at h
  refine real_of_abs_lt_top x ?_
  by_contra hn
  simp [Ideal.cmp, hn] at h

/-- The result of a reduction over all axes has one index. -/
instance : Subsingleton Cert.Pre_finite_inputs.S_.Idx := ⟨fun a b => funext fun d => d.elim0⟩

/-- If the conjunction over all axes of the comparisons `|v i| < +∞` is one, every entry of `v` is real. -/
theorem allReal_of_all {s : Shape} {axes : List (Fin s.rank)} (v : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
        (cmpf .olt (Host.absf v)
          (broadcastInDim s ![] hb (constant (F := Ideal) Cert.Pre_finite_inputs.S_ .f32 0x7F800000#32)))
        init hr hu j = 1#1) :
    Cert.GcnBn.AllReal v := by
  intro i
  exact real_of_cmp (v i) (Host.reduce_andi_all _ init hr hu j e i)

/-- Under the precondition each of the five float inputs has only real entries. -/
theorem pre_allReal (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Cert.GcnBn.AllReal (m ((c.tc : Thread Cert.KernelIdeal.nD Cert.KernelIdeal.τ).loc Cert.KernelIdeal.main_arg0))
    ∧ Cert.GcnBn.AllReal (m ((c.tc : Thread _ _).loc Cert.KernelIdeal.main_arg2))
    ∧ Cert.GcnBn.AllReal (m ((c.tc : Thread _ _).loc Cert.KernelIdeal.main_arg3))
    ∧ Cert.GcnBn.AllReal (m ((c.tc : Thread _ _).loc Cert.KernelIdeal.main_arg4))
    ∧ Cert.GcnBn.AllReal (m ((c.tc : Thread _ _).loc Cert.KernelIdeal.main_arg5)) := by
  have h0 := congrFun (h c) ValueIdx.ix0
  dsimp only [Cert.Pre_finite_inputs.fn, Cert.Pre_finite_inputs.fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨allReal_of_all _ _ _ _ _ _ e0, allReal_of_all _ _ _ _ _ _ e2, allReal_of_all _ _ _ _ _ _ e3,
    allReal_of_all _ _ _ _ _ _ e4, allReal_of_all _ _ _ _ _ _ e5⟩

/-- The same five facts with each array's shape written out as its literal. -/
theorem pre_allReal_lit (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Cert.GcnBn.AllReal (s := Cert.KernelIdeal.S50000x256)
        (m ((c.tc : Thread Cert.KernelIdeal.nD Cert.KernelIdeal.τ).loc Cert.KernelIdeal.main_arg0))
    ∧ Cert.GcnBn.AllReal (s := Cert.KernelIdeal.S256x128) (m ((c.tc : Thread _ _).loc Cert.KernelIdeal.main_arg2))
    ∧ Cert.GcnBn.AllReal (s := Cert.KernelIdeal.S128) (m ((c.tc : Thread _ _).loc Cert.KernelIdeal.main_arg3))
    ∧ Cert.GcnBn.AllReal (s := Cert.KernelIdeal.S128) (m ((c.tc : Thread _ _).loc Cert.KernelIdeal.main_arg4))
    ∧ Cert.GcnBn.AllReal (s := Cert.KernelIdeal.S128) (m ((c.tc : Thread _ _).loc Cert.KernelIdeal.main_arg5)) :=
  pre_allReal m h c

end Cert.Proof.PreReal
-- ==== Proof.lean ====
/-
  The certificate of a graph-convolution layer with batch normalisation and a rectifier: a Pallas program of three
  kernel regions (the product `x · W` block by block; the column sums and sums of squares of the aggregated array,
  carried in scratch over ten grid points, turned into the mean and the variance at the last; the normalisation
  block by block) with the gather / scatter aggregation on the host between the first two, against a plain reference.

  Frames. Each region is certified at any entry contents (Proof/K*/Region0..2.lean) and the three are chained with
  the host stretches from the launch to the return (Proof/K*/Run.lean): every execution terminates, nothing faults,
  every unscoped buffer ends at the contents the chain of boundaries computes, the arguments as launched. The
  reference is host operations only: its run is read back operation by operation.

  Values, on the extended reals. The kernel's result array is `bnK (agg + b) γ β` (Proof/KI/Value*.lean): the ten
  block products are the whole product, the host chain is the specification's `aggOf`, the carried sums are the full
  column sums, the last region is pointwise. The reference's is `bnRef (agg + b) γ β` with the same `agg`
  (Proof/RefValue.lean). They differ in the variance only: the mean of the squared deviations against the mean of
  the squares minus the squared mean. Finite inputs make every entry of `agg + b` a real number (Proof/Finite.lean,
  Proof/PreReal.lean), and on real entries the two variances are one number (Proof/Algebra.lean).
-/
import proofs.«149105_j37778532336358_1_alg».proof.Defs
import proofs.«149105_j37778532336358_1_alg».proof.Proof.Gen.Kernel
import proofs.«149105_j37778532336358_1_alg».proof.Proof.Gen.KernelIdeal
import proofs.«149105_j37778532336358_1_alg».proof.Proof.Gen.ReferenceIdeal
import proofs.«149105_j37778532336358_1_alg».proof.Proof.Gen.Pre_finite_inputs
import proofs.«149105_j37778532336358_1_alg».proof.Proof.K.Run
import proofs.«149105_j37778532336358_1_alg».proof.Proof.KI.Run
import proofs.«149105_j37778532336358_1_alg».proof.Proof.KI.Value
import proofs.«149105_j37778532336358_1_alg».proof.Proof.RefRunP
import proofs.«149105_j37778532336358_1_alg».proof.Proof.RefValue
import proofs.«149105_j37778532336358_1_alg».proof.Proof.PreReal
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both programs end at the specification's `refOf` of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.GcnBn.refOf (F := Ideal) (Cert.KernelIdeal.Hand.xA m c) (Cert.KernelIdeal.Hand.eA m c) (Cert.KernelIdeal.Hand.wA m c)
      (Cert.KernelIdeal.Hand.bA m c) (Cert.KernelIdeal.Hand.gA m c) (Cert.KernelIdeal.Hand.beA m c), ?_, ?_⟩
  · refine (θ_run Cert.KernelIdeal.defs _ _).mono (fun r h c => ⟨(h c).1.trans ?_, (h c).2⟩) (Cert.KernelIdeal.Hand.run_result m ρ)
    obtain ⟨hx, hw, hb, -, -⟩ := Cert.Proof.PreReal.pre_allReal m hpre c
    exact Cert.KernelIdeal.Hand.W6_v48_ref m c hx hw hb
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.res_eq, (hagree c).1, (hagree c).2.1, (hagree c).2.2.1, (hagree c).2.2.2.1, (hagree c).2.2.2.2.1,
      (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
